-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v158)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v158) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x7x64 : Shape := ⟨3, ![131072, 7, 64]⟩
abbrev S64x128 : Shape := ⟨2, ![64, 128]⟩
abbrev S64 : Shape := ⟨1, ![64]⟩
abbrev S7 : Shape := ⟨1, ![7]⟩
abbrev S_ : Shape := ⟨0, ![]⟩

class Facts : Prop where
  bcast_S_S131072x7x64 : S_.BroadcastsInDim S131072x7x64 (![] : Fin 0 → Fin S131072x7x64.rank)
  reducesTo_S131072x7x64_S_d0_1_2 : S131072x7x64.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S7 : S_.BroadcastsInDim S7 (![] : Fin 0 → Fin S7.rank)
  reducesTo_S7_S_d0 : S7.ReducesTo [0] S_

variable [Facts]

def fn_part1 {F : FTy → Type} [FloatOps F] (main_v13 : IVec S_ 1) (main_v16 : IVec S7 1) : IVec S_ 1 :=
  let main_c_5 : IVec S_ 1 := constantI S_ 1 1#1
  let main_v17 : IVec S_ 1 := (fun x v => Host.reduce IntOp.andi x v reducesTo_S7_S_d0 h_S_) main_v16 main_c_5
  let main_v18 : IVec S_ 1 := andi main_v13 main_v17
  main_v18

def fn {F : FTy → Type} [FloatOps F] (main_arg0 : FVec F S131072x7x64 .f32) (main_arg1 : FVec F S64x128 .f32) (main_arg2 : FVec F S64 .f32) (main_arg3 : FVec F S7 .f32) : IVec S_ 1 :=
  let main_v0 : FVec F S131072x7x64 .f32 := Host.absf main_arg0
  let main_cst : FVec F S_ .f32 := constant S_ .f32 0x7F800000#32
  let main_v1 : FVec F S131072x7x64 .f32 := broadcastInDim S131072x7x64 ![] bcast_S_S131072x7x64 main_cst
  let main_v2 : IVec S131072x7x64 1 := cmpf .olt main_v0 main_v1
  let main_c : IVec S_ 1 := constantI S_ 1 1#1
  let main_v3 : IVec S_ 1 := (fun x v => Host.reduce IntOp.andi x v reducesTo_S131072x7x64_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S7 .f32 := Host.absf main_arg3
  let main_cst_4 : FVec F S_ .f32 := constant S_ .f32 0x7F800000#32
  let main_v15 : FVec F S7 .f32 := broadcastInDim S7 ![] bcast_S_S7 main_cst_4
  let main_v16 : IVec S7 1 := cmpf .olt main_v14 main_v15
  fn_part1 (F := F) main_v13 main_v16
-- ==== Kernel.lean ====
abbrev S131072x7x64 : Shape := ⟨3, ![131072, 7, 64]⟩
abbrev S64x128 : Shape := ⟨2, ![64, 128]⟩
abbrev S64 : Shape := ⟨1, ![64]⟩
abbrev S7 : Shape := ⟨1, ![7]⟩
abbrev S_ : Shape := ⟨0, ![]⟩
abbrev S1 : Shape := ⟨1, ![1]⟩
abbrev S128x64 : Shape := ⟨2, ![128, 64]⟩
abbrev S64x64 : Shape := ⟨2, ![64, 64]⟩
abbrev S448x448 : Shape := ⟨2, ![448, 448]⟩
abbrev S1x448 : Shape := ⟨2, ![1, 448]⟩
abbrev S2 : Shape := ⟨1, ![2]⟩
abbrev S131072x448 : Shape := ⟨2, ![131072, 448]⟩
abbrev S2048x448 : Shape := ⟨2, ![2048, 448]⟩

abbrev nBuf : Space → Nat
  | .hbm => 210
  | .vmem => 6
  | .smem => 0
  | _ => 0

abbrev hbmTy0_0 (i : Nat) : BufTy := match i % 128 with
  | 0 => ⟨S131072x7x64, .f32⟩
  | 1 => ⟨S64x128, .f32⟩
  | 2 => ⟨S64, .f32⟩
  | 3 => ⟨S7, .f32⟩
  | 4 => ⟨S_, .f32⟩
  | 5 => ⟨S_, .f32⟩
  | 6 => ⟨S_, .f32⟩
  | 7 => ⟨S_, .f32⟩
  | 8 => ⟨S1, .f32⟩
  | 9 => ⟨S7, .f32⟩
  | 10 => ⟨S7, .f32⟩
  | 11 => ⟨S7, .f32⟩
  | 12 => ⟨S_, .f32⟩
  | 13 => ⟨S_, .f32⟩
  | 14 => ⟨S1, .f32⟩
  | 15 => ⟨S7, .f32⟩
  | 16 => ⟨S7, .f32⟩
  | 17 => ⟨S128x64, .f32⟩
  | 18 => ⟨S64x64, .f32⟩
  | 19 => ⟨S64x64, .f32⟩
  | 20 => ⟨S_, .f32⟩
  | 21 => ⟨S448x448, .f32⟩
  | 22 => ⟨S_, .f32⟩
  | 23 => ⟨S1x448, .f32⟩
  | 24 => ⟨S1, .f32⟩
  | 25 => ⟨S_, .f32⟩
  | 26 => ⟨S64x64, .f32⟩
  | 27 => ⟨S64x64, .f32⟩
  | 28 => ⟨S_, .i32⟩
  | 29 => ⟨S1, .i32⟩
  | 30 => ⟨S_, .i32⟩
  | 31 => ⟨S1, .i32⟩
  | 32 => ⟨S2, .i32⟩
  | 33 => ⟨S448x448, .f32⟩
  | 34 => ⟨S64x64, .f32⟩
  | 35 => ⟨S64x64, .f32⟩
  | 36 => ⟨S_, .i32⟩
  | 37 => ⟨S1, .i32⟩
  | 38 => ⟨S_, .i32⟩
  | 39 => ⟨S1, .i32⟩
  | 40 => ⟨S2, .i32⟩
  | 41 => ⟨S448x448, .f32⟩
  | 42 => ⟨S64, .f32⟩
  | 43 => ⟨S64, .f32⟩
  | 44 => ⟨S_, .i32⟩
  | 45 => ⟨S1, .i32⟩
  | 46 => ⟨S_, .i32⟩
  | 47 => ⟨S1, .i32⟩
  | 48 => ⟨S2, .i32⟩
  | 49 => ⟨S1x448, .f32⟩
  | 50 => ⟨S1, .f32⟩
  | 51 => ⟨S_, .f32⟩
  | 52 => ⟨S64x64, .f32⟩
  | 53 => ⟨S64x64, .f32⟩
  | 54 => ⟨S_, .i32⟩
  | 55 => ⟨S1, .i32⟩
  | 56 => ⟨S_, .i32⟩
  | 57 => ⟨S1, .i32⟩
  | 58 => ⟨S2, .i32⟩
  | 59 => ⟨S448x448, .f32⟩
  | 60 => ⟨S64x64, .f32⟩
  | 61 => ⟨S64x64, .f32⟩
  | 62 => ⟨S_, .i32⟩
  | 63 => ⟨S1, .i32⟩
  | 64 => ⟨S_, .i32⟩
  | 65 => ⟨S1, .i32⟩
  | 66 => ⟨S2, .i32⟩
  | 67 => ⟨S448x448, .f32⟩
  | 68 => ⟨S64, .f32⟩
  | 69 => ⟨S64, .f32⟩
  | 70 => ⟨S_, .i32⟩
  | 71 => ⟨S1, .i32⟩
  | 72 => ⟨S_, .i32⟩
  | 73 => ⟨S1, .i32⟩
  | 74 => ⟨S2, .i32⟩
  | 75 => ⟨S1x448, .f32⟩
  | 76 => ⟨S1, .f32⟩
  | 77 => ⟨S_, .f32⟩
  | 78 => ⟨S64x64, .f32⟩
  | 79 => ⟨S64x64, .f32⟩
  | 80 => ⟨S_, .i32⟩
  | 81 => ⟨S1, .i32⟩
  | 82 => ⟨S_, .i32⟩
  | 83 => ⟨S1, .i32⟩
  | 84 => ⟨S2, .i32⟩
  | 85 => ⟨S448x448, .f32⟩
  | 86 => ⟨S64x64, .f32⟩
  | 87 => ⟨S64x64, .f32⟩
  | 88 => ⟨S_, .i32⟩
  | 89 => ⟨S1, .i32⟩
  | 90 => ⟨S_, .i32⟩
  | 91 => ⟨S1, .i32⟩
  | 92 => ⟨S2, .i32⟩
  | 93 => ⟨S448x448, .f32⟩
  | 94 => ⟨S64, .f32⟩
  | 95 => ⟨S64, .f32⟩
  | 96 => ⟨S_, .i32⟩
  | 97 => ⟨S1, .i32⟩
  | 98 => ⟨S_, .i32⟩
  | 99 => ⟨S1, .i32⟩
  | 100 => ⟨S2, .i32⟩
  | 101 => ⟨S1x448, .f32⟩
  | 102 => ⟨S1, .f32⟩
  | 103 => ⟨S_, .f32⟩
  | 104 => ⟨S64x64, .f32⟩
  | 105 => ⟨S64x64, .f32⟩
  | 106 => ⟨S_, .i32⟩
  | 107 => ⟨S1, .i32⟩
  | 108 => ⟨S_, .i32⟩
  | 109 => ⟨S1, .i32⟩
  | 110 => ⟨S2, .i32⟩
  | 111 => ⟨S448x448, .f32⟩
  | 112 => ⟨S64x64, .f32⟩
  | 113 => ⟨S64x64, .f32⟩
  | 114 => ⟨S_, .i32⟩
  | 115 => ⟨S1, .i32⟩
  | 116 => ⟨S_, .i32⟩
  | 117 => ⟨S1, .i32⟩
  | 118 => ⟨S2, .i32⟩
  | 119 => ⟨S448x448, .f32⟩
  | 120 => ⟨S64, .f32⟩
  | 121 => ⟨S64, .f32⟩
  | 122 => ⟨S_, .i32⟩
  | 123 => ⟨S1, .i32⟩
  | 124 => ⟨S_, .i32⟩
  | 125 => ⟨S1, .i32⟩
  | 126 => ⟨S2, .i32⟩
  | 127 => ⟨S1x448, .f32⟩
  | _ => ⟨S131072x7x64, .f32⟩

abbrev hbmTy0_1 (i : Nat) : BufTy := match i % 128 with
  | 0 => ⟨S1, .f32⟩
  | 1 => ⟨S_, .f32⟩
  | 2 => ⟨S64x64, .f32⟩
  | 3 => ⟨S64x64, .f32⟩
  | 4 => ⟨S_, .i32⟩
  | 5 => ⟨S1, .i32⟩
  | 6 => ⟨S_, .i32⟩
  | 7 => ⟨S1, .i32⟩
  | 8 => ⟨S2, .i32⟩
  | 9 => ⟨S448x448, .f32⟩
  | 10 => ⟨S64x64, .f32⟩
  | 11 => ⟨S64x64, .f32⟩
  | 12 => ⟨S_, .i32⟩
  | 13 => ⟨S1, .i32⟩
  | 14 => ⟨S_, .i32⟩
  | 15 => ⟨S1, .i32⟩
  | 16 => ⟨S2, .i32⟩
  | 17 => ⟨S448x448, .f32⟩
  | 18 => ⟨S64, .f32⟩
  | 19 => ⟨S64, .f32⟩
  | 20 => ⟨S_, .i32⟩
  | 21 => ⟨S1, .i32⟩
  | 22 => ⟨S_, .i32⟩
  | 23 => ⟨S1, .i32⟩
  | 24 => ⟨S2, .i32⟩
  | 25 => ⟨S1x448, .f32⟩
  | 26 => ⟨S1, .f32⟩
  | 27 => ⟨S_, .f32⟩
  | 28 => ⟨S64x64, .f32⟩
  | 29 => ⟨S64x64, .f32⟩
  | 30 => ⟨S_, .i32⟩
  | 31 => ⟨S1, .i32⟩
  | 32 => ⟨S_, .i32⟩
  | 33 => ⟨S1, .i32⟩
  | 34 => ⟨S2, .i32⟩
  | 35 => ⟨S448x448, .f32⟩
  | 36 => ⟨S64x64, .f32⟩
  | 37 => ⟨S64x64, .f32⟩
  | 38 => ⟨S_, .i32⟩
  | 39 => ⟨S1, .i32⟩
  | 40 => ⟨S_, .i32⟩
  | 41 => ⟨S1, .i32⟩
  | 42 => ⟨S2, .i32⟩
  | 43 => ⟨S448x448, .f32⟩
  | 44 => ⟨S64, .f32⟩
  | 45 => ⟨S64, .f32⟩
  | 46 => ⟨S_, .i32⟩
  | 47 => ⟨S1, .i32⟩
  | 48 => ⟨S_, .i32⟩
  | 49 => ⟨S1, .i32⟩
  | 50 => ⟨S2, .i32⟩
  | 51 => ⟨S1x448, .f32⟩
  | 52 => ⟨S1, .f32⟩
  | 53 => ⟨S_, .f32⟩
  | 54 => ⟨S64x64, .f32⟩
  | 55 => ⟨S64x64, .f32⟩
  | 56 => ⟨S_, .i32⟩
  | 57 => ⟨S1, .i32⟩
  | 58 => ⟨S_, .i32⟩
  | 59 => ⟨S1, .i32⟩
  | 60 => ⟨S2, .i32⟩
  | 61 => ⟨S448x448, .f32⟩
  | 62 => ⟨S64x64, .f32⟩
  | 63 => ⟨S64x64, .f32⟩
  | 64 => ⟨S_, .i32⟩
  | 65 => ⟨S1, .i32⟩
  | 66 => ⟨S_, .i32⟩
  | 67 => ⟨S1, .i32⟩
  | 68 => ⟨S2, .i32⟩
  | 69 => ⟨S448x448, .f32⟩
  | 70 => ⟨S64, .f32⟩
  | 71 => ⟨S64, .f32⟩
  | 72 => ⟨S_, .i32⟩
  | 73 => ⟨S1, .i32⟩
  | 74 => ⟨S_, .i32⟩
  | 75 => ⟨S1, .i32⟩
  | 76 => ⟨S2, .i32⟩
  | 77 => ⟨S1x448, .f32⟩
  | 78 => ⟨S448x448, .bf16⟩
  | 79 => ⟨S131072x448, .f32⟩
  | 80 => ⟨S131072x448, .f32⟩
  | 81 => ⟨S131072x7x64, .f32⟩
  | _ => ⟨S131072x7x64, .f32⟩

abbrev hbmTy (i : Nat) : BufTy := match i / 128 with
  | 0 => hbmTy0_0 i
  | 1 => hbmTy0_1 i
  | _ => ⟨S131072x7x64, .f32⟩

abbrev bufTy : (tb : Table) → Fin (tcTables nBuf tb) → BufTy
  | .hbm, ⟨i, _⟩ => hbmTy i
  | .local _ .vmem, ⟨0, _⟩ => ⟨S2048x448, .f32⟩
  | .local _ .vmem, ⟨1, _⟩ => ⟨S2048x448, .f32⟩
  | .local _ .vmem, ⟨2, _⟩ => ⟨S448x448, .bf16⟩
  | .local _ .vmem, ⟨3, _⟩ => ⟨S1x448, .f32⟩
  | .local _ .vmem, ⟨4, _⟩ => ⟨S2048x448, .f32⟩
  | .local _ .vmem, ⟨5, _⟩ => ⟨S2048x448, .f32⟩
  | _, _ => ⟨S131072x7x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_7 : Ref sig .tc := ⟨.hbm, 44, rfl⟩
abbrev main_v31 : Ref sig .tc := ⟨.hbm, 45, rfl⟩
abbrev main_c_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_9 : Ref sig .tc := ⟨.hbm, 54, rfl⟩
abbrev main_v39 : Ref sig .tc := ⟨.hbm, 55, rfl⟩
abbrev main_c_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_11 : Ref sig .tc := ⟨.hbm, 62, rfl⟩
abbrev main_v45 : Ref sig .tc := ⟨.hbm, 63, rfl⟩
abbrev main_c_12 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_13 : Ref sig .tc := ⟨.hbm, 70, rfl⟩
abbrev main_v51 : Ref sig .tc := ⟨.hbm, 71, rfl⟩
abbrev main_c_14 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_15 : Ref sig .tc := ⟨.hbm, 80, rfl⟩
abbrev main_v59 : Ref sig .tc := ⟨.hbm, 81, rfl⟩
abbrev main_c_16 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_17 : Ref sig .tc := ⟨.hbm, 88, rfl⟩
abbrev main_v65 : Ref sig .tc := ⟨.hbm, 89, rfl⟩
abbrev main_c_18 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_19 : Ref sig .tc := ⟨.hbm, 96, rfl⟩
abbrev main_v71 : Ref sig .tc := ⟨.hbm, 97, rfl⟩
abbrev main_c_20 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_21 : Ref sig .tc := ⟨.hbm, 106, rfl⟩
abbrev main_v79 : Ref sig .tc := ⟨.hbm, 107, rfl⟩
abbrev main_c_22 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_c_23 : Ref sig .tc := ⟨.hbm, 114, rfl⟩
abbrev main_v85 : Ref sig .tc := ⟨.hbm, 115, rfl⟩
abbrev main_c_24 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c_25 : Ref sig .tc := ⟨.hbm, 122, rfl⟩
abbrev main_v91 : Ref sig .tc := ⟨.hbm, 123, rfl⟩
abbrev main_c_26 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_c_27 : Ref sig .tc := ⟨.hbm, 132, rfl⟩
abbrev main_v99 : Ref sig .tc := ⟨.hbm, 133, rfl⟩
abbrev main_c_28 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_c_29 : Ref sig .tc := ⟨.hbm, 140, rfl⟩
abbrev main_v105 : Ref sig .tc := ⟨.hbm, 141, rfl⟩
abbrev main_c_30 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_c_31 : Ref sig .tc := ⟨.hbm, 148, rfl⟩
abbrev main_v111 : Ref sig .tc := ⟨.hbm, 149, rfl⟩
abbrev main_c_32 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_c_33 : Ref sig .tc := ⟨.hbm, 158, rfl⟩
abbrev main_v119 : Ref sig .tc := ⟨.hbm, 159, rfl⟩
abbrev main_c_34 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_c_35 : Ref sig .tc := ⟨.hbm, 166, rfl⟩
abbrev main_v125 : Ref sig .tc := ⟨.hbm, 167, rfl⟩
abbrev main_c_36 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_c_37 : Ref sig .tc := ⟨.hbm, 174, rfl⟩
abbrev main_v131 : Ref sig .tc := ⟨.hbm, 175, rfl⟩
abbrev main_c_38 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_c_39 : Ref sig .tc := ⟨.hbm, 184, rfl⟩
abbrev main_v139 : Ref sig .tc := ⟨.hbm, 185, rfl⟩
abbrev main_c_40 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_c_41 : Ref sig .tc := ⟨.hbm, 192, rfl⟩
abbrev main_v145 : Ref sig .tc := ⟨.hbm, 193, rfl⟩
abbrev main_c_42 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_c_43 : Ref sig .tc := ⟨.hbm, 200, rfl⟩
abbrev main_v151 : Ref sig .tc := ⟨.hbm, 201, rfl⟩
abbrev main_c_44 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S448x448 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x448 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S7_S_d0 : S7.ReducesTo [0] S_
  h_S_ : 0 < S_.numel
  bcast_S_S1 : S_.BroadcastsInDim S1 (![] : Fin 0 → Fin S1.rank)
  bcast_S1_S7_0 : S1.BroadcastsInDim S7 (![0] : Fin 1 → Fin S7.rank)
  transposes_S64x128_S128x64_1_0 : S64x128.Transposes [1, 0] S128x64
  slices_S128x64_S64x64_0_0 : S128x64.Slices ![0, 0] S64x64
  slices_S128x64_S64x64_64_0 : S128x64.Slices ![64, 0] S64x64
  bcast_S_S448x448 : S_.BroadcastsInDim S448x448 (![] : Fin 0 → Fin S448x448.rank)
  bcast_S_S1x448 : S_.BroadcastsInDim S1x448 (![] : Fin 0 → Fin S1x448.rank)
  slices_S7_S1_0 : S7.Slices ![0] S1
  shapeCasts_S1_S_ : S1.ShapeCasts S_
  bcast_S_S64x64 : S_.BroadcastsInDim S64x64 (![] : Fin 0 → Fin S64x64.rank)
  concatenates_S1_S1_S2_d0 : Shape.Concatenates [S1, S1] S2 0
  bcast_S_S64 : S_.BroadcastsInDim S64 (![] : Fin 0 → Fin S64.rank)
  slices_S7_S1_1 : S7.Slices ![1] S1
  slices_S7_S1_2 : S7.Slices ![2] S1
  slices_S7_S1_3 : S7.Slices ![3] S1
  slices_S7_S1_4 : S7.Slices ![4] S1
  slices_S7_S1_5 : S7.Slices ![5] S1
  slices_S7_S1_6 : S7.Slices ![6] S1
  bitsLt_bf16_f32 : FTy.bits .bf16 < FTy.bits .f32
  shapeCasts_S131072x7x64_S131072x448 : S131072x7x64.ShapeCasts S131072x448
  inb_S2048x448_S2048x448_0_0 : ∀ a, (![0, 0] : Fin 2 → Nat) a + S2048x448.size a ≤ S2048x448.size a
  h_S2048x448 : 0 < S2048x448.numel
  shapeCasts_S2048x448_S2048x448 : S2048x448.ShapeCasts S2048x448
  inb_S448x448_S448x448_0_0 : ∀ a, (![0, 0] : Fin 2 → Nat) a + S448x448.size a ≤ S448x448.size a
  h_S448x448 : 0 < S448x448.numel
  shapeCasts_S448x448_S448x448 : S448x448.ShapeCasts S448x448
  inb_S1x448_S1x448_0_0 : ∀ a, (![0, 0] : Fin 2 → Nat) a + S1x448.size a ≤ S1x448.size a
  h_S1x448 : 0 < S1x448.numel
  shapeCasts_S1x448_S1x448 : S1x448.ShapeCasts S1x448
  broadcasts_S1x448_S2048x448 : S1x448.Broadcasts S2048x448
  shapeCasts_S131072x448_S131072x7x64 : S131072x448.ShapeCasts S131072x7x64
  scatter_S448x448_S2_S64x64_01_n_01_0_wf : ScatterDims.WF S448x448 S2 S64x64 [0, 1] [] [0, 1] 0
  scatter_S1x448_S2_S64_0_0_01_0_wf : ScatterDims.WF S1x448 S2 S64 [0] [0] [0, 1] 0
  dot_S2048x448_S448x448_S2048x448_1_0_0_1_n_n_wf : DotDims.WF S2048x448 S448x448 S2048x448 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x448.size a ≤ S131072x448.size a
  hwx0_0 : ∀ i : grid0.Coords, EltTy.bits .f32 = 32 ∨ (Rect.block (s := S131072x448) S2048x448.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S448x448.size a ≤ S448x448.size a
  hwx0_1 : ∀ i : grid0.Coords, EltTy.bits .bf16 = 32 ∨ (Rect.block (s := S448x448) S448x448.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x448.size a ≤ S1x448.size a
  hwx0_2 : ∀ i : grid0.Coords, EltTy.bits .f32 = 32 ∨ (Rect.block (s := S1x448) S1x448.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x448.size a ≤ S131072x448.size a
  hwx0_3 : ∀ i : grid0.Coords, EltTy.bits .f32 = 32 ∨ (Rect.block (s := S131072x448) S2048x448.size (cc0_transform_3 i) (hinb0_3 i)).WholeWords (EltTy.packing .f32)

variable [Facts₀]

def scatter_S448x448_S2_S64x64_01_n_01_0 : ScatterDims S448x448 S2 S64x64 where
  updateWindowDims := [0, 1]
  insertedWindowDims := []
  scatterDimsToOperandDims := [0, 1]
  indexVectorDim := 0
  wf := scatter_S448x448_S2_S64x64_01_n_01_0_wf
def scatter_S1x448_S2_S64_0_0_01_0 : ScatterDims S1x448 S2 S64 where
  updateWindowDims := [0]
  insertedWindowDims := [0]
  scatterDimsToOperandDims := [0, 1]
  indexVectorDim := 0
  wf := scatter_S1x448_S2_S64_0_0_01_0_wf
def dot_S2048x448_S448x448_S2048x448_1_0_0_1_n_n : DotDims S2048x448 S448x448 S2048x448 where
  lhsContracting := [1]
  rhsContracting := [0]
  lhsNonContracting := [0]
  rhsNonContracting := [1]
  lhsBatch := []
  rhsBatch := []
  wf := dot_S2048x448_S448x448_S2048x448_1_0_0_1_n_n_wf

abbrev win0_0 : Pipeline.Window sig grid0 :=
  Pipeline.Window.ofSpec (Memref.whole main_v156) S2048x448.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v155) S448x448.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v154) S1x448.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v157) S2048x448.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x7x64 : Shape := ⟨3, ![131072, 7, 64]⟩
abbrev S64x128 : Shape := ⟨2, ![64, 128]⟩
abbrev S64 : Shape := ⟨1, ![64]⟩
abbrev S7 : Shape := ⟨1, ![7]⟩
abbrev S_ : Shape := ⟨0, ![]⟩
abbrev S1 : Shape := ⟨1, ![1]⟩
abbrev S7x1 : Shape := ⟨2, ![7, 1]⟩
abbrev S131072x7x128 : Shape := ⟨3, ![131072, 7, 128]⟩
abbrev S1x1x64 : Shape := ⟨3, ![1, 1, 64]⟩
abbrev S1x7x1 : Shape := ⟨3, ![1, 7, 1]⟩

abbrev nBuf : Space → Nat
  | .hbm => 58
  | .vmem => 0
  | .smem => 0
  | _ => 0

abbrev bufTy : (tb : Table) → Fin (tcTables nBuf tb) → BufTy
  | .hbm, ⟨0, _⟩ => ⟨S131072x7x64, .f32⟩
  | .hbm, ⟨1, _⟩ => ⟨S64x128, .f32⟩
  | .hbm, ⟨2, _⟩ => ⟨S64, .f32⟩
  | .hbm, ⟨3, _⟩ => ⟨S7, .f32⟩
  | .hbm, ⟨4, _⟩ => ⟨S7, .i32⟩
  | .hbm, ⟨5, _⟩ => ⟨S7, .i32⟩
  | .hbm, ⟨6, _⟩ => ⟨S7, .i32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1, .f32⟩
  | .hbm, ⟨12, _⟩ => ⟨S7, .f32⟩
  | .hbm, ⟨13, _⟩ => ⟨S7, .f32⟩
  | .hbm, ⟨14, _⟩ => ⟨S7, .f32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S7, .f32⟩
  | .hbm, ⟨19, _⟩ => ⟨S7, .f32⟩
  | .hbm, ⟨20, _⟩ => ⟨S_, .i32⟩
  | .hbm, ⟨21, _⟩ => ⟨S7, .i32⟩
  | .hbm, ⟨22, _⟩ => ⟨S7, .i1⟩
  | .hbm, ⟨23, _⟩ => ⟨S_, .i32⟩
  | .hbm, ⟨24, _⟩ => ⟨S7, .i32⟩
  | .hbm, ⟨25, _⟩ => ⟨S7, .i32⟩
  | .hbm, ⟨26, _⟩ => ⟨S7, .i32⟩
  | .hbm, ⟨27, _⟩ => ⟨S7x1, .i32⟩
  | .hbm, ⟨28, _⟩ => ⟨S131072x7x64, .f32⟩
  | .hbm, ⟨29, _⟩ => ⟨S_, .i32⟩
  | .hbm, ⟨30, _⟩ => ⟨S7, .i32⟩
  | .hbm, ⟨31, _⟩ => ⟨S7, .i1⟩
  | .hbm, ⟨32, _⟩ => ⟨S_, .i32⟩
  | .hbm, ⟨33, _⟩ => ⟨S7, .i32⟩
  | .hbm, ⟨34, _⟩ => ⟨S7, .i32⟩
  | .hbm, ⟨35, _⟩ => ⟨S7, .i32⟩
  | .hbm, ⟨36, _⟩ => ⟨S7x1, .i32⟩
  | .hbm, ⟨37, _⟩ => ⟨S131072x7x64, .f32⟩
  | .hbm, ⟨38, _⟩ => ⟨S131072x7x128, .f32⟩
  | .hbm, ⟨39, _⟩ => ⟨S131072x7x64, .f32⟩
  | .hbm, ⟨40, _⟩ => ⟨S1x1x64, .f32⟩
  | .hbm, ⟨41, _⟩ => ⟨S131072x7x64, .f32⟩
  | .hbm, ⟨42, _⟩ => ⟨S131072x7x64, .f32⟩
  | .hbm, ⟨43, _⟩ => ⟨S1x7x1, .f32⟩
  | .hbm, ⟨44, _⟩ => ⟨S131072x7x64, .f32⟩
  | .hbm, ⟨45, _⟩ => ⟨S131072x7x64, .f32⟩
  | .hbm, ⟨46, _⟩ => ⟨S_, .f32⟩
  | .hbm, ⟨47, _⟩ => ⟨S131072x7x64, .f32⟩
  | .hbm, ⟨48, _⟩ => ⟨S_, .i32⟩
  | .hbm, ⟨49, _⟩ => ⟨S7, .i32⟩
  | .hbm, ⟨50, _⟩ => ⟨S7, .i1⟩
  | .hbm, ⟨51, _⟩ => ⟨S_, .i32⟩
  | .hbm, ⟨52, _⟩ => ⟨S7, .i32⟩
  | .hbm, ⟨53, _⟩ => ⟨S7, .i32⟩
  | .hbm, ⟨54, _⟩ => ⟨S7, .i32⟩
  | .hbm, ⟨55, _⟩ => ⟨S7x1, .i32⟩
  | .hbm, ⟨56, _⟩ => ⟨S131072x7x64, .f32⟩
  | .hbm, ⟨57, _⟩ => ⟨S131072x7x64, .f32⟩
  | _, _ => ⟨S131072x7x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_cst : Ref sig .tc := ⟨.hbm, 7, rfl⟩
abbrev main_v0 : Ref sig .tc := ⟨.hbm, 8, rfl⟩
abbrev main_cst_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_3 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_4 : Ref sig .tc := ⟨.hbm, 20, rfl⟩
abbrev main_v10 : Ref sig .tc := ⟨.hbm, 21, rfl⟩
abbrev main_v11 : Ref sig .tc := ⟨.hbm, 22, rfl⟩
abbrev main_c_5 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_6 : Ref sig .tc := ⟨.hbm, 29, rfl⟩
abbrev main_v17 : Ref sig .tc := ⟨.hbm, 30, rfl⟩
abbrev main_v18 : Ref sig .tc := ⟨.hbm, 31, rfl⟩
abbrev main_c_7 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_c_9 : Ref sig .tc := ⟨.hbm, 48, rfl⟩
abbrev main_v33 : Ref sig .tc := ⟨.hbm, 49, rfl⟩
abbrev main_v34 : Ref sig .tc := ⟨.hbm, 50, rfl⟩
abbrev main_c_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  reducesTo_S7_S_d0 : S7.ReducesTo [0] S_
  h_S_ : 0 < S_.numel
  bcast_S_S1 : S_.BroadcastsInDim S1 (![] : Fin 0 → Fin S1.rank)
  bcast_S1_S7_0 : S1.BroadcastsInDim S7 (![0] : Fin 1 → Fin S7.rank)
  bcast_S_S7 : S_.BroadcastsInDim S7 (![] : Fin 0 → Fin S7.rank)
  bcast_S7_S7x1_0 : S7.BroadcastsInDim S7x1 (![0] : Fin 1 → Fin S7x1.rank)
  concatenates_S131072x7x64_S131072x7x64_S131072x7x128_d2 : Shape.Concatenates [S131072x7x64, S131072x7x64] S131072x7x128 2
  bcast_S64_S1x1x64_2 : S64.BroadcastsInDim S1x1x64 (![2] : Fin 1 → Fin S1x1x64.rank)
  bcast_S1x1x64_S131072x7x64_0_1_2 : S1x1x64.BroadcastsInDim S131072x7x64 (![0, 1, 2] : Fin 3 → Fin S131072x7x64.rank)
  bcast_S7_S1x7x1_1 : S7.BroadcastsInDim S1x7x1 (![1] : Fin 1 → Fin S1x7x1.rank)
  bcast_S1x7x1_S131072x7x64_0_1_2 : S1x7x1.BroadcastsInDim S131072x7x64 (![0, 1, 2] : Fin 3 → Fin S131072x7x64.rank)
  bcast_S_S131072x7x64 : S_.BroadcastsInDim S131072x7x64 (![] : Fin 0 → Fin S131072x7x64.rank)
  gather_S131072x7x64_S7x1_S131072x7x64_02_1_n_n_1_1_131072164_wf : GatherDims.WF S131072x7x64 S7x1 S131072x7x64 [0, 2] [1] [] [1] [] 1 ![131072, 1, 64]
  dot_S131072x7x128_S64x128_S131072x7x64_2_1_01_0_n_n_wf : DotDims.WF S131072x7x128 S64x128 S131072x7x64 [2] [1] [0, 1] [0] [] []
  scatter_S131072x7x64_S7x1_S131072x7x64_02_1_1_1_wf : ScatterDims.WF S131072x7x64 S7x1 S131072x7x64 [0, 2] [1] [1] 1

variable [Facts₀]

def gather_S131072x7x64_S7x1_S131072x7x64_02_1_n_n_1_1_131072164 : GatherDims S131072x7x64 S7x1 S131072x7x64 where
  offsetDims := [0, 2]
  collapsedSliceDims := [1]
  operandBatchingDims := []
  startIndicesBatchingDims := []
  startIndexMap := [1]
  indexVectorDim := 1
  sliceSizes := ![131072, 1, 64]
  wf := gather_S131072x7x64_S7x1_S131072x7x64_02_1_n_n_1_1_131072164_wf
def dot_S131072x7x128_S64x128_S131072x7x64_2_1_01_0_n_n : DotDims S131072x7x128 S64x128 S131072x7x64 where
  lhsContracting := [2]
  rhsContracting := [1]
  lhsNonContracting := [0, 1]
  rhsNonContracting := [0]
  lhsBatch := []
  rhsBatch := []
  wf := dot_S131072x7x128_S64x128_S131072x7x64_2_1_01_0_n_n_wf
def scatter_S131072x7x64_S7x1_S131072x7x64_02_1_1_1 : ScatterDims S131072x7x64 S7x1 S131072x7x64 where
  updateWindowDims := [0, 2]
  insertedWindowDims := [1]
  scatterDimsToOperandDims := [1]
  indexVectorDim := 1
  wf := scatter_S131072x7x64_S7x1_S131072x7x64_02_1_1_1_wf

class Facts : Prop extends Facts₀ where

variable [Facts]
-- ==== Proof.Spec.lean ====
/-
  The mathematics of the Fano-plane message-passing layer, stated once over literal shapes.

  Seven lines `(src1 l, src2 l, dst l)` on seven colonies. With gate weights `g` (a softmax, carried here as a given
  vector), a state `x : [P, 7, 64]`, a weight `W : [64, 128]` and a bias `b : [64]`, the layer's result at `(p, k, z)` is

      x[p,k,z] + Σ_{l : dst l = k} g_l · ( Σ_{f<64} x[p, src1 l, f]·W[z, f] + Σ_{f<64} x[p, src2 l, f]·W[z, 64+f] + b[z] )

  (`outAt`). The same number is reached by first folding lines, gates and weight into one 448×448 matrix `weff` and one
  448-vector `beff` — each line adds `g_l·W[:, :64]ᵀ` into block `(src1 l, dst l)` and `g_l·W[:, 64:]ᵀ` into block
  `(src2 l, dst l)` of the matrix, and `g_l·b` into segment `dst l` of the vector — and then taking one matrix product of
  the state flattened to `[P, 448]` (`kerAt`). The two agree when every entry is a real number, because then products
  distribute over sums; over the extended reals they need not.
-/
import Idealize.ShloMosaic.PureOps
import Idealize.ShloMosaic.PureOps.Ideal
import Idealize.ShloMosaic.Lib.ValueIdx

noncomputable section

namespace Cert.Fano

open Idealize.ShloMosaic Idealize.ShloMosaic.ValueIdx

/-! ## Shapes -/

abbrev SX : Shape := ⟨3, ![131072, 7, 64]⟩
abbrev SW : Shape := ⟨2, ![64, 128]⟩
abbrev SB : Shape := ⟨1, ![64]⟩
abbrev SG : Shape := ⟨1, ![7]⟩
abbrev S0 : Shape := ⟨0, ![]⟩
abbrev S1 : Shape := ⟨1, ![1]⟩

/-! ## The seven lines -/

/-- First source colony of each line. -/
def src1 : Fin 7 → Fin 7 := ![0, 0, 0, 1, 4, 3, 4]
/-- Second source colony of each line. -/
def src2 : Fin 7 → Fin 7 := ![1, 3, 5, 3, 1, 2, 2]
/-- Target colony of each line. -/
def dst : Fin 7 → Fin 7 := ![2, 4, 6, 5, 6, 6, 5]

/-! ## The layer, line by line -/

/-- The shared linear map applied to line `l`'s two source colonies of row `p`, output feature `z`: the first colony
    meets the weight's columns `0 … 63`, the second its columns `64 … 127`. -/
def lin (x : SX.Idx → EReal) (W : SW.Idx → EReal) (p : Fin 131072) (l : Fin 7) (z : Fin 64) : EReal :=
  (∑ f : Fin 64, x (ix3 p (src1 l) f) * W (ix2 z (Fin.castAdd 64 f)))
    + ∑ f : Fin 64, x (ix3 p (src2 l) f) * W (ix2 z (Fin.natAdd 64 f))

/-- The layer's result at `(p, k, z)`: the state plus the gated messages of the lines whose target is colony `k`. -/
def outAt (x : SX.Idx → EReal) (W : SW.Idx → EReal) (b : SB.Idx → EReal) (g : SG.Idx → EReal)
    (p : Fin 131072) (k : Fin 7) (z : Fin 64) : EReal :=
  x (ix3 p k z) + ∑ l : Fin 7, if dst l = k then g (ix1 l) * (lin x W p l z + b (ix1 z)) else 0

/-! ## The folded form -/

section Folded
variable {α : Type} [Add α] [Mul α] [Zero α]

/-- `A` with the 64×64 block `U` added in at rows `r0 … r0+63`, columns `c0 … c0+63`. -/
def addBlock (A : Fin 448 → Fin 448 → α) (r0 c0 : ℕ) (U : Fin 64 → Fin 64 → α) : Fin 448 → Fin 448 → α :=
  fun i j => if h : r0 ≤ i.val ∧ i.val < r0 + 64 ∧ c0 ≤ j.val ∧ j.val < c0 + 64 then
    A i j + U ⟨i.val - r0, by omega⟩ ⟨j.val - c0, by omega⟩ else A i j

/-- `v` with the 64-vector `u` added in at positions `c0 … c0+63`. -/
def addSeg (v : Fin 448 → α) (c0 : ℕ) (u : Fin 64 → α) : Fin 448 → α :=
  fun j => if h : c0 ≤ j.val ∧ j.val < c0 + 64 then v j + u ⟨j.val - c0, by omega⟩ else v j

/-- Line `l`'s two blocks added into the matrix: `g_l·W[z, f]` at `(64·src1 l + f, 64·dst l + z)` and `g_l·W[z, 64+f]` at
    `(64·src2 l + f, 64·dst l + z)`. -/
def lineStep (W : Fin 64 → Fin 128 → α) (g : Fin 7 → α) (A : Fin 448 → Fin 448 → α) (l : Fin 7) : Fin 448 → Fin 448 → α :=
  addBlock (addBlock A (64 * (src1 l).val) (64 * (dst l).val) (fun f z => g l * W z (Fin.castAdd 64 f)))
    (64 * (src2 l).val) (64 * (dst l).val) (fun f z => g l * W z (Fin.natAdd 64 f))

/-- Line `l`'s bias segment added into the vector: `g_l·b[z]` at `64·dst l + z`. -/
def segStep (b : Fin 64 → α) (g : Fin 7 → α) (v : Fin 448 → α) (l : Fin 7) : Fin 448 → α :=
  addSeg v (64 * (dst l).val) (fun z => g l * b z)

/-- The folded 448×448 matrix: the seven lines' blocks added into zero, in the lines' order. -/
def weff (W : Fin 64 → Fin 128 → α) (g : Fin 7 → α) : Fin 448 → Fin 448 → α :=
  lineStep W g (lineStep W g (lineStep W g (lineStep W g (lineStep W g (lineStep W g (lineStep W g (fun _ _ => 0) 0) 1) 2) 3) 4) 5) 6

/-- The folded 448-vector: the seven lines' bias segments added into zero, in the lines' order. -/
def beff (b : Fin 64 → α) (g : Fin 7 → α) : Fin 448 → α :=
  segStep b g (segStep b g (segStep b g (segStep b g (segStep b g (segStep b g (segStep b g (fun _ => 0) 0) 1) 2) 3) 4) 5) 6

end Folded

/-- Colony of a flattened position `r < 448`. -/
def colony (r : Fin 448) : Fin 7 := ⟨r.val / 64, by omega⟩
/-- Feature of a flattened position `r < 448`. -/
def lane (r : Fin 448) : Fin 64 := ⟨r.val % 64, by omega⟩
/-- The flattened position of colony `k`, feature `z`. -/
def col (k : Fin 7) (z : Fin 64) : Fin 448 := ⟨64 * k.val + z.val, by omega⟩

/-- The folded form's result at `(p, k, z)`: the state plus (row `p` of the flattened state times column `64k+z` of the
    matrix `M`, plus entry `64k+z` of the vector `v`). -/
def kerAt (x : SX.Idx → EReal) (M : Fin 448 → Fin 448 → EReal) (v : Fin 448 → EReal)
    (p : Fin 131072) (k : Fin 7) (z : Fin 64) : EReal :=
  x (ix3 p k z) + ((∑ r : Fin 448, x (ix3 p (colony r) (lane r)) * M r (col k z)) + v (col k z))

/-! ## The gate weights -/

section Gate
variable {F : FTy → Type} [FloatOps F]

/-- The softmax of the seven gate parameters as both programs compute it: subtract the maximum (taken from `-∞`),
    exponentiate, divide by the sum (taken from `0`). The four arguments are the shape relations the operations cite. -/
def gate (h1 : SG.ReducesTo [0] S0) (h2 : 0 < S0.numel) (h3 : S0.BroadcastsInDim S1 (![] : Fin 0 → Fin S1.rank))
    (h4 : S1.BroadcastsInDim SG (![0] : Fin 1 → Fin SG.rank)) (a : FVec F SG .f32) : FVec F SG .f32 :=
  Host.divf
    (Host.exp (subf a (broadcastInDim SG ![0] h4 (broadcastInDim S1 ![] h3
      (maximumf (constant S0 .f32 0xFF800000#32) (Host.reduce FloatOps.maximumf a (constant S0 .f32 0xFF800000#32) h1 h2))))))
    (broadcastInDim SG ![0] h4 (broadcastInDim S1 ![] h3
      (Host.reduceAdd
        (Host.exp (subf a (broadcastInDim SG ![0] h4 (broadcastInDim S1 ![] h3
          (maximumf (constant S0 .f32 0xFF800000#32) (Host.reduce FloatOps.maximumf a (constant S0 .f32 0xFF800000#32) h1 h2))))))
        (constant S0 .f32 0x00000000#32) h1 h2)))

end Gate

end Cert.Fano

end
-- ==== Proof.RefTerm.lean ====
/-
  The reference program's result as ONE term of its four argument arrays: gather the two source colonies of every
  line along the colony axis, lay them side by side on the feature axis, contract with the weight, add the bias,
  scale line `l` by its gate weight, accumulate every line into its target colony, add the state.
-/
import proofs.«400105_j43224550867196_3_alg».proof.ReferenceIdeal
import proofs.«400105_j43224550867196_3_alg».proof.Proof.Spec

noncomputable section

namespace Cert.ReferenceIdeal.RefValue

open Cert.ReferenceIdeal Idealize.ShloMosaic
open Cert.ReferenceIdeal.Facts₀ Cert.ReferenceIdeal.Facts

variable {F : FTy → Type} [FloatOps F] [Facts]

/-- A table of seven colony numbers laid out as the column of start indices the program builds from it: an entry
    below zero would be moved up by seven (none is), and the vector becomes a `[7, 1]` array. -/
def colIdx (t : Fin 7 → BitVec 32) : IVec S7x1 32 :=
  broadcastInDim S7x1 ![0] bcast_S7_S7x1_0
    (select (cmpi .slt (fun i => t (S7.rowMajor i)) (broadcastInDim S7 ![] bcast_S_S7 (constantI S_ 32 0#32)))
      (addi (fun i => t (S7.rowMajor i)) (broadcastInDim S7 ![] bcast_S_S7 (constantI S_ 32 7#32)))
      (fun i => t (S7.rowMajor i)))

/-- The reference's result of the state `x`, weight `W`, bias `b` and gate parameters `a`. -/
def refTerm (x : FVec F S131072x7x64 .f32) (W : FVec F S64x128 .f32) (b : FVec F S64 .f32) (a : FVec F S7 .f32) :
    FVec F S131072x7x64 .f32 :=
  addf x
    (Host.scatterAdd scatter_S131072x7x64_S7x1_S131072x7x64_02_1_1_1
      (broadcastInDim S131072x7x64 ![] bcast_S_S131072x7x64 (constant S_ .f32 0x00000000#32))
      (colIdx lit2)
      (mulf
        (broadcastInDim S131072x7x64 ![0, 1, 2] bcast_S1x7x1_S131072x7x64_0_1_2
          (broadcastInDim S1x7x1 ![1] bcast_S7_S1x7x1_1
            (Cert.Fano.gate reducesTo_S7_S_d0 h_S_ bcast_S_S1 bcast_S1_S7_0 a)))
        (addf
          (Host.dotGeneral dot_S131072x7x128_S64x128_S131072x7x64_2_1_01_0_n_n none
            (concatenate S131072x7x128 2
              [⟨S131072x7x64, Host.gather gather_S131072x7x64_S7x1_S131072x7x64_02_1_n_n_1_1_131072164 x (colIdx lit0)⟩,
               ⟨S131072x7x64, Host.gather gather_S131072x7x64_S7x1_S131072x7x64_02_1_n_n_1_1_131072164 x (colIdx lit1)⟩]
              concatenates_S131072x7x64_S131072x7x64_S131072x7x128_d2)
            W)
          (broadcastInDim S131072x7x64 ![0, 1, 2] bcast_S1x1x64_S131072x7x64_0_1_2
            (broadcastInDim S1x1x64 ![2] bcast_S64_S1x1x64_2 b)))))

end Cert.ReferenceIdeal.RefValue

end
-- ==== Proof.RefRun.lean ====
/-
  The reference program's run, read back as one equation per buffer of interest.

  The program is a straight line of 54 host operations on tensor values: three index tables, the softmax of the
  seven gate parameters, three columns of start indices, two gathers along the colony axis laid side by side, one
  contraction with the weight, the bias, the gate scaling, one accumulation into the target colonies, and the
  final addition of the state. Listed in order, the line's fold over the launch contents says what every buffer
  holds at the end: the result buffer holds the composed term of the four arguments, and no operation writes an
  argument, so each argument holds what it held at launch.
-/
import proofs.«400105_j43224550867196_3_alg».proof.Proof.Gen.ReferenceIdeal
import proofs.«400105_j43224550867196_3_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's 54 operations, in order. -/
abbrev ops : List (HloOp τ sig (Elt F)) :=
  [ nullary main_c (fun i => lit0 (S7.rowMajor i)),
    nullary main_c_0 (fun i => lit1 (S7.rowMajor i)),
    nullary main_c_1 (fun i => lit2 (S7.rowMajor i)),
    nullary main_cst (constant S_ .f32 0xFF800000#32),
    binary main_arg3 main_cst main_v0 ((fun x v => Host.reduce FloatOps.maximumf x v reducesTo_S7_S_d0 h_S_) : (⟨S7, .f32⟩ : BufTy).Contents (Elt F) → (⟨S_, .f32⟩ : BufTy).Contents (Elt F) → (⟨S_, .f32⟩ : BufTy).Contents (Elt F)),
    nullary main_cst_2 (constant S_ .f32 0xFF800000#32),
    binary main_cst_2 main_v0 main_v1 (maximumf : (⟨S_, .f32⟩ : BufTy).Contents (Elt F) → (⟨S_, .f32⟩ : BufTy).Contents (Elt F) → (⟨S_, .f32⟩ : BufTy).Contents (Elt F)),
    unary main_v1 main_v2 (broadcastInDim S1 ![] bcast_S_S1 : (⟨S_, .f32⟩ : BufTy).Contents (Elt F) → (⟨S1, .f32⟩ : BufTy).Contents (Elt F)),
    unary main_v2 main_v3 (broadcastInDim S7 ![0] bcast_S1_S7_0 : (⟨S1, .f32⟩ : BufTy).Contents (Elt F) → (⟨S7, .f32⟩ : BufTy).Contents (Elt F)),
    binary main_arg3 main_v3 main_v4 (subf : (⟨S7, .f32⟩ : BufTy).Contents (Elt F) → (⟨S7, .f32⟩ : BufTy).Contents (Elt F) → (⟨S7, .f32⟩ : BufTy).Contents (Elt F)),
    unary main_v4 main_v5 (Host.exp : (⟨S7, .f32⟩ : BufTy).Contents (Elt F) → (⟨S7, .f32⟩ : BufTy).Contents (Elt F)),
    nullary main_cst_3 (constant S_ .f32 0x00000000#32),
    binary main_v5 main_cst_3 main_v6 ((fun x v => Host.reduceAdd x v reducesTo_S7_S_d0 h_S_) : (⟨S7, .f32⟩ : BufTy).Contents (Elt F) → (⟨S_, .f32⟩ : BufTy).Contents (Elt F) → (⟨S_, .f32⟩ : BufTy).Contents (Elt F)),
    unary main_v6 main_v7 (broadcastInDim S1 ![] bcast_S_S1 : (⟨S_, .f32⟩ : BufTy).Contents (Elt F) → (⟨S1, .f32⟩ : BufTy).Contents (Elt F)),
    unary main_v7 main_v8 (broadcastInDim S7 ![0] bcast_S1_S7_0 : (⟨S1, .f32⟩ : BufTy).Contents (Elt F) → (⟨S7, .f32⟩ : BufTy).Contents (Elt F)),
    binary main_v5 main_v8 main_v9 (Host.divf : (⟨S7, .f32⟩ : BufTy).Contents (Elt F) → (⟨S7, .f32⟩ : BufTy).Contents (Elt F) → (⟨S7, .f32⟩ : BufTy).Contents (Elt F)),
    nullary main_c_4 (constantI S_ 32 0#32),
    unary main_c_4 main_v10 (broadcastInDim S7 ![] bcast_S_S7 : (⟨S_, .i32⟩ : BufTy).Contents (Elt F) → (⟨S7, .i32⟩ : BufTy).Contents (Elt F)),
    binary main_c main_v10 main_v11 (cmpi .slt : (⟨S7, .i32⟩ : BufTy).Contents (Elt F) → (⟨S7, .i32⟩ : BufTy).Contents (Elt F) → (⟨S7, .i1⟩ : BufTy).Contents (Elt F)),
    nullary main_c_5 (constantI S_ 32 7#32),
    unary main_c_5 main_v12 (broadcastInDim S7 ![] bcast_S_S7 : (⟨S_, .i32⟩ : BufTy).Contents (Elt F) → (⟨S7, .i32⟩ : BufTy).Contents (Elt F)),
    binary main_c main_v12 main_v13 (addi : (⟨S7, .i32⟩ : BufTy).Contents (Elt F) → (⟨S7, .i32⟩ : BufTy).Contents (Elt F) → (⟨S7, .i32⟩ : BufTy).Contents (Elt F)),
    ternary main_v11 main_v13 main_c main_v14 (select : (⟨S7, .i1⟩ : BufTy).Contents (Elt F) → (⟨S7, .i32⟩ : BufTy).Contents (Elt F) → (⟨S7, .i32⟩ : BufTy).Contents (Elt F) → (⟨S7, .i32⟩ : BufTy).Contents (Elt F)),
    unary main_v14 main_v15 (broadcastInDim S7x1 ![0] bcast_S7_S7x1_0 : (⟨S7, .i32⟩ : BufTy).Contents (Elt F) → (⟨S7x1, .i32⟩ : BufTy).Contents (Elt F)),
    binary main_arg0 main_v15 main_v16 ((fun x i => Host.gather gather_S131072x7x64_S7x1_S131072x7x64_02_1_n_n_1_1_131072164 x i) : (⟨S131072x7x64, .f32⟩ : BufTy).Contents (Elt F) → (⟨S7x1, .i32⟩ : BufTy).Contents (Elt F) → (⟨S131072x7x64, .f32⟩ : BufTy).Contents (Elt F)),
    nullary main_c_6 (constantI S_ 32 0#32),
    unary main_c_6 main_v17 (broadcastInDim S7 ![] bcast_S_S7 : (⟨S_, .i32⟩ : BufTy).Contents (Elt F) → (⟨S7, .i32⟩ : BufTy).Contents (Elt F)),
    binary main_c_0 main_v17 main_v18 (cmpi .slt : (⟨S7, .i32⟩ : BufTy).Contents (Elt F) → (⟨S7, .i32⟩ : BufTy).Contents (Elt F) → (⟨S7, .i1⟩ : BufTy).Contents (Elt F)),
    nullary main_c_7 (constantI S_ 32 7#32),
    unary main_c_7 main_v19 (broadcastInDim S7 ![] bcast_S_S7 : (⟨S_, .i32⟩ : BufTy).Contents (Elt F) → (⟨S7, .i32⟩ : BufTy).Contents (Elt F)),
    binary main_c_0 main_v19 main_v20 (addi : (⟨S7, .i32⟩ : BufTy).Contents (Elt F) → (⟨S7, .i32⟩ : BufTy).Contents (Elt F) → (⟨S7, .i32⟩ : BufTy).Contents (Elt F)),
    ternary main_v18 main_v20 main_c_0 main_v21 (select : (⟨S7, .i1⟩ : BufTy).Contents (Elt F) → (⟨S7, .i32⟩ : BufTy).Contents (Elt F) → (⟨S7, .i32⟩ : BufTy).Contents (Elt F) → (⟨S7, .i32⟩ : BufTy).Contents (Elt F)),
    unary main_v21 main_v22 (broadcastInDim S7x1 ![0] bcast_S7_S7x1_0 : (⟨S7, .i32⟩ : BufTy).Contents (Elt F) → (⟨S7x1, .i32⟩ : BufTy).Contents (Elt F)),
    binary main_arg0 main_v22 main_v23 ((fun x i => Host.gather gather_S131072x7x64_S7x1_S131072x7x64_02_1_n_n_1_1_131072164 x i) : (⟨S131072x7x64, .f32⟩ : BufTy).Contents (Elt F) → (⟨S7x1, .i32⟩ : BufTy).Contents (Elt F) → (⟨S131072x7x64, .f32⟩ : BufTy).Contents (Elt F)),
    binary main_v16 main_v23 main_v24 ((fun a b => concatenate S131072x7x128 2 [⟨S131072x7x64, a⟩, ⟨S131072x7x64, b⟩] concatenates_S131072x7x64_S131072x7x64_S131072x7x128_d2) : (⟨S131072x7x64, .f32⟩ : BufTy).Contents (Elt F) → (⟨S131072x7x64, .f32⟩ : BufTy).Contents (Elt F) → (⟨S131072x7x128, .f32⟩ : BufTy).Contents (Elt F)),
    binary main_v24 main_arg1 main_v25 ((fun l r => Host.dotGeneral dot_S131072x7x128_S64x128_S131072x7x64_2_1_01_0_n_n none l r) : (⟨S131072x7x128, .f32⟩ : BufTy).Contents (Elt F) → (⟨S64x128, .f32⟩ : BufTy).Contents (Elt F) → (⟨S131072x7x64, .f32⟩ : BufTy).Contents (Elt F)),
    unary main_arg2 main_v26 (broadcastInDim S1x1x64 ![2] bcast_S64_S1x1x64_2 : (⟨S64, .f32⟩ : BufTy).Contents (Elt F) → (⟨S1x1x64, .f32⟩ : BufTy).Contents (Elt F)),
    unary main_v26 main_v27 (broadcastInDim S131072x7x64 ![0, 1, 2] bcast_S1x1x64_S131072x7x64_0_1_2 : (⟨S1x1x64, .f32⟩ : BufTy).Contents (Elt F) → (⟨S131072x7x64, .f32⟩ : BufTy).Contents (Elt F)),
    binary main_v25 main_v27 main_v28 (addf : (⟨S131072x7x64, .f32⟩ : BufTy).Contents (Elt F) → (⟨S131072x7x64, .f32⟩ : BufTy).Contents (Elt F) → (⟨S131072x7x64, .f32⟩ : BufTy).Contents (Elt F)),
    unary main_v9 main_v29 (broadcastInDim S1x7x1 ![1] bcast_S7_S1x7x1_1 : (⟨S7, .f32⟩ : BufTy).Contents (Elt F) → (⟨S1x7x1, .f32⟩ : BufTy).Contents (Elt F)),
    unary main_v29 main_v30 (broadcastInDim S131072x7x64 ![0, 1, 2] bcast_S1x7x1_S131072x7x64_0_1_2 : (⟨S1x7x1, .f32⟩ : BufTy).Contents (Elt F) → (⟨S131072x7x64, .f32⟩ : BufTy).Contents (Elt F)),
    binary main_v30 main_v28 main_v31 (mulf : (⟨S131072x7x64, .f32⟩ : BufTy).Contents (Elt F) → (⟨S131072x7x64, .f32⟩ : BufTy).Contents (Elt F) → (⟨S131072x7x64, .f32⟩ : BufTy).Contents (Elt F)),
    nullary main_cst_8 (constant S_ .f32 0x00000000#32),
    unary main_cst_8 main_v32 (broadcastInDim S131072x7x64 ![] bcast_S_S131072x7x64 : (⟨S_, .f32⟩ : BufTy).Contents (Elt F) → (⟨S131072x7x64, .f32⟩ : BufTy).Contents (Elt F)),
    nullary main_c_9 (constantI S_ 32 0#32),
    unary main_c_9 main_v33 (broadcastInDim S7 ![] bcast_S_S7 : (⟨S_, .i32⟩ : BufTy).Contents (Elt F) → (⟨S7, .i32⟩ : BufTy).Contents (Elt F)),
    binary main_c_1 main_v33 main_v34 (cmpi .slt : (⟨S7, .i32⟩ : BufTy).Contents (Elt F) → (⟨S7, .i32⟩ : BufTy).Contents (Elt F) → (⟨S7, .i1⟩ : BufTy).Contents (Elt F)),
    nullary main_c_10 (constantI S_ 32 7#32),
    unary main_c_10 main_v35 (broadcastInDim S7 ![] bcast_S_S7 : (⟨S_, .i32⟩ : BufTy).Contents (Elt F) → (⟨S7, .i32⟩ : BufTy).Contents (Elt F)),
    binary main_c_1 main_v35 main_v36 (addi : (⟨S7, .i32⟩ : BufTy).Contents (Elt F) → (⟨S7, .i32⟩ : BufTy).Contents (Elt F) → (⟨S7, .i32⟩ : BufTy).Contents (Elt F)),
    ternary main_v34 main_v36 main_c_1 main_v37 (select : (⟨S7, .i1⟩ : BufTy).Contents (Elt F) → (⟨S7, .i32⟩ : BufTy).Contents (Elt F) → (⟨S7, .i32⟩ : BufTy).Contents (Elt F) → (⟨S7, .i32⟩ : BufTy).Contents (Elt F)),
    unary main_v37 main_v38 (broadcastInDim S7x1 ![0] bcast_S7_S7x1_0 : (⟨S7, .i32⟩ : BufTy).Contents (Elt F) → (⟨S7x1, .i32⟩ : BufTy).Contents (Elt F)),
    ternary main_v32 main_v38 main_v31 main_v39 ((fun x i u => Host.scatterAdd scatter_S131072x7x64_S7x1_S131072x7x64_02_1_1_1 x i u) : (⟨S131072x7x64, .f32⟩ : BufTy).Contents (Elt F) → (⟨S7x1, .i32⟩ : BufTy).Contents (Elt F) → (⟨S131072x7x64, .f32⟩ : BufTy).Contents (Elt F) → (⟨S131072x7x64, .f32⟩ : BufTy).Contents (Elt F)),
    binary main_arg0 main_v39 main_v40 (addf : (⟨S131072x7x64, .f32⟩ : BufTy).Contents (Elt F) → (⟨S131072x7x64, .f32⟩ : BufTy).Contents (Elt F) → (⟨S131072x7x64, .f32⟩ : BufTy).Contents (Elt F)) ]

set_option maxRecDepth 8192 in
/-- The program is the straight line of these operations. -/
theorem main_eq (c : Dev nD) : main (F := F) c = seq ops := rfl
/-- No buffer of the signature is scoped. -/
theorem scopedRefs_eq : (Finset.univ.filter fun b : Ref sig .tc => b.isScoped) = ∅ := by decide
/-- The signature has no semaphore, so none is scoped. -/
theorem scopedSems_eq : (Finset.univ.filter fun sm : SemLoc sig => sm.isScoped .tc) = ∅ := by decide
/-- Every operation touches tensor-value buffers only. -/
theorem ops_sub : (ops : List (HloOp τ sig (Elt F))).Forall fun op => op.bufs ⊆ tcRefs τ sig :=
  ⟨nullary_bufs_sub .., nullary_bufs_sub .., nullary_bufs_sub .., nullary_bufs_sub .., binary_bufs_sub .., nullary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    unary_bufs_sub .., unary_bufs_sub .., binary_bufs_sub .., unary_bufs_sub .., unary_bufs_sub .., binary_bufs_sub ..,
    nullary_bufs_sub .., unary_bufs_sub .., nullary_bufs_sub .., unary_bufs_sub .., binary_bufs_sub .., nullary_bufs_sub ..,
    unary_bufs_sub .., binary_bufs_sub .., ternary_bufs_sub .., unary_bufs_sub .., ternary_bufs_sub .., binary_bufs_sub ..⟩

set_option maxHeartbeats 4000000 in
/-- What the result buffer holds after the line, from any contents `V`: the composed term of the four arguments'
    contents. One pass replaces every operation's result at its own buffer by its function's value and leaves every
    other buffer alone; the two gathered operands sit inside the concatenation's operand list, whose shape proof
    depends on the list, so they are rewritten there step by step. What remains is the term itself. -/
theorem after_result (V : Valuation τ sig (Elt F)) :
    after ops V (Proc.devRef .tc main_v40)
      = refTerm (V (Proc.devRef .tc main_arg0)) (V (Proc.devRef .tc main_arg1)) (V (Proc.devRef .tc main_arg2)) (V (Proc.devRef .tc main_arg3)) := by
  after_results_simp
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  rfl

/-- On the device, for any float values, from any memory with zero counters: every weakly fair execution of the
    program terminates with the result buffer at the composed term of the four arguments' launch contents, and the
    four arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40) = refTerm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v40).trans (after_result (launchContents m c)),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.RefValue

end
-- ==== Proof.KerArrs.lean ====
/-
  The three arrays the kernel's one region reads, as it finds them, named at their literal types at the ideal
  instance (every entry an extended real): the state flattened to `[131072, 448]`, the folded `[448, 448]` matrix
  and the folded `[1, 448]` bias row.
-/
import proofs.«400105_j43224550867196_3_alg».proof.Proof.Gen.KernelIdeal.Frame
import Idealize.ShloMosaic.PureOps.Ideal

noncomputable section

namespace Cert.KernelIdeal.KerValue

open Cert.KernelIdeal Cert.KernelIdeal.Gen Idealize.ShloMosaic Idealize.ShloMosaic.TcCoe Idealize.SL.Sem

variable (m : (ℓ : Loc nD τ sig) → Buf (Elt Ideal) ℓ)

/-- The flattened state when the region is entered. -/
abbrev Xarr (c : Dev nD) : S131072x448.Idx → EReal := V (F := Ideal) m c main_v156
/-- The folded matrix when the region is entered. -/
abbrev Warr (c : Dev nD) : S448x448.Idx → EReal := V (F := Ideal) m c main_v155
/-- The folded bias row when the region is entered. -/
abbrev Barr (c : Dev nD) : S1x448.Idx → EReal := V (F := Ideal) m c main_v154

end Cert.KernelIdeal.KerValue

end
-- ==== Proof.KerRun.lean ====
/-
  The idealized kernel program's run, with its result array named.

  The program prepares, on the host, the state flattened to `[131072, 448]`, a folded `[448, 448]` matrix and a folded
  `[1, 448]` row; its one region then walks the state in 64 blocks of 2048 rows, and on each block `x` stores
  `x + (x·M + row)` — the block times the whole matrix, accumulated from zero, plus the row repeated down the block, plus
  the block itself; one last host operation reads the region's `[131072, 448]` array as `[131072, 7, 64]`.

  Here, at the ideal values (every entry an extended real): the stored block entry by entry (`pay_apply`: a sum over the
  448 contracted positions); each window's block as entries of its array (`xblk_apply`, `wblk_apply`, `bblk_apply`);
  hence what a grid point writes back is its block of ONE whole-array function `G` (`flushed_eq`); the 64 blocks tile
  the array's rows (`outBlocks_cover`), so the region's array ends holding `G` (`outArray_eq`); the last reshape gives
  the result `kerOut`, read at `(p, k, z)` as row `p`, flattened column `64·k + z` (`kerOut_apply`); and the run itself
  (`kerRun`), with the four argument buffers left as launched.
-/
import proofs.«400105_j43224550867196_3_alg».proof.Proof.KerArrs
import proofs.«400105_j43224550867196_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.KernelIdeal.KerValue

open Cert.KernelIdeal Cert.KernelIdeal.Gen Idealize.ShloMosaic Idealize.ShloMosaic.TcCoe Idealize.SL.Sem
open Idealize.ShloMosaic.ValueIdx
open Idealize.ShloMosaic.Pipeline (Dat)

/-- The body's stored value as a term: the block plus (the block times the matrix, accumulated from zero, plus the
    row repeated down the block). -/
theorem pay_form {F : FTy → Type} [FloatOps F] (x0 : Vec F S2048x448 .f32) (x1 : Vec F S448x448 .bf16) (x2 : Vec F S1x448 .f32) :
    k0_pay1 x0 x1 x2 = addf x0 (addf
        (matmul dot_S2048x448_S448x448_S2048x448_1_0_0_1_n_n none (truncf FTy.bf16 x0 bitsLt_bf16_f32) x1
          (constant S2048x448 FTy.f32 0#32))
        (broadcastTo S2048x448 x2 broadcasts_S1x448_S2048x448)) := by
  unfold k0_pay1
  simp only [shapeCast_self]

theorem lhs_dot_0 (j : S2048x448.Idx) (k : dot_S2048x448_S448x448_S2048x448_1_0_0_1_n_n.contr.Idx) :
    ((dot_S2048x448_S448x448_S2048x448_1_0_0_1_n_n.lhsIdx j k) (0 : Fin 2) : ℕ) = (j (0 : Fin 2)).val := by
  simp [DotDims.lhsIdx, dot_S2048x448_S448x448_S2048x448_1_0_0_1_n_n]; rfl

theorem lhs_dot_1 (j : S2048x448.Idx) (k : dot_S2048x448_S448x448_S2048x448_1_0_0_1_n_n.contr.Idx) :
    ((dot_S2048x448_S448x448_S2048x448_1_0_0_1_n_n.lhsIdx j k) (1 : Fin 2) : ℕ) = (k ⟨0, by decide⟩).val :=
  dot_S2048x448_S448x448_S2048x448_1_0_0_1_n_n.lhsIdx_val_of_single (cl := (1 : Fin 2)) rfl j k

theorem rhs_dot_0 (j : S2048x448.Idx) (k : dot_S2048x448_S448x448_S2048x448_1_0_0_1_n_n.contr.Idx) :
    ((dot_S2048x448_S448x448_S2048x448_1_0_0_1_n_n.rhsIdx j k) (0 : Fin 2) : ℕ) = (k ⟨0, by decide⟩).val :=
  dot_S2048x448_S448x448_S2048x448_1_0_0_1_n_n.rhsIdx_val_of_single (cr := (0 : Fin 2)) rfl j k

theorem rhs_dot_1 (j : S2048x448.Idx) (k : dot_S2048x448_S448x448_S2048x448_1_0_0_1_n_n.contr.Idx) :
    ((dot_S2048x448_S448x448_S2048x448_1_0_0_1_n_n.rhsIdx j k) (1 : Fin 2) : ℕ) = (j (1 : Fin 2)).val := by
  simp [DotDims.rhsIdx, dot_S2048x448_S448x448_S2048x448_1_0_0_1_n_n]; rfl

/-- The stored value at row `i`, column `j` of the block: the entry, plus row `i` of the block against column `j` of
    the matrix, plus entry `j` of the row. At the ideal values the narrowing of the left factor changes nothing and the
    zero accumulator adds nothing. -/
theorem pay_apply (x0 : FVec Ideal S2048x448 .f32) (x1 : FVec Ideal S448x448 .bf16) (x2 : FVec Ideal S1x448 .f32)
    (i : Fin 2048) (j : Fin 448) :
    k0_pay1 (F := Ideal) x0 x1 x2 (ix2 i j)
      = x0 (ix2 i j) + ((∑ r : Fin 448, x0 (ix2 i r) * x1 (ix2 r j)) + x2 (ix2 (0 : Fin 1) j)) := by
  rw [pay_form]
  have hb : broadcastTo S2048x448 x2 broadcasts_S1x448_S2048x448 (ix2 i j) = x2 (ix2 (0 : Fin 1) j) := by
    refine broadcastTo_apply x2 _ (ix2 i j) (ix2 (0 : Fin 1) j) (fun a => ?_)
    match a with
    | ⟨0, _⟩ => rfl
    | ⟨1, _⟩ => rfl
  have hm : matmul (F := Ideal) dot_S2048x448_S448x448_S2048x448_1_0_0_1_n_n none (truncf FTy.bf16 x0 bitsLt_bf16_f32) x1
          (constant (F := Ideal) S2048x448 FTy.f32 0#32) (ix2 i j) = ∑ r : Fin 448, x0 (ix2 i r) * x1 (ix2 r j) := by
    show FloatOps.matmul _ none _ _ _ (ix2 i j) = _
    rw [Ideal.matmul_constant_zero_apply,
      ← Equiv.sum_comp (contrEquiv1 dot_S2048x448_S448x448_S2048x448_1_0_0_1_n_n 448 rfl rfl).symm]
    refine Finset.sum_congr rfl fun r _ => ?_
    have c := contrEquiv1_symm_val dot_S2048x448_S448x448_S2048x448_1_0_0_1_n_n 448 rfl rfl r
    have l : dot_S2048x448_S448x448_S2048x448_1_0_0_1_n_n.lhsIdx (ix2 i j)
        ((contrEquiv1 dot_S2048x448_S448x448_S2048x448_1_0_0_1_n_n 448 rfl rfl).symm r) = ix2 i r := by
      funext ax; apply Fin.ext
      match ax with
      | ⟨0, _⟩ => exact lhs_dot_0 _ _
      | ⟨1, _⟩ => exact (lhs_dot_1 _ _).trans c
    have r' : dot_S2048x448_S448x448_S2048x448_1_0_0_1_n_n.rhsIdx (ix2 i j)
        ((contrEquiv1 dot_S2048x448_S448x448_S2048x448_1_0_0_1_n_n 448 rfl rfl).symm r) = ix2 r j := by
      funext ax; apply Fin.ext
      match ax with
      | ⟨0, _⟩ => exact (rhs_dot_0 _ _).trans c
      | ⟨1, _⟩ => exact rhs_dot_1 _ _
    rw [l, r']
    rfl
  show x0 (ix2 i j) + (matmul (F := Ideal) dot_S2048x448_S448x448_S2048x448_1_0_0_1_n_n none (truncf FTy.bf16 x0 bitsLt_bf16_f32) x1
          (constant (F := Ideal) S2048x448 FTy.f32 0#32) (ix2 i j) + broadcastTo S2048x448 x2 broadcasts_S1x448_S2048x448 (ix2 i j)) = _
  rw [hm, hb]

variable (m : (ℓ : Loc nD τ sig) → Buf (Elt Ideal) ℓ) (ρ : Dev nD → PrngReg)

/-! ## The layer on the whole flattened state -/

/-- One application of the folded layer to a whole `[131072, 448]` array `X` with matrix `W` and row `B`: entry
    `(P, j)` is `X[P, j] + (Σ_r X[P, r]·W[r, j] + B[0, j])`. -/
def layer (X : S131072x448.Idx → EReal) (W : S448x448.Idx → EReal) (B : S1x448.Idx → EReal) : S131072x448.Idx → EReal :=
  fun i => X i + ((∑ r : Fin 448, X (ix2 (i 0) r) * W (ix2 r (i 1))) + B (ix2 (0 : Fin 1) (i 1)))

theorem layer_apply (X : S131072x448.Idx → EReal) (W : S448x448.Idx → EReal) (B : S1x448.Idx → EReal)
    (P : Fin 131072) (j : Fin 448) :
    layer X W B (ix2 P j) = X (ix2 P j) + ((∑ r : Fin 448, X (ix2 P r) * W (ix2 r j)) + B (ix2 (0 : Fin 1) j)) := rfl

/-- The layer applied to the three arrays the region finds. -/
def G (c : Dev nD) : S131072x448.Idx → EReal := layer (Xarr m c) (Warr m c) (Barr m c)

/-! ## Which block each window shows at a grid point -/

theorem zeroOffsets : (![0, 0] : Fin 2 → Nat) = fun _ => 0 := funext fun a => by fin_cases a <;> rfl

/-- The printed index maps over the 64 grid points: the state and the result are at block row `t`, the matrix and the
    row always at their one block. -/
theorem blockIdx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- The state's block at point `t` is rows `2048·t … 2048·t + 2047` of the flattened state. -/
theorem xblk_apply (c : Dev nD) (t : Fin cfg0.N) (y : S2048x448.Idx) (k : S131072x448.Idx)
    (hk0 : (k 0).val = 2048 * t.val + (y 0).val) (hk1 : (k 1).val = (y 1).val) :
    (iblk m c 0 t : Vec Ideal S2048x448 .f32) y = Xarr m c k := by
  obtain ⟨e0, e1, -, -, -, -, -, -⟩ := blockIdx_facts t
  unfold iblk
  rw [View.read_apply]
  show V m c main_v156 (((cfg0.win 0).blk t).view.emb y) = V m c main_v156 k
  refine congrArg (V m c main_v156) ?_
  funext a
  apply Fin.ext
  match a with
  | ⟨0, _⟩ => show win0_0.index t (0 : Fin 2) * 2048 + 1 * (y 0).val = (k 0).val; rw [e0, hk0]; omega
  | ⟨1, _⟩ => show win0_0.index t (1 : Fin 2) * 448 + 1 * (y 1).val = (k 1).val; rw [e1, hk1]; omega

/-- The matrix's block at every point is the whole matrix. -/
theorem wblk_apply (c : Dev nD) (t : Fin cfg0.N) (y : S448x448.Idx) :
    (iblk m c 1 t : Vec Ideal S448x448 .bf16) y = Warr m c y := by
  obtain ⟨-, -, e0, e1, -, -, -, -⟩ := blockIdx_facts t
  unfold iblk
  rw [View.read_apply]
  show V m c main_v155 (((cfg0.win 1).blk t).view.emb y) = V m c main_v155 y
  refine congrArg (V m c main_v155) ?_
  funext a
  apply Fin.ext
  match a with
  | ⟨0, _⟩ => show win0_1.index t (0 : Fin 2) * 448 + 1 * (y 0).val = (y 0).val; rw [e0]; omega
  | ⟨1, _⟩ => show win0_1.index t (1 : Fin 2) * 448 + 1 * (y 1).val = (y 1).val; rw [e1]; omega

/-- The row's block at every point is the whole row. -/
theorem bblk_apply (c : Dev nD) (t : Fin cfg0.N) (y : S1x448.Idx) :
    (iblk m c 2 t : Vec Ideal S1x448 .f32) y = Barr m c y := by
  obtain ⟨-, -, -, -, e0, e1, -, -⟩ := blockIdx_facts t
  unfold iblk
  rw [View.read_apply]
  show V m c main_v154 (((cfg0.win 2).blk t).view.emb y) = V m c main_v154 y
  refine congrArg (V m c main_v154) ?_
  funext a
  apply Fin.ext
  match a with
  | ⟨0, _⟩ => show win0_2.index t (0 : Fin 2) * 1 + 1 * (y 0).val = (y 0).val; rw [e0]; omega
  | ⟨1, _⟩ => show win0_2.index t (1 : Fin 2) * 448 + 1 * (y 1).val = (y 1).val; rw [e1]; omega

/-! ## What a grid point writes back -/

/-- The stored block at point `t`, entry by entry, is the layer's value at the matching entry of the whole array:
    row `i` of block `t` is row `2048·t + i`. -/
theorem stored_apply (c : Dev nD) (t : Fin cfg0.N) (i : Fin 2048) (j : Fin 448) (P : Fin 131072)
    (hP : P.val = 2048 * t.val + i.val) :
    k0_pay1 (F := Ideal) (iblk m c 0 t) (iblk m c 1 t) (iblk m c 2 t) (ix2 i j) = G m c (ix2 P j) := by
  refine (pay_apply (iblk m c 0 t) (iblk m c 1 t) (iblk m c 2 t) i j).trans ?_
  unfold G
  rw [layer_apply, xblk_apply m c t (ix2 i j) (ix2 P j) hP rfl, bblk_apply m c t (ix2 (0 : Fin 1) j)]
  refine congrArg (fun s => Xarr m c (ix2 P j) + (s + Barr m c (ix2 (0 : Fin 1) j))) ?_
  refine Finset.sum_congr rfl fun r _ => ?_
  rw [xblk_apply m c t (ix2 i r) (ix2 P r) hP rfl, wblk_apply m c t (ix2 r j)]

/-- The same over any entry `y` of the block and any entry `k` of the array that sits in the block's row `y₀`,
    column `y₁`. -/
theorem stored_at (c : Dev nD) (t : Fin cfg0.N) (y : S2048x448.Idx) (k : S131072x448.Idx)
    (hk0 : (k 0).val = 2048 * t.val + (y 0).val) (hk1 : (k 1).val = (y 1).val) :
    k0_pay1 (F := Ideal) (iblk m c 0 t) (iblk m c 1 t) (iblk m c 2 t) y = G m c k := by
  obtain ⟨i, j, rfl⟩ : ∃ (i : Fin 2048) (j : Fin 448), y = ix2 i j := ⟨y 0, y 1, eq_ix2 y⟩
  obtain ⟨P, j', rfl⟩ : ∃ (P : Fin 131072) (j' : Fin 448), k = ix2 P j' := ⟨k 0, k 1, eq_ix2 k⟩
  obtain rfl : j' = j := Fin.ext hk1
  exact stored_apply m c t i j' P hk0

/-- WHAT POINT `t` WRITES BACK is block `t` of the layer applied to the arrays the region finds. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold out0_3
  rw [View.canon_unit_zero zeroOffsets]
  simp only [View.ld_unit_zero (S := S2048x448) zeroOffsets, View.ld_unit_zero (S := S448x448) zeroOffsets,
    View.ld_unit_zero (S := S1x448) zeroOffsets]
  obtain ⟨-, -, -, -, -, -, e0, e1⟩ := blockIdx_facts t
  funext y
  show k0_pay1 (F := Ideal) (iblk m c 0 t) (iblk m c 1 t) (iblk m c 2 t) y = G m c (((cfg0.win 3).blk t).view.emb y)
  refine stored_at m c t y (((cfg0.win 3).blk t).view.emb y) ?_ ?_
  · show win0_3.index t (0 : Fin 2) * 2048 + 1 * (y 0).val = 2048 * t.val + (y 0).val
    rw [e0]; omega
  · show win0_3.index t (1 : Fin 2) * 448 + 1 * (y 1).val = (y 1).val
    rw [e1]; omega

/-! ## The blocks cover the array -/

/-- An entry of the array is in point `t`'s block iff each coordinate is in the block's range on its axis. -/
theorem mem_outBlock (t : Fin cfg0.N) (i : S131072x448.Idx) :
    i ∈ ((cfg0.win 3).blk t).view.set ↔ ∀ a : Fin 2, win0_3.index t a * S2048x448.size a ≤ (i a).val
      ∧ (i a).val < win0_3.index t a * S2048x448.size a + S2048x448.size a := by
  show i ∈ ((View.whole main_v157).slice (win0_3.rect t)).set ↔ _
  rw [View.set_slice_whole, Rect.mem_set_unit]
  exact Iff.rfl

/-- Row `P` of the array lies in the block of point `P / 2048`, which writes back like every point. -/
theorem outBlocks_cover (i : S131072x448.Idx) :
    ∃ t : Fin cfg0.N, (cfg0.win 3).flush t = true ∧ i ∈ ((cfg0.win 3).blk t).view.set := by
  have hi0 : (i 0).val < 131072 := (i 0).isLt
  have hi1 : (i 1).val < 448 := (i 1).isLt
  have hN : cfg0.N = 64 := N_0
  have hlt : (i 0).val / 2048 < cfg0.N := by rw [hN]; omega
  refine ⟨⟨(i 0).val / 2048, hlt⟩, flush0_3 _, ?_⟩
  rw [mem_outBlock]
  obtain ⟨-, -, -, -, -, -, e0, e1⟩ := blockIdx_facts ⟨(i 0).val / 2048, hlt⟩
  intro a
  match a with
  | ⟨0, _⟩ =>
    show win0_3.index ⟨(i 0).val / 2048, hlt⟩ (0 : Fin 2) * 2048 ≤ (i 0).val
      ∧ (i 0).val < win0_3.index ⟨(i 0).val / 2048, hlt⟩ (0 : Fin 2) * 2048 + 2048
    rw [e0]
    show (i 0).val / 2048 * 2048 ≤ (i 0).val ∧ (i 0).val < (i 0).val / 2048 * 2048 + 2048
    omega
  | ⟨1, _⟩ =>
    show win0_3.index ⟨(i 0).val / 2048, hlt⟩ (1 : Fin 2) * 448 ≤ (i 1).val
      ∧ (i 1).val < win0_3.index ⟨(i 0).val / 2048, hlt⟩ (1 : Fin 2) * 448 + 448
    rw [e1]
    omega

/-- THE ARRAY after the region: the layer applied to the arrays the region finds. -/
theorem outArray_eq (c : Dev nD) : (dats m 0 c).arrAt 3 cfg0.N = G m c :=
  (dats m 0 c).arrAt_eq_of_cover 3 (G m c) (fun t _ => flushed_eq m c t) outBlocks_cover

/-! ## The program's result -/

/-- The program's result array: the layer's `[131072, 448]` array read as `[131072, 7, 64]` (same row-major order). -/
def kerOut (c : Dev nD) : S131072x7x64.Idx → EReal :=
  shapeCast S131072x7x64 (G m c) shapeCasts_S131072x448_S131072x7x64

/-- After the region the one remaining operation reshapes the region's array, which holds the layer's value. -/
theorem out_eq (c : Dev nD) :
    Pipeline.afterTail₀ cfgs (dats m) 0 (V0 m) [hostOps1] c main_v158 = kerOut m c := by
  unfold Pipeline.afterTail₀
  show StableHlo.after hostOps1 _ (Proc.devRef .tc main_v158) = _
  after_results
  have e : Pipeline.withArrays (cfgs 0).spec c (V0 m c) (fun w => (dats m 0 c).arrAt w (cfgs 0).N)
      (Proc.devRef .tc main_v157) = G m c :=
    (Pipeline.withArrays_arr spec0 launch0.win.arr_inj c _ _ 3).trans (outArray_eq m c)
  rw [e]
  rfl

/-- The result at `(p, k, z)` is the layer's array at row `p`, flattened column `64·k + z`. -/
theorem kerOut_apply (c : Dev nD) (p : Fin 131072) (k : Fin 7) (z : Fin 64) :
    kerOut m c (ix3 p k z) = Xarr m c (ix2 p (Cert.Fano.col k z))
      + ((∑ r : Fin 448, Xarr m c (ix2 p r) * Warr m c (ix2 r (Cert.Fano.col k z)))
        + Barr m c (ix2 (0 : Fin 1) (Cert.Fano.col k z))) := by
  unfold kerOut
  rw [shapeCast_apply (G m c) shapeCasts_S131072x448_S131072x7x64 (ix3 p k z) (ix2 p (Cert.Fano.col k z)) (by
    rw [Shape.rowMajor_val_two, Shape.rowMajor_val_three]
    show p.val * 448 + (64 * k.val + z.val) = (p.val * 7 + k.val) * 64 + z.val
    omega)]
  unfold G
  exact layer_apply (Xarr m c) (Warr m c) (Barr m c) p (Cert.Fano.col k z)

/-- THE RUN of the idealized kernel program: it terminates with the result buffer at `kerOut` and the four argument
    buffers as launched. -/
theorem kerRun : θ_run defs (onTc (τ := τ) (main (F := Ideal))) ⟨m, fun _ => 0, ρ⟩ (fun r => ∀ c : Dev nD,
      r.2.mem ((c.tc : Thread nD τ).loc main_v158) = kerOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v158 (Pipeline.mem_restRefs_of main_v158 (by decide) (by decide))).trans (out_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KerValue
end
-- ==== Proof.LibGather.lean ====
/-
  A row gather read at an index.

  `x[idx]` of a table `x` at an integer vector `idx` of length `E` lowers to `stablehlo.gather` with the indices
  reshaped to `[E, 1]` (the index vector on axis 1), the table's first axis collapsed and named by the start index
  map, and slice sizes of one row. The result's row `e` is the table's row at the start index `idx[e, 0]` read as a
  signed integer and clamped into `[0, N − 1]`, as StableHLO clamps every start index so that the slice fits.

  Two shapes: a table of scalars `[N]` (result `[E]`), and a table of rows `[N, C]` with the whole row as the slice
  (result `[E, C]`: entry `(e, c)` is the table's `(row, c)`).
-/
import Idealize.ShloMosaic.PureOps.ShapeOps
import Idealize.ShloMosaic.Lib.ValueIdx

noncomputable section

namespace Idealize.ShloMosaic.RowGather

open Idealize.ShloMosaic Idealize.ShloMosaic.ValueIdx

variable {α : Type}

/-- The row a start index word names in a table of `N` rows: the word read signed, clamped into `[0, N − 1]`. -/
def clampRow (N : Nat) (hN : 0 < N) {w : Nat} (v : BitVec w) : Fin N := ⟨min v.toInt.toNat (N - 1), by omega⟩

/-! ## A table of scalars -/

/-- The dimension numbers of `x[idx]` for `x : [N]`, the indices as `[E, 1]`, the result `[E]`. -/
abbrev scalarDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gather is the table at the clamped start index `idx[e, 0]`. -/
theorem gather_scalar_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (scalarDims N E wf) x idx j = x (ix1 (clampRow N hN (idx (ix2 (j 0) (0 : Fin 1))))) := by
  unfold Host.gather
  congr 1
  funext a
  obtain rfl : a = 0 := Subsingleton.elim _ _
  refine Fin.ext ?_
  show (scalarDims N E wf).start j idx 0 + (scalarDims N E wf).batchCoord j 0 + (scalarDims N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (scalarDims N E wf).startIndexMap from List.mem_singleton.mpr rfl)]
  have hsi : (scalarDims N E wf).siIdx j ⟨List.idxOf (0 : Fin 1) (scalarDims N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-! ## A table of rows -/

/-- The dimension numbers of `x[idx]` for `x : [N, C]`, the indices as `[E, 1]`, the result `[E, C]`: whole rows. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- On the table's row axis the operand index is the clamped start index `idx[e, 0]`. -/
theorem rowDims_operandIdx_zero {N C E w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (j : (⟨2, ![E, C]⟩ : Shape).Idx) :
    ((rowDims N C E wf).operandIdx j idx (0 : Fin 2)).val = (clampRow N hN (idx (ix2 (j 0) (0 : Fin 1)))).val := by
  show (rowDims N C E wf).start j idx (0 : Fin 2) + (rowDims N C E wf).batchCoord j (0 : Fin 2)
    + (rowDims N C E wf).offCoord j (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C E wf).startIndexMap from List.mem_singleton.mpr rfl)]
  have hsi : (rowDims N C E wf).siIdx j ⟨List.idxOf (0 : Fin 2) (rowDims N C E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the table's column axis the operand index is the result's column. -/
theorem rowDims_operandIdx_one {N C E w : Nat}
    (wf : GatherDims.WF ⟨2, ![N, C]⟩ ⟨2, ![E, 1]⟩ ⟨2, ![E, C]⟩ [1] [0] [] [0] [] 1 ![1, C])
    (idx : IVec ⟨2, ![E, 1]⟩ w) (j : (⟨2, ![E, C]⟩ : Shape).Idx) :
    ((rowDims N C E wf).operandIdx j idx (1 : Fin 2)).val = (j 1).val := by
  show (rowDims N C E wf).start j idx (1 : Fin 2) + (rowDims N C E wf).batchCoord j (1 : Fin 2)
    + (rowDims N C E wf).offCoord j (1 : Fin 2) = _
  have hnot : ¬ (1 : Fin 2) ∈ (rowDims N C E wf).startIndexMap := by
    show ¬ (1 : Fin 2) ∈ ([0] : List (Fin 2)); decide
  have hkept : (1 : Fin 2) ∈ (rowDims N C E wf).sKept :=
    (GatherDims.mem_sKept _ _).mpr ⟨by show ¬ (1 : Fin 2) ∈ ([0] : List (Fin 2)); decide, List.not_mem_nil⟩
  have h0 : (rowDims N C E wf).start j idx (1 : Fin 2) = 0 := by
    unfold GatherDims.start; rw [dif_neg hnot]
  rw [h0, GatherDims.batchCoord_eq_zero _ _ _ List.not_mem_nil]
  simp only [Nat.zero_add, Nat.add_zero]
  unfold GatherDims.offCoord
  rw [dif_pos hkept]
  rfl

/-- Entry `(e, c)` of the gather is the table's entry `c` of the row at the clamped start index `idx[e, 0]`. -/
theorem gather_row_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (j : (⟨2, ![E, C]⟩ : Shape).Idx) :
    Host.gather (rowDims N C E wf) x idx j = x (ix2 (clampRow N hN (idx (ix2 (j 0) (0 : Fin 1)))) (j 1)) := by
  unfold Host.gather
  congr 1
  funext a
  refine Fin.ext ?_
  match a with
  | ⟨0, _⟩ => exact rowDims_operandIdx_zero hN wf idx j
  | ⟨1, _⟩ => exact rowDims_operandIdx_one wf idx j

end Idealize.ShloMosaic.RowGather

end
-- ==== Proof.LibGatherMid.lean ====
/-
  A gather along the middle axis of a rank-3 array, read at an index.

  `x[:, idx]` of an array `x : [P, N, C]` at an integer vector `idx` of length `E` lowers to `stablehlo.gather`
  with the indices reshaped to `[E, 1]` (the index vector on axis 1), the array's middle axis collapsed and named by
  the start index map, the outer and the inner axis kept whole as offset axes (slice sizes `[P, 1, C]`). The result
  has shape `[P, E, C]`; its entry `(p, e, c)` is the array's entry `(p, r, c)` where `r` is the start index
  `idx[e, 0]` read as a signed integer and clamped into `[0, N − 1]`. On the two whole axes the slice starts at `0`
  (the start index map does not name them) and the offset coordinate is the result's own coordinate.
-/
import Idealize.ShloMosaic.PureOps.ShapeOps
import Idealize.ShloMosaic.Lib.ValueIdx
import proofs.«400105_j43224550867196_3_alg».proof.Proof.LibGather

noncomputable section

namespace Idealize.ShloMosaic.RowGather

open Idealize.ShloMosaic Idealize.ShloMosaic.ValueIdx

variable {α : Type}

/-- The dimension numbers of `x[:, idx]` for `x : [P, N, C]`, the indices as `[E, 1]`, the result `[P, E, C]`:
    the middle axis is collapsed and indexed, the other two are taken whole. -/
abbrev midDims (P N C E : Nat)
    (wf : GatherDims.WF ⟨3, ![P, N, C]⟩ ⟨2, ![E, 1]⟩ ⟨3, ![P, E, C]⟩ [0, 2] [1] [] [1] [] 1 ![P, 1, C]) :
    GatherDims ⟨3, ![P, N, C]⟩ ⟨2, ![E, 1]⟩ ⟨3, ![P, E, C]⟩ where
  offsetDims := [0, 2]
  collapsedSliceDims := [1]
  operandBatchingDims := []
  startIndicesBatchingDims := []
  startIndexMap := [1]
  indexVectorDim := 1
  sliceSizes := ![P, 1, C]
  wf := wf

/-- On the array's outer axis the operand index is the result's outer coordinate: the slice starts at `0` there and
    the axis is the first offset axis. -/
theorem midDims_operandIdx_zero {P N C E w : Nat}
    (wf : GatherDims.WF ⟨3, ![P, N, C]⟩ ⟨2, ![E, 1]⟩ ⟨3, ![P, E, C]⟩ [0, 2] [1] [] [1] [] 1 ![P, 1, C])
    (idx : IVec ⟨2, ![E, 1]⟩ w) (j : (⟨3, ![P, E, C]⟩ : Shape).Idx) :
    ((midDims P N C E wf).operandIdx j idx (0 : Fin 3)).val = (j 0).val := by
  show (midDims P N C E wf).start j idx (0 : Fin 3) + (midDims P N C E wf).batchCoord j (0 : Fin 3)
    + (midDims P N C E wf).offCoord j (0 : Fin 3) = _
  have hnot : ¬ (0 : Fin 3) ∈ (midDims P N C E wf).startIndexMap := by
    show ¬ (0 : Fin 3) ∈ ([1] : List (Fin 3)); decide
  have hkept : (0 : Fin 3) ∈ (midDims P N C E wf).sKept :=
    (GatherDims.mem_sKept _ _).mpr ⟨by show ¬ (0 : Fin 3) ∈ ([1] : List (Fin 3)); decide, List.not_mem_nil⟩
  have h0 : (midDims P N C E wf).start j idx (0 : Fin 3) = 0 := by
    unfold GatherDims.start; rw [dif_neg hnot]
  rw [h0, GatherDims.batchCoord_eq_zero _ _ _ List.not_mem_nil]
  simp only [Nat.zero_add, Nat.add_zero]
  unfold GatherDims.offCoord
  rw [dif_pos hkept]
  rfl

/-- On the array's middle axis the operand index is the clamped start index `idx[e, 0]`, `e` the result's middle
    coordinate: the axis is collapsed (no offset) and the slice there has one entry, so the clamp is into
    `[0, N − 1]`. -/
theorem midDims_operandIdx_one {P N C E w : Nat} (hN : 0 < N)
    (wf : GatherDims.WF ⟨3, ![P, N, C]⟩ ⟨2, ![E, 1]⟩ ⟨3, ![P, E, C]⟩ [0, 2] [1] [] [1] [] 1 ![P, 1, C])
    (idx : IVec ⟨2, ![E, 1]⟩ w) (j : (⟨3, ![P, E, C]⟩ : Shape).Idx) :
    ((midDims P N C E wf).operandIdx j idx (1 : Fin 3)).val = (clampRow N hN (idx (ix2 (j 1) (0 : Fin 1)))).val := by
  show (midDims P N C E wf).start j idx (1 : Fin 3) + (midDims P N C E wf).batchCoord j (1 : Fin 3)
    + (midDims P N C E wf).offCoord j (1 : Fin 3) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 3) ∈ (midDims P N C E wf).startIndexMap from List.mem_singleton.mpr rfl)]
  have hsi : (midDims P N C E wf).siIdx j ⟨List.idxOf (1 : Fin 3) (midDims P N C E wf).startIndexMap,
      List.idxOf_lt_length_iff.2 (List.mem_singleton.mpr rfl)⟩ = ix2 (j 1) (0 : Fin 1) := by
    funext b; refine Fin.ext ?_
    match b with
    | ⟨0, _⟩ => rfl
    | ⟨1, _⟩ => rfl
  rw [hsi]
  rfl

/-- On the array's inner axis the operand index is the result's inner coordinate: the slice starts at `0` there and
    the axis is the second offset axis. -/
theorem midDims_operandIdx_two {P N C E w : Nat}
    (wf : GatherDims.WF ⟨3, ![P, N, C]⟩ ⟨2, ![E, 1]⟩ ⟨3, ![P, E, C]⟩ [0, 2] [1] [] [1] [] 1 ![P, 1, C])
    (idx : IVec ⟨2, ![E, 1]⟩ w) (j : (⟨3, ![P, E, C]⟩ : Shape).Idx) :
    ((midDims P N C E wf).operandIdx j idx (2 : Fin 3)).val = (j 2).val := by
  show (midDims P N C E wf).start j idx (2 : Fin 3) + (midDims P N C E wf).batchCoord j (2 : Fin 3)
    + (midDims P N C E wf).offCoord j (2 : Fin 3) = _
  have hnot : ¬ (2 : Fin 3) ∈ (midDims P N C E wf).startIndexMap := by
    show ¬ (2 : Fin 3) ∈ ([1] : List (Fin 3)); decide
  have hkept : (2 : Fin 3) ∈ (midDims P N C E wf).sKept :=
    (GatherDims.mem_sKept _ _).mpr ⟨by show ¬ (2 : Fin 3) ∈ ([1] : List (Fin 3)); decide, List.not_mem_nil⟩
  have h0 : (midDims P N C E wf).start j idx (2 : Fin 3) = 0 := by
    unfold GatherDims.start; rw [dif_neg hnot]
  rw [h0, GatherDims.batchCoord_eq_zero _ _ _ List.not_mem_nil]
  simp only [Nat.zero_add, Nat.add_zero]
  unfold GatherDims.offCoord
  rw [dif_pos hkept]
  rfl

/-- Entry `(p, e, c)` of the gather is the array's entry `(p, r, c)`, `r` the clamped start index `idx[e, 0]`. -/
theorem gather_mid_apply {P N C E w : Nat} (hN : 0 < N)
    (wf : GatherDims.WF ⟨3, ![P, N, C]⟩ ⟨2, ![E, 1]⟩ ⟨3, ![P, E, C]⟩ [0, 2] [1] [] [1] [] 1 ![P, 1, C])
    (x : (⟨3, ![P, N, C]⟩ : Shape).Idx → α) (idx : IVec ⟨2, ![E, 1]⟩ w) (p : Fin P) (e : Fin E) (c : Fin C) :
    Host.gather (midDims P N C E wf) x idx (ix3 p e c)
      = x (ix3 p (clampRow N hN (idx (ix2 e (0 : Fin 1)))) c) := by
  unfold Host.gather
  congr 1
  funext a
  refine Fin.ext ?_
  match a with
  | ⟨0, _⟩ => exact midDims_operandIdx_zero wf idx (ix3 p e c)
  | ⟨1, _⟩ => exact midDims_operandIdx_one hN wf idx (ix3 p e c)
  | ⟨2, _⟩ => exact midDims_operandIdx_two wf idx (ix3 p e c)

/-- A start index word that reads as a row number `k < N` is its own clamp. -/
theorem clampRow_of_toInt {N w : Nat} (hN : 0 < N) (v : BitVec w) (k : Fin N) (hv : v.toInt = (k.val : ℤ)) :
    clampRow N hN v = k := by
  refine Fin.ext ?_
  show min v.toInt.toNat (N - 1) = k.val
  rw [hv, Int.toNat_natCast]
  have := k.isLt
  omega

/-- When the start index `idx[e, 0]` reads as a row number `k < N`, entry `(p, e, c)` of the gather is the array's
    entry `(p, k, c)`: no clamping happens. -/
theorem gather_mid_apply_of_toInt {P N C E w : Nat}
    (wf : GatherDims.WF ⟨3, ![P, N, C]⟩ ⟨2, ![E, 1]⟩ ⟨3, ![P, E, C]⟩ [0, 2] [1] [] [1] [] 1 ![P, 1, C])
    (x : (⟨3, ![P, N, C]⟩ : Shape).Idx → α) (idx : IVec ⟨2, ![E, 1]⟩ w) (p : Fin P) (e : Fin E) (c : Fin C)
    (k : Fin N) (hk : (idx (ix2 e (0 : Fin 1))).toInt = (k.val : ℤ)) :
    Host.gather (midDims P N C E wf) x idx (ix3 p e c) = x (ix3 p k c) := by
  have hN : 0 < N := Nat.lt_of_le_of_lt (Nat.zero_le _) k.isLt
  rw [gather_mid_apply hN wf x idx p e c, clampRow_of_toInt hN _ k hk]

end Idealize.ShloMosaic.RowGather

end
-- ==== Proof.LibScatter.lean ====
/-
  StableHLO's scatter read at an index.

  The host's scatter folds over the update indices in row-major order: each update index `j` whose result index
  lies inside the operand replaces the element there by the body `f` applied to the current element and update
  `j`. When every update index has a result index inside the operand and no two of them share it, the order of
  the fold does not matter: an element some update lands at becomes `f` of its old value and that update, every
  other element is left alone. Part 1 says so for arbitrary dimension numbers. Part 2 computes the result index
  for three families of dimension numbers: a block written into a matrix at one start index, a segment written
  into a one-row matrix, and an accumulation along the middle axis of a rank-3 array at a table of rows.
-/
import Idealize.ShloMosaic.PureOps.ShapeOps
import Idealize.ShloMosaic.PureOps.Dims
import Idealize.ShloMosaic.PureOps.Ideal
import Idealize.ShloMosaic.Lib.ValueIdx

noncomputable section

open scoped BigOperators

namespace Idealize.ShloMosaic.ScatterRead

open Idealize.ShloMosaic Idealize.ShloMosaic.ValueIdx

variable {α : Type}

/-! ## Part 1: a fold of point updates at pairwise distinct places -/

section Fold
variable {ι β : Type} [DecidableEq ι]

/-- One step of the fold: position `n` replaces the element at its place `tgt n` by `f` of that element and
    the value `v n`. -/
def pointStep (f : α → α → α) (tgt : β → ι) (v : β → α) (r : ι → α) (n : β) : ι → α :=
  fun i' => if i' = tgt n then f (r (tgt n)) (v n) else r i'

/-- A place no position of the list writes to keeps its element through the fold. -/
theorem foldl_pointStep_miss (f : α → α → α) (tgt : β → ι) (v : β → α) (i : ι) :
    ∀ (l : List β) (r : ι → α), (∀ n ∈ l, tgt n ≠ i) → l.foldl (pointStep f tgt v) r i = r i
  | [], _, _ => rfl
  | a :: l, r, h => by
    rw [List.foldl_cons, foldl_pointStep_miss f tgt v i l _ (fun n hn => h n (List.mem_cons_of_mem a hn))]
    exact if_neg (fun e => h a List.mem_cons_self e.symm)

/-- Over a list without repeats and places that are pairwise distinct, the place of a position `n` of the list
    ends as `f` of its element before the fold and `v n`. -/
theorem foldl_pointStep_hit (f : α → α → α) (tgt : β → ι) (htgt : Function.Injective tgt) (v : β → α) (n : β) :
    ∀ (l : List β) (r : ι → α), l.Nodup → n ∈ l → l.foldl (pointStep f tgt v) r (tgt n) = f (r (tgt n)) (v n)
  | [], _, _, hn => absurd hn List.not_mem_nil
  | a :: l, r, hnd, hn => by
    rw [List.foldl_cons]
    rcases List.mem_cons.mp hn with rfl | hl
    · have hnot : n ∉ l := (List.nodup_cons.mp hnd).1
      rw [foldl_pointStep_miss f tgt v (tgt n) l _ (fun m hm e => hnot (htgt e ▸ hm))]
      exact if_pos rfl
    · have hne : n ≠ a := fun e => (List.nodup_cons.mp hnd).1 (e ▸ hl)
      rw [foldl_pointStep_hit f tgt htgt v n l _ (List.nodup_cons.mp hnd).2 hl]
      show f (if tgt n = tgt a then _ else r (tgt n)) (v n) = _
      rw [if_neg (fun e => hne (htgt e))]

end Fold

section General
variable {s si u : Shape} {w : Nat}

/-- When every update index `j` has the result index `ρ j` inside the operand, the scatter is the fold of the
    point updates "replace the element at `ρ j`" over the update indices in row-major order. -/
theorem scatter_eq_foldl (d : ScatterDims s si u) (f : α → α → α) (x : s.Idx → α) (idx : IVec si w)
    (upd : u.Idx → α) (ρ : u.Idx → s.Idx) (hρ : ∀ j, d.resultIdx? j idx = some (ρ j)) :
    Host.scatter d f x idx upd
      = (List.finRange u.numel).foldl
          (pointStep f (fun n => ρ (u.rowMajor.symm n)) (fun n => upd (u.rowMajor.symm n))) x := by
  unfold Host.scatter
  congr 1
  funext r n
  rw [hρ]
  rfl

/-- THE SCATTER AT A PLACE AN UPDATE LANDS AT: when the result indices `ρ j` are all inside the operand and
    pairwise distinct, the element at `ρ j` is the body applied to the operand's element there and update `j`. -/
theorem scatter_hit (d : ScatterDims s si u) (f : α → α → α) (x : s.Idx → α) (idx : IVec si w) (upd : u.Idx → α)
    (ρ : u.Idx → s.Idx) (hρ : ∀ j, d.resultIdx? j idx = some (ρ j)) (hinj : Function.Injective ρ) (j : u.Idx) :
    Host.scatter d f x idx upd (ρ j) = f (x (ρ j)) (upd j) := by
  rw [scatter_eq_foldl d f x idx upd ρ hρ]
  have h := foldl_pointStep_hit f (fun n => ρ (u.rowMajor.symm n)) (hinj.comp u.rowMajor.symm.injective)
    (fun n => upd (u.rowMajor.symm n)) (u.rowMajor j) (List.finRange u.numel) x (List.nodup_finRange _)
    (List.mem_finRange _)
  simp only [Equiv.symm_apply_apply] at h
  exact h

/-- THE SCATTER AWAY FROM EVERY UPDATE: an element no update lands at is the operand's. -/
theorem scatter_miss (d : ScatterDims s si u) (f : α → α → α) (x : s.Idx → α) (idx : IVec si w) (upd : u.Idx → α)
    (ρ : u.Idx → s.Idx) (hρ : ∀ j, d.resultIdx? j idx = some (ρ j)) (i : s.Idx) (hi : ∀ j, ρ j ≠ i) :
    Host.scatter d f x idx upd i = x i := by
  rw [scatter_eq_foldl d f x idx upd ρ hρ]
  exact foldl_pointStep_miss f _ _ i _ x (fun n _ => hi _)

/-- The result index of update index `j` is `i` once start plus window coordinate is `i`'s coordinate on every
    operand axis. -/
theorem resultIdx?_eq_some (d : ScatterDims s si u) (j : u.Idx) (idx : IVec si w) (i : s.Idx)
    (h : ∀ a, d.start j idx a + (d.window j a : ℤ) = ((i a).val : ℤ)) : d.resultIdx? j idx = some i := by
  have hb : ∀ a, 0 ≤ d.start j idx a + d.window j a ∧ d.start j idx a + d.window j a < s.size a := by
    intro a
    rw [h a]
    exact ⟨Int.natCast_nonneg _, by exact_mod_cast (i a).isLt⟩
  unfold ScatterDims.resultIdx?
  rw [dif_pos hb]
  congr 1
  funext a
  refine Fin.ext ?_
  show (d.start j idx a + d.window j a).toNat = (i a).val
  rw [h a]
  exact Int.toNat_natCast _

/-- The accumulating scatter at the ideal instance, when every update index `j` has the result index `ρ j` inside
    the operand: the operand's element plus the updates landing there. -/
theorem hostScatterAdd_eq_sum_ite (d : ScatterDims s si u) (x : s.Idx → EReal) (idx : IVec si w)
    (upd : u.Idx → EReal) (ρ : u.Idx → s.Idx) (hρ : ∀ j, d.resultIdx? j idx = some (ρ j)) (i : s.Idx) :
    Ideal.hostScatterAdd d x idx upd i = x i + ∑ j, if ρ j = i then upd j else 0 := by
  unfold Ideal.hostScatterAdd
  congr 1
  rw [Finset.sum_filter]
  refine Finset.sum_congr rfl (fun j _ => ?_)
  rw [hρ j]
  simp only [Option.some.injEq]

end General

/-! ## Part 2 (a): a block written into a matrix at one start index

Operand `[R, C]`, one index vector `[r0, c0]`, updates `[A, B]`: both update axes are window axes going to the
operand's two axes, nothing is inserted, and the index vector's two components start the window on the operand's
rows and columns. Update `(a, b)` lands at `(r0 + a, c0 + b)`. -/

section Block
variable {R C A B w : Nat}

/-- The dimension numbers of a block update of an `[A, B]` block into an `[R, C]` matrix at one index vector. -/
abbrev blockDims (R C A B : Nat)
    (wf : ScatterDims.WF ⟨2, ![R, C]⟩ ⟨1, ![2]⟩ ⟨2, ![A, B]⟩ [0, 1] [] [0, 1] 0) :
    ScatterDims ⟨2, ![R, C]⟩ ⟨1, ![2]⟩ ⟨2, ![A, B]⟩ where
  updateWindowDims := [0, 1]
  insertedWindowDims := []
  scatterDimsToOperandDims := [0, 1]
  indexVectorDim := 0
  wf := wf

/-- The window starts on the operand's rows at the index vector's first component, read signed. -/
theorem blockDims_start_zero (wf : ScatterDims.WF ⟨2, ![R, C]⟩ ⟨1, ![2]⟩ ⟨2, ![A, B]⟩ [0, 1] [] [0, 1] 0)
    (idx : IVec ⟨1, ![2]⟩ w) (j : (⟨2, ![A, B]⟩ : Shape).Idx) :
    (blockDims R C A B wf).start j idx (0 : Fin 2) = (idx (ix1 (0 : Fin 2))).toInt := by
  have hmem : (0 : Fin 2) ∈ (blockDims R C A B wf).scatterDimsToOperandDims := by
    show (0 : Fin 2) ∈ ([0, 1] : List (Fin 2)); decide
  unfold ScatterDims.start
  rw [dif_pos hmem]
  have hsi : (blockDims R C A B wf).siIdx j ⟨List.idxOf (0 : Fin 2) (blockDims R C A B wf).scatterDimsToOperandDims,
      List.idxOf_lt_length_iff.2 hmem⟩ = ix1 (0 : Fin 2) := by
    funext b; refine Fin.ext ?_
    match b with
    | ⟨0, _⟩ => rfl
  rw [hsi]

/-- The window starts on the operand's columns at the index vector's second component, read signed. -/
theorem blockDims_start_one (wf : ScatterDims.WF ⟨2, ![R, C]⟩ ⟨1, ![2]⟩ ⟨2, ![A, B]⟩ [0, 1] [] [0, 1] 0)
    (idx : IVec ⟨1, ![2]⟩ w) (j : (⟨2, ![A, B]⟩ : Shape).Idx) :
    (blockDims R C A B wf).start j idx (1 : Fin 2) = (idx (ix1 (1 : Fin 2))).toInt := by
  have hmem : (1 : Fin 2) ∈ (blockDims R C A B wf).scatterDimsToOperandDims := by
    show (1 : Fin 2) ∈ ([0, 1] : List (Fin 2)); decide
  unfold ScatterDims.start
  rw [dif_pos hmem]
  have hsi : (blockDims R C A B wf).siIdx j ⟨List.idxOf (1 : Fin 2) (blockDims R C A B wf).scatterDimsToOperandDims,
      List.idxOf_lt_length_iff.2 hmem⟩ = ix1 (1 : Fin 2) := by
    funext b; refine Fin.ext ?_
    match b with
    | ⟨0, _⟩ => rfl
  rw [hsi]

/-- The window coordinate on the operand's rows is the update's row. -/
theorem blockDims_window_zero (wf : ScatterDims.WF ⟨2, ![R, C]⟩ ⟨1, ![2]⟩ ⟨2, ![A, B]⟩ [0, 1] [] [0, 1] 0)
    (j : (⟨2, ![A, B]⟩ : Shape).Idx) : (blockDims R C A B wf).window j (0 : Fin 2) = (j 0).val := by
  have hmem : (0 : Fin 2) ∈ (blockDims R C A B wf).sKept := by
    show (0 : Fin 2) ∈ (List.finRange 2).filter (fun a => a ∉ ([] : List (Fin 2))); decide
  unfold ScatterDims.window
  rw [dif_pos hmem]
  rfl

/-- The window coordinate on the operand's columns is the update's column. -/
theorem blockDims_window_one (wf : ScatterDims.WF ⟨2, ![R, C]⟩ ⟨1, ![2]⟩ ⟨2, ![A, B]⟩ [0, 1] [] [0, 1] 0)
    (j : (⟨2, ![A, B]⟩ : Shape).Idx) : (blockDims R C A B wf).window j (1 : Fin 2) = (j 1).val := by
  have hmem : (1 : Fin 2) ∈ (blockDims R C A B wf).sKept := by
    show (1 : Fin 2) ∈ (List.finRange 2).filter (fun a => a ∉ ([] : List (Fin 2))); decide
  unfold ScatterDims.window
  rw [dif_pos hmem]
  rfl

/-- Where update `(a, b)` lands when the block starts at `(r0, c0)` and fits: `(r0 + a, c0 + b)`. -/
def blockPlace (r0 c0 : Nat) (hr : r0 + A ≤ R) (hc : c0 + B ≤ C) (j : (⟨2, ![A, B]⟩ : Shape).Idx) :
    (⟨2, ![R, C]⟩ : Shape).Idx :=
  ix2 ⟨r0 + (j 0).val, by have := idx2_lt0 j; omega⟩ ⟨c0 + (j 1).val, by have := idx2_lt1 j; omega⟩

/-- The result index of update `j` is its place in the block's window. -/
theorem blockDims_resultIdx (wf : ScatterDims.WF ⟨2, ![R, C]⟩ ⟨1, ![2]⟩ ⟨2, ![A, B]⟩ [0, 1] [] [0, 1] 0)
    (idx : IVec ⟨1, ![2]⟩ w) (r0 c0 : Nat) (h0 : (idx (ix1 (0 : Fin 2))).toInt = (r0 : ℤ))
    (h1 : (idx (ix1 (1 : Fin 2))).toInt = (c0 : ℤ)) (hr : r0 + A ≤ R) (hc : c0 + B ≤ C)
    (j : (⟨2, ![A, B]⟩ : Shape).Idx) :
    (blockDims R C A B wf).resultIdx? j idx = some (blockPlace r0 c0 hr hc j) := by
  refine resultIdx?_eq_some _ j idx _ (fun a => ?_)
  match a with
  | ⟨0, _⟩ =>
    show (blockDims R C A B wf).start j idx (0 : Fin 2) + ((blockDims R C A B wf).window j (0 : Fin 2) : ℤ) = _
    rw [blockDims_start_zero, blockDims_window_zero, h0]
    show (r0 : ℤ) + ((j 0).val : ℤ) = ((r0 + (j 0).val : ℕ) : ℤ)
    push_cast; rfl
  | ⟨1, _⟩ =>
    show (blockDims R C A B wf).start j idx (1 : Fin 2) + ((blockDims R C A B wf).window j (1 : Fin 2) : ℤ) = _
    rw [blockDims_start_one, blockDims_window_one, h1]
    show (c0 : ℤ) + ((j 1).val : ℤ) = ((c0 + (j 1).val : ℕ) : ℤ)
    push_cast; rfl

/-- Distinct updates land at distinct places. -/
theorem blockPlace_injective (r0 c0 : Nat) (hr : r0 + A ≤ R) (hc : c0 + B ≤ C) :
    Function.Injective (blockPlace (R := R) (C := C) (A := A) (B := B) r0 c0 hr hc) := by
  intro j j' e
  have e0 : r0 + (j 0).val = r0 + (j' 0).val := congrArg (fun i => (i 0).val) e
  have e1 : c0 + (j 1).val = c0 + (j' 1).val := congrArg (fun i => (i 1).val) e
  rw [eq_ix2 j, eq_ix2 j']
  have a0 : j 0 = j' 0 := Fin.ext (by omega)
  have a1 : j 1 = j' 1 := Fin.ext (by omega)
  rw [a0, a1]

/-- A BLOCK SCATTER READ AT `(i, j)`: inside the window `[r0, r0 + A) × [c0, c0 + B)` the body applied to the
    operand's element and the update's element at the offset from the window's corner; outside it the operand's. -/
theorem scatter_block_apply (wf : ScatterDims.WF ⟨2, ![R, C]⟩ ⟨1, ![2]⟩ ⟨2, ![A, B]⟩ [0, 1] [] [0, 1] 0)
    (f : α → α → α) (x : (⟨2, ![R, C]⟩ : Shape).Idx → α) (idx : IVec ⟨1, ![2]⟩ w)
    (upd : (⟨2, ![A, B]⟩ : Shape).Idx → α) (r0 c0 : Nat) (h0 : (idx (ix1 (0 : Fin 2))).toInt = (r0 : ℤ))
    (h1 : (idx (ix1 (1 : Fin 2))).toInt = (c0 : ℤ)) (hr : r0 + A ≤ R) (hc : c0 + B ≤ C) (i : Fin R) (j : Fin C) :
    Host.scatter (blockDims R C A B wf) f x idx upd (ix2 i j)
      = if h : r0 ≤ i.val ∧ i.val < r0 + A ∧ c0 ≤ j.val ∧ j.val < c0 + B then
          f (x (ix2 i j)) (upd (ix2 ⟨i.val - r0, by omega⟩ ⟨j.val - c0, by omega⟩))
        else x (ix2 i j) := by
  have hρ := blockDims_resultIdx wf idx r0 c0 h0 h1 hr hc
  by_cases h : r0 ≤ i.val ∧ i.val < r0 + A ∧ c0 ≤ j.val ∧ j.val < c0 + B
  · rw [dif_pos h]
    have hplace : blockPlace r0 c0 hr hc (ix2 (⟨i.val - r0, by omega⟩ : Fin A) (⟨j.val - c0, by omega⟩ : Fin B))
        = ix2 i j := by
      funext a
      match a with
      | ⟨0, _⟩ => exact Fin.ext (show r0 + (i.val - r0) = i.val by omega)
      | ⟨1, _⟩ => exact Fin.ext (show c0 + (j.val - c0) = j.val by omega)
    have := scatter_hit (blockDims R C A B wf) f x idx upd _ hρ (blockPlace_injective r0 c0 hr hc)
      (ix2 (⟨i.val - r0, by omega⟩ : Fin A) (⟨j.val - c0, by omega⟩ : Fin B))
    rw [hplace] at this
    exact this
  · rw [dif_neg h]
    refine scatter_miss (blockDims R C A B wf) f x idx upd _ hρ _ (fun j' e => h ?_)
    have e0 : r0 + (j' 0).val = i.val := congrArg (fun k => (k 0).val) e
    have e1 : c0 + (j' 1).val = j.val := congrArg (fun k => (k 1).val) e
    have := idx2_lt0 j'
    have := idx2_lt1 j'
    omega

/-- The same for any dimension numbers with those four lists: a record written out field by field is one. -/
theorem scatter_block_apply' (d : ScatterDims ⟨2, ![R, C]⟩ ⟨1, ![2]⟩ ⟨2, ![A, B]⟩)
    (hu : d.updateWindowDims = [0, 1]) (hi : d.insertedWindowDims = []) (hs : d.scatterDimsToOperandDims = [0, 1])
    (hv : d.indexVectorDim = 0)
    (f : α → α → α) (x : (⟨2, ![R, C]⟩ : Shape).Idx → α) (idx : IVec ⟨1, ![2]⟩ w)
    (upd : (⟨2, ![A, B]⟩ : Shape).Idx → α) (r0 c0 : Nat) (h0 : (idx (ix1 (0 : Fin 2))).toInt = (r0 : ℤ))
    (h1 : (idx (ix1 (1 : Fin 2))).toInt = (c0 : ℤ)) (hr : r0 + A ≤ R) (hc : c0 + B ≤ C) (i : Fin R) (j : Fin C) :
    Host.scatter d f x idx upd (ix2 i j)
      = if h : r0 ≤ i.val ∧ i.val < r0 + A ∧ c0 ≤ j.val ∧ j.val < c0 + B then
          f (x (ix2 i j)) (upd (ix2 ⟨i.val - r0, by omega⟩ ⟨j.val - c0, by omega⟩))
        else x (ix2 i j) := by
  obtain ⟨uw, iw, sd, iv, wf⟩ := d
  simp only at hu hi hs hv
  subst hu hi hs hv
  exact scatter_block_apply wf f x idx upd r0 c0 h0 h1 hr hc i j

end Block

/-! ## Part 2 (b): a segment written into a one-row matrix at one start index

Operand `[1, C]`, one index vector `[0, c0]`, updates `[B]`: the update's one axis is a window axis going to the
operand's columns, the operand's row axis is inserted, and the index vector's two components start the window on
the operand's row and columns. Update `b` lands at `(0, c0 + b)`. -/

section Segment
variable {C B w : Nat}

/-- The dimension numbers of a segment update of `[B]` into a `[1, C]` matrix at one index vector. -/
abbrev segmentDims (C B : Nat)
    (wf : ScatterDims.WF ⟨2, ![1, C]⟩ ⟨1, ![2]⟩ ⟨1, ![B]⟩ [0] [0] [0, 1] 0) :
    ScatterDims ⟨2, ![1, C]⟩ ⟨1, ![2]⟩ ⟨1, ![B]⟩ where
  updateWindowDims := [0]
  insertedWindowDims := [0]
  scatterDimsToOperandDims := [0, 1]
  indexVectorDim := 0
  wf := wf

/-- The window starts on the operand's row axis at the index vector's first component, read signed. -/
theorem segmentDims_start_zero (wf : ScatterDims.WF ⟨2, ![1, C]⟩ ⟨1, ![2]⟩ ⟨1, ![B]⟩ [0] [0] [0, 1] 0)
    (idx : IVec ⟨1, ![2]⟩ w) (j : (⟨1, ![B]⟩ : Shape).Idx) :
    (segmentDims C B wf).start j idx (0 : Fin 2) = (idx (ix1 (0 : Fin 2))).toInt := by
  have hmem : (0 : Fin 2) ∈ (segmentDims C B wf).scatterDimsToOperandDims := by
    show (0 : Fin 2) ∈ ([0, 1] : List (Fin 2)); decide
  unfold ScatterDims.start
  rw [dif_pos hmem]
  have hsi : (segmentDims C B wf).siIdx j ⟨List.idxOf (0 : Fin 2) (segmentDims C B wf).scatterDimsToOperandDims,
      List.idxOf_lt_length_iff.2 hmem⟩ = ix1 (0 : Fin 2) := by
    funext b; refine Fin.ext ?_
    match b with
    | ⟨0, _⟩ => rfl
  rw [hsi]

/-- The window starts on the operand's columns at the index vector's second component, read signed. -/
theorem segmentDims_start_one (wf : ScatterDims.WF ⟨2, ![1, C]⟩ ⟨1, ![2]⟩ ⟨1, ![B]⟩ [0] [0] [0, 1] 0)
    (idx : IVec ⟨1, ![2]⟩ w) (j : (⟨1, ![B]⟩ : Shape).Idx) :
    (segmentDims C B wf).start j idx (1 : Fin 2) = (idx (ix1 (1 : Fin 2))).toInt := by
  have hmem : (1 : Fin 2) ∈ (segmentDims C B wf).scatterDimsToOperandDims := by
    show (1 : Fin 2) ∈ ([0, 1] : List (Fin 2)); decide
  unfold ScatterDims.start
  rw [dif_pos hmem]
  have hsi : (segmentDims C B wf).siIdx j ⟨List.idxOf (1 : Fin 2) (segmentDims C B wf).scatterDimsToOperandDims,
      List.idxOf_lt_length_iff.2 hmem⟩ = ix1 (1 : Fin 2) := by
    funext b; refine Fin.ext ?_
    match b with
    | ⟨0, _⟩ => rfl
  rw [hsi]

/-- The operand's row axis is inserted: no window coordinate there. -/
theorem segmentDims_window_zero (wf : ScatterDims.WF ⟨2, ![1, C]⟩ ⟨1, ![2]⟩ ⟨1, ![B]⟩ [0] [0] [0, 1] 0)
    (j : (⟨1, ![B]⟩ : Shape).Idx) : (segmentDims C B wf).window j (0 : Fin 2) = 0 := by
  have hmem : ¬ (0 : Fin 2) ∈ (segmentDims C B wf).sKept := by
    show ¬ (0 : Fin 2) ∈ (List.finRange 2).filter (fun a => a ∉ ([0] : List (Fin 2))); decide
  unfold ScatterDims.window
  rw [dif_neg hmem]

/-- The window coordinate on the operand's columns is the update's position. -/
theorem segmentDims_window_one (wf : ScatterDims.WF ⟨2, ![1, C]⟩ ⟨1, ![2]⟩ ⟨1, ![B]⟩ [0] [0] [0, 1] 0)
    (j : (⟨1, ![B]⟩ : Shape).Idx) : (segmentDims C B wf).window j (1 : Fin 2) = (j 0).val := by
  have hmem : (1 : Fin 2) ∈ (segmentDims C B wf).sKept := by
    show (1 : Fin 2) ∈ (List.finRange 2).filter (fun a => a ∉ ([0] : List (Fin 2))); decide
  unfold ScatterDims.window
  rw [dif_pos hmem]
  rfl

/-- Where update `b` lands when the segment starts at column `c0` and fits: `(0, c0 + b)`. -/
def segmentPlace (c0 : Nat) (hc : c0 + B ≤ C) (j : (⟨1, ![B]⟩ : Shape).Idx) : (⟨2, ![1, C]⟩ : Shape).Idx :=
  ix2 (0 : Fin 1) ⟨c0 + (j 0).val, by have : (j 0).val < B := (j 0).isLt; omega⟩

/-- The result index of update `j` is its place in the segment's window. -/
theorem segmentDims_resultIdx (wf : ScatterDims.WF ⟨2, ![1, C]⟩ ⟨1, ![2]⟩ ⟨1, ![B]⟩ [0] [0] [0, 1] 0)
    (idx : IVec ⟨1, ![2]⟩ w) (c0 : Nat) (h0 : (idx (ix1 (0 : Fin 2))).toInt = 0)
    (h1 : (idx (ix1 (1 : Fin 2))).toInt = (c0 : ℤ)) (hc : c0 + B ≤ C) (j : (⟨1, ![B]⟩ : Shape).Idx) :
    (segmentDims C B wf).resultIdx? j idx = some (segmentPlace c0 hc j) := by
  refine resultIdx?_eq_some _ j idx _ (fun a => ?_)
  match a with
  | ⟨0, _⟩ =>
    show (segmentDims C B wf).start j idx (0 : Fin 2) + ((segmentDims C B wf).window j (0 : Fin 2) : ℤ) = _
    rw [segmentDims_start_zero, segmentDims_window_zero, h0]
    rfl
  | ⟨1, _⟩ =>
    show (segmentDims C B wf).start j idx (1 : Fin 2) + ((segmentDims C B wf).window j (1 : Fin 2) : ℤ) = _
    rw [segmentDims_start_one, segmentDims_window_one, h1]
    show (c0 : ℤ) + ((j 0).val : ℤ) = ((c0 + (j 0).val : ℕ) : ℤ)
    push_cast; rfl

/-- Distinct updates land at distinct places. -/
theorem segmentPlace_injective (c0 : Nat) (hc : c0 + B ≤ C) :
    Function.Injective (segmentPlace (C := C) (B := B) c0 hc) := by
  intro j j' e
  have e1 : c0 + (j 0).val = c0 + (j' 0).val := congrArg (fun i => (i 1).val) e
  rw [eq_ix1 j, eq_ix1 j']
  have a0 : j 0 = j' 0 := Fin.ext (by omega)
  rw [a0]

/-- A SEGMENT SCATTER READ AT `(0, j)`: inside the window `[c0, c0 + B)` the body applied to the operand's element
    and the update's element at the offset from the window's start; outside it the operand's. -/
theorem scatter_segment_apply (wf : ScatterDims.WF ⟨2, ![1, C]⟩ ⟨1, ![2]⟩ ⟨1, ![B]⟩ [0] [0] [0, 1] 0)
    (f : α → α → α) (x : (⟨2, ![1, C]⟩ : Shape).Idx → α) (idx : IVec ⟨1, ![2]⟩ w)
    (upd : (⟨1, ![B]⟩ : Shape).Idx → α) (c0 : Nat) (h0 : (idx (ix1 (0 : Fin 2))).toInt = 0)
    (h1 : (idx (ix1 (1 : Fin 2))).toInt = (c0 : ℤ)) (hc : c0 + B ≤ C) (j : Fin C) :
    Host.scatter (segmentDims C B wf) f x idx upd (ix2 (0 : Fin 1) j)
      = if h : c0 ≤ j.val ∧ j.val < c0 + B then
          f (x (ix2 (0 : Fin 1) j)) (upd (ix1 ⟨j.val - c0, by omega⟩))
        else x (ix2 (0 : Fin 1) j) := by
  have hρ := segmentDims_resultIdx wf idx c0 h0 h1 hc
  by_cases h : c0 ≤ j.val ∧ j.val < c0 + B
  · rw [dif_pos h]
    have hplace : segmentPlace c0 hc (ix1 (⟨j.val - c0, by omega⟩ : Fin B)) = ix2 (0 : Fin 1) j := by
      funext a
      match a with
      | ⟨0, _⟩ => rfl
      | ⟨1, _⟩ => exact Fin.ext (show c0 + (j.val - c0) = j.val by omega)
    have := scatter_hit (segmentDims C B wf) f x idx upd _ hρ (segmentPlace_injective c0 hc)
      (ix1 (⟨j.val - c0, by omega⟩ : Fin B))
    rw [hplace] at this
    exact this
  · rw [dif_neg h]
    refine scatter_miss (segmentDims C B wf) f x idx upd _ hρ _ (fun j' e => h ?_)
    have e1 : c0 + (j' 0).val = j.val := congrArg (fun k => (k 1).val) e
    have : (j' 0).val < B := (j' 0).isLt
    omega

/-- The same for any dimension numbers with those four lists: a record written out field by field is one. -/
theorem scatter_segment_apply' (d : ScatterDims ⟨2, ![1, C]⟩ ⟨1, ![2]⟩ ⟨1, ![B]⟩)
    (hu : d.updateWindowDims = [0]) (hi : d.insertedWindowDims = [0]) (hs : d.scatterDimsToOperandDims = [0, 1])
    (hv : d.indexVectorDim = 0)
    (f : α → α → α) (x : (⟨2, ![1, C]⟩ : Shape).Idx → α) (idx : IVec ⟨1, ![2]⟩ w)
    (upd : (⟨1, ![B]⟩ : Shape).Idx → α) (c0 : Nat) (h0 : (idx (ix1 (0 : Fin 2))).toInt = 0)
    (h1 : (idx (ix1 (1 : Fin 2))).toInt = (c0 : ℤ)) (hc : c0 + B ≤ C) (j : Fin C) :
    Host.scatter d f x idx upd (ix2 (0 : Fin 1) j)
      = if h : c0 ≤ j.val ∧ j.val < c0 + B then
          f (x (ix2 (0 : Fin 1) j)) (upd (ix1 ⟨j.val - c0, by omega⟩))
        else x (ix2 (0 : Fin 1) j) := by
  obtain ⟨uw, iw, sd, iv, wf⟩ := d
  simp only at hu hi hs hv
  subst hu hi hs hv
  exact scatter_segment_apply wf f x idx upd c0 h0 h1 hc j

end Segment

/-! ## Part 2 (c): an accumulating scatter along the middle axis, at the ideal instance

Operand `[P, N, Z]`, scatter indices `[E, 1]` (one row number per `e`), updates `[P, E, Z]`: the updates' first and
last axes are window axes going to the operand's first and last axes, the operand's middle axis is inserted and is
the one the index names. Update `(p, e, z)` lands at `(p, κ e, z)` when the `e`-th index is the row `κ e`. So
the operand's element `(p, n, z)` gains the updates `(p, e, z)` over the `e` with `κ e = n`. -/

section Rows
variable {P N Z E w : Nat}

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl (fun a _ => ?_)
  rw [Fintype.sum_prod_type]
  rfl

/-- Two rank-3 indices agree exactly when their coordinates do. -/
theorem ix3_eq_iff {n0 n1 n2 : Nat} (a a' : Fin n0) (b b' : Fin n1) (c c' : Fin n2) :
    ix3 a b c = ix3 a' b' c' ↔ a = a' ∧ b = b' ∧ c = c' := by
  constructor
  · intro e
    exact ⟨congrFun e 0, congrFun e 1, congrFun e 2⟩
  · rintro ⟨rfl, rfl, rfl⟩
    rfl

/-- The dimension numbers of `x.at[:, rows, :].add(upd)` for `x : [P, N, Z]`, the rows as `[E, 1]`, `upd : [P, E, Z]`. -/
abbrev rowAddDims (P N Z E : Nat)
    (wf : ScatterDims.WF ⟨3, ![P, N, Z]⟩ ⟨2, ![E, 1]⟩ ⟨3, ![P, E, Z]⟩ [0, 2] [1] [1] 1) :
    ScatterDims ⟨3, ![P, N, Z]⟩ ⟨2, ![E, 1]⟩ ⟨3, ![P, E, Z]⟩ where
  updateWindowDims := [0, 2]
  insertedWindowDims := [1]
  scatterDimsToOperandDims := [1]
  indexVectorDim := 1
  wf := wf

/-- On the operand's first axis the index names nothing: the window starts at `0`. -/
theorem rowAddDims_start_zero (wf : ScatterDims.WF ⟨3, ![P, N, Z]⟩ ⟨2, ![E, 1]⟩ ⟨3, ![P, E, Z]⟩ [0, 2] [1] [1] 1)
    (idx : IVec ⟨2, ![E, 1]⟩ w) (j : (⟨3, ![P, E, Z]⟩ : Shape).Idx) :
    (rowAddDims P N Z E wf).start j idx (0 : Fin 3) = 0 := by
  have hmem : ¬ (0 : Fin 3) ∈ (rowAddDims P N Z E wf).scatterDimsToOperandDims := by
    show ¬ (0 : Fin 3) ∈ ([1] : List (Fin 3)); decide
  unfold ScatterDims.start
  rw [dif_neg hmem]

/-- On the operand's last axis the index names nothing: the window starts at `0`. -/
theorem rowAddDims_start_two (wf : ScatterDims.WF ⟨3, ![P, N, Z]⟩ ⟨2, ![E, 1]⟩ ⟨3, ![P, E, Z]⟩ [0, 2] [1] [1] 1)
    (idx : IVec ⟨2, ![E, 1]⟩ w) (j : (⟨3, ![P, E, Z]⟩ : Shape).Idx) :
    (rowAddDims P N Z E wf).start j idx (2 : Fin 3) = 0 := by
  have hmem : ¬ (2 : Fin 3) ∈ (rowAddDims P N Z E wf).scatterDimsToOperandDims := by
    show ¬ (2 : Fin 3) ∈ ([1] : List (Fin 3)); decide
  unfold ScatterDims.start
  rw [dif_neg hmem]

/-- On the operand's middle axis the window starts at the index of the update's middle coordinate, read signed. -/
theorem rowAddDims_start_one (wf : ScatterDims.WF ⟨3, ![P, N, Z]⟩ ⟨2, ![E, 1]⟩ ⟨3, ![P, E, Z]⟩ [0, 2] [1] [1] 1)
    (idx : IVec ⟨2, ![E, 1]⟩ w) (j : (⟨3, ![P, E, Z]⟩ : Shape).Idx) :
    (rowAddDims P N Z E wf).start j idx (1 : Fin 3) = (idx (ix2 (j 1 : Fin E) (0 : Fin 1))).toInt := by
  have hmem : (1 : Fin 3) ∈ (rowAddDims P N Z E wf).scatterDimsToOperandDims := by
    show (1 : Fin 3) ∈ ([1] : List (Fin 3)); decide
  unfold ScatterDims.start
  rw [dif_pos hmem]
  have hsi : (rowAddDims P N Z E wf).siIdx j ⟨List.idxOf (1 : Fin 3) (rowAddDims P N Z E wf).scatterDimsToOperandDims,
      List.idxOf_lt_length_iff.2 hmem⟩ = ix2 (j 1 : Fin E) (0 : Fin 1) := by
    funext b; refine Fin.ext ?_
    match b with
    | ⟨0, _⟩ => rfl
    | ⟨1, _⟩ => rfl
  rw [hsi]
  rfl

/-- The window coordinate on the operand's first axis is the update's first coordinate. -/
theorem rowAddDims_window_zero (wf : ScatterDims.WF ⟨3, ![P, N, Z]⟩ ⟨2, ![E, 1]⟩ ⟨3, ![P, E, Z]⟩ [0, 2] [1] [1] 1)
    (j : (⟨3, ![P, E, Z]⟩ : Shape).Idx) : (rowAddDims P N Z E wf).window j (0 : Fin 3) = (j 0).val := by
  have hmem : (0 : Fin 3) ∈ (rowAddDims P N Z E wf).sKept := by
    show (0 : Fin 3) ∈ (List.finRange 3).filter (fun a => a ∉ ([1] : List (Fin 3))); decide
  unfold ScatterDims.window
  rw [dif_pos hmem]
  rfl

/-- The operand's middle axis is inserted: no window coordinate there. -/
theorem rowAddDims_window_one (wf : ScatterDims.WF ⟨3, ![P, N, Z]⟩ ⟨2, ![E, 1]⟩ ⟨3, ![P, E, Z]⟩ [0, 2] [1] [1] 1)
    (j : (⟨3, ![P, E, Z]⟩ : Shape).Idx) : (rowAddDims P N Z E wf).window j (1 : Fin 3) = 0 := by
  have hmem : ¬ (1 : Fin 3) ∈ (rowAddDims P N Z E wf).sKept := by
    show ¬ (1 : Fin 3) ∈ (List.finRange 3).filter (fun a => a ∉ ([1] : List (Fin 3))); decide
  unfold ScatterDims.window
  rw [dif_neg hmem]

/-- The window coordinate on the operand's last axis is the update's last coordinate. -/
theorem rowAddDims_window_two (wf : ScatterDims.WF ⟨3, ![P, N, Z]⟩ ⟨2, ![E, 1]⟩ ⟨3, ![P, E, Z]⟩ [0, 2] [1] [1] 1)
    (j : (⟨3, ![P, E, Z]⟩ : Shape).Idx) : (rowAddDims P N Z E wf).window j (2 : Fin 3) = (j 2).val := by
  have hmem : (2 : Fin 3) ∈ (rowAddDims P N Z E wf).sKept := by
    show (2 : Fin 3) ∈ (List.finRange 3).filter (fun a => a ∉ ([1] : List (Fin 3))); decide
  unfold ScatterDims.window
  rw [dif_pos hmem]
  rfl

/-- Where update `(p, e, z)` lands when the `e`-th index is the row `κ e`: `(p, κ e, z)`. -/
def rowPlace (κ : Fin E → Fin N) (j : (⟨3, ![P, E, Z]⟩ : Shape).Idx) : (⟨3, ![P, N, Z]⟩ : Shape).Idx :=
  ix3 (j 0 : Fin P) (κ (j 1 : Fin E)) (j 2 : Fin Z)

/-- The result index of update `j` is its place: the row its index names, the other two coordinates kept. -/
theorem rowAddDims_resultIdx (wf : ScatterDims.WF ⟨3, ![P, N, Z]⟩ ⟨2, ![E, 1]⟩ ⟨3, ![P, E, Z]⟩ [0, 2] [1] [1] 1)
    (idx : IVec ⟨2, ![E, 1]⟩ w) (κ : Fin E → Fin N)
    (hκ : ∀ e : Fin E, (idx (ix2 e (0 : Fin 1))).toInt = ((κ e).val : ℤ)) (j : (⟨3, ![P, E, Z]⟩ : Shape).Idx) :
    (rowAddDims P N Z E wf).resultIdx? j idx = some (rowPlace κ j) := by
  refine resultIdx?_eq_some _ j idx _ (fun a => ?_)
  match a with
  | ⟨0, _⟩ =>
    show (rowAddDims P N Z E wf).start j idx (0 : Fin 3) + ((rowAddDims P N Z E wf).window j (0 : Fin 3) : ℤ) = _
    rw [rowAddDims_start_zero, rowAddDims_window_zero, zero_add]
    rfl
  | ⟨1, _⟩ =>
    show (rowAddDims P N Z E wf).start j idx (1 : Fin 3) + ((rowAddDims P N Z E wf).window j (1 : Fin 3) : ℤ) = _
    rw [rowAddDims_start_one, rowAddDims_window_one, Nat.cast_zero, add_zero]
    exact hκ (j 1 : Fin E)
  | ⟨2, _⟩ =>
    show (rowAddDims P N Z E wf).start j idx (2 : Fin 3) + ((rowAddDims P N Z E wf).window j (2 : Fin 3) : ℤ) = _
    rw [rowAddDims_start_two, rowAddDims_window_two, zero_add]
    rfl

/-- AN ACCUMULATING ROW SCATTER READ AT `(p, n, z)`: the operand's element plus the updates `(p, e, z)` over the
    positions `e` whose index is the row `n`. -/
theorem scatterAdd_rows_apply (wf : ScatterDims.WF ⟨3, ![P, N, Z]⟩ ⟨2, ![E, 1]⟩ ⟨3, ![P, E, Z]⟩ [0, 2] [1] [1] 1)
    (x : (⟨3, ![P, N, Z]⟩ : Shape).Idx → EReal) (idx : IVec ⟨2, ![E, 1]⟩ w)
    (upd : (⟨3, ![P, E, Z]⟩ : Shape).Idx → EReal) (κ : Fin E → Fin N)
    (hκ : ∀ e : Fin E, (idx (ix2 e (0 : Fin 1))).toInt = ((κ e).val : ℤ)) (p : Fin P) (n : Fin N) (z : Fin Z) :
    Ideal.hostScatterAdd (rowAddDims P N Z E wf) x idx upd (ix3 p n z)
      = x (ix3 p n z) + ∑ e : Fin E, if κ e = n then upd (ix3 p e z) else 0 := by
  rw [hostScatterAdd_eq_sum_ite _ x idx upd (rowPlace κ) (rowAddDims_resultIdx wf idx κ hκ)]
  congr 1
  rw [sum_idx3, Finset.sum_eq_single p]
  · refine Finset.sum_congr rfl (fun e _ => ?_)
    rw [Finset.sum_eq_single z]
    · by_cases h : κ e = n
      · rw [if_pos h, if_pos]
        show ix3 p (κ e) z = ix3 p n z
        rw [h]
      · rw [if_neg h, if_neg]
        intro e'
        exact h ((ix3_eq_iff _ _ _ _ _ _).mp e').2.1
    · intro c _ hc
      rw [if_neg]
      intro e'
      exact hc ((ix3_eq_iff _ _ _ _ _ _).mp e').2.2
    · intro h
      exact absurd (Finset.mem_univ _) h
  · intro a _ ha
    refine Finset.sum_eq_zero (fun b _ => Finset.sum_eq_zero (fun c _ => ?_))
    rw [if_neg]
    intro e'
    exact ha ((ix3_eq_iff _ _ _ _ _ _).mp e').1
  · intro h
    exact absurd (Finset.mem_univ _) h

/-- The same for any dimension numbers with those four lists: a record written out field by field is one. -/
theorem scatterAdd_rows_apply' (d : ScatterDims ⟨3, ![P, N, Z]⟩ ⟨2, ![E, 1]⟩ ⟨3, ![P, E, Z]⟩)
    (hu : d.updateWindowDims = [0, 2]) (hi : d.insertedWindowDims = [1]) (hs : d.scatterDimsToOperandDims = [1])
    (hv : d.indexVectorDim = 1)
    (x : (⟨3, ![P, N, Z]⟩ : Shape).Idx → EReal) (idx : IVec ⟨2, ![E, 1]⟩ w)
    (upd : (⟨3, ![P, E, Z]⟩ : Shape).Idx → EReal) (κ : Fin E → Fin N)
    (hκ : ∀ e : Fin E, (idx (ix2 e (0 : Fin 1))).toInt = ((κ e).val : ℤ)) (p : Fin P) (n : Fin N) (z : Fin Z) :
    Ideal.hostScatterAdd d x idx upd (ix3 p n z)
      = x (ix3 p n z) + ∑ e : Fin E, if κ e = n then upd (ix3 p e z) else 0 := by
  obtain ⟨uw, iw, sd, iv, wf⟩ := d
  simp only at hu hi hs hv
  subst hu hi hs hv
  exact scatterAdd_rows_apply wf x idx upd κ hκ p n z

end Rows

end Idealize.ShloMosaic.ScatterRead

end
-- ==== Proof.RefValue.lean ====
/-
  The reference's result read at one index, at the ideal values (extended reals, every operation exact).

  Entry `(p, k, z)` of the program's term is the state's entry plus, over the seven lines `l` whose target colony is
  `k`, the gate weight of `l` times (the shared linear map of `l`'s two source colonies plus the bias). Each operation
  of the term is read at an index by a lemma of its own over variables: the three index columns are the three line
  tables; a gather along the colony axis reads the state at the table's colony; the two gathered arrays laid side by
  side are read on the left or the right half of the 128 features; the contraction with the weight is a sum over the
  128 features, which splits into the two sums over 64; the two-step broadcasts read the bias at the feature and the
  gate weight at the line; the accumulation into target colonies, started from zero, is the sum over the lines with
  that target. Nothing here needs a finite entry: only `0 + s = s` and re-indexing of sums are used.
-/
import proofs.«400105_j43224550867196_3_alg».proof.Proof.Gen.ReferenceIdeal
import proofs.«400105_j43224550867196_3_alg».proof.Proof.RefTerm
import proofs.«400105_j43224550867196_3_alg».proof.Proof.Spec
import proofs.«400105_j43224550867196_3_alg».proof.Proof.LibGatherMid
import proofs.«400105_j43224550867196_3_alg».proof.Proof.LibScatter
import Idealize.ShloMosaic.PureOps.Ideal.Laws
import Idealize.ShloMosaic.Lib.ValueIdx
import Idealize.ShloMosaic.Lib.Pipeline.Value
import Mathlib.Algebra.BigOperators.Fin

noncomputable section

open scoped BigOperators

namespace Cert.ReferenceIdeal.RefValue

open Cert.ReferenceIdeal Cert.ReferenceIdeal.Facts₀ Idealize.ShloMosaic Idealize.ShloMosaic.ValueIdx

variable [Facts]

/-! ## The three index columns are the three line tables -/

/-- Position `e` of the first column of start indices reads as line `e`'s first source colony. -/
theorem colIdx_lit0 (e : Fin 7) : (colIdx lit0 (ix2 e (0 : Fin 1))).toInt = ((Cert.Fano.src1 e).val : ℤ) := by
  fin_cases e <;> rfl

/-- Position `e` of the second column reads as line `e`'s second source colony. -/
theorem colIdx_lit1 (e : Fin 7) : (colIdx lit1 (ix2 e (0 : Fin 1))).toInt = ((Cert.Fano.src2 e).val : ℤ) := by
  fin_cases e <;> rfl

/-- Position `e` of the third column reads as line `e`'s target colony. -/
theorem colIdx_lit2 (e : Fin 7) : (colIdx lit2 (ix2 e (0 : Fin 1))).toInt = ((Cert.Fano.dst e).val : ℤ) := by
  fin_cases e <;> rfl

/-! ## The broadcasts -/

/-- The bias laid along the feature axis of a `[1, 1, 64]` array and copied to every row and line: at `(p, l, z)` it
    is the bias at `z`. -/
theorem bias_apply (b : FVec Ideal S64 .f32) (p : Fin 131072) (l : Fin 7) (z : Fin 64) :
    broadcastInDim S131072x7x64 ![0, 1, 2] bcast_S1x1x64_S131072x7x64_0_1_2
      (broadcastInDim S1x1x64 ![2] bcast_S64_S1x1x64_2 b) (ix3 p l z) = b (ix1 z) := by
  unfold broadcastInDim
  congr 1
  funext a
  match a with
  | ⟨0, _⟩ => rfl

/-- The gate weights laid along the line axis of a `[1, 7, 1]` array and copied to every row and feature: at
    `(p, l, z)` it is the weight of line `l`. -/
theorem gate_apply (g : FVec Ideal S7 .f32) (p : Fin 131072) (l : Fin 7) (z : Fin 64) :
    broadcastInDim S131072x7x64 ![0, 1, 2] bcast_S1x7x1_S131072x7x64_0_1_2
      (broadcastInDim S1x7x1 ![1] bcast_S7_S1x7x1_1 g) (ix3 p l z) = g (ix1 l) := by
  unfold broadcastInDim
  congr 1
  funext a
  match a with
  | ⟨0, _⟩ => rfl

/-- The array the accumulation starts from is zero everywhere. -/
theorem zero_apply (i : S131072x7x64.Idx) :
    broadcastInDim S131072x7x64 ![] bcast_S_S131072x7x64 (constant (F := Ideal) S_ .f32 0x00000000#32) i = 0 := by
  show Ideal.ofBits .f32 0x00000000#32 = 0
  exact Ideal.ofBits_zero_f32

/-! ## The two gathers -/

/-- Entry `(p, l, f)` of the first gather is the state at line `l`'s first source colony. -/
theorem gather1_apply (x : FVec Ideal S131072x7x64 .f32) (p : Fin 131072) (l : Fin 7) (f : Fin 64) :
    Host.gather gather_S131072x7x64_S7x1_S131072x7x64_02_1_n_n_1_1_131072164 x (colIdx lit0) (ix3 p l f)
      = x (ix3 p (Cert.Fano.src1 l) f) :=
  RowGather.gather_mid_apply_of_toInt gather_S131072x7x64_S7x1_S131072x7x64_02_1_n_n_1_1_131072164_wf x
    (colIdx lit0) p l f _ (colIdx_lit0 l)

/-- Entry `(p, l, f)` of the second gather is the state at line `l`'s second source colony. -/
theorem gather2_apply (x : FVec Ideal S131072x7x64 .f32) (p : Fin 131072) (l : Fin 7) (f : Fin 64) :
    Host.gather gather_S131072x7x64_S7x1_S131072x7x64_02_1_n_n_1_1_131072164 x (colIdx lit1) (ix3 p l f)
      = x (ix3 p (Cert.Fano.src2 l) f) :=
  RowGather.gather_mid_apply_of_toInt gather_S131072x7x64_S7x1_S131072x7x64_02_1_n_n_1_1_131072164_wf x
    (colIdx lit1) p l f _ (colIdx_lit1 l)

/-! ## Two arrays side by side on the feature axis -/

/-- On the first 64 of the 128 features the side-by-side array is its left piece. -/
theorem cat_left (A B : FVec Ideal S131072x7x64 .f32) (p : Fin 131072) (l : Fin 7) (f : Fin 64) :
    concatenate S131072x7x128 2 [⟨S131072x7x64, A⟩, ⟨S131072x7x64, B⟩]
        concatenates_S131072x7x64_S131072x7x64_S131072x7x128_d2 (ix3 p l (Fin.castAdd 64 f))
      = A (ix3 p l f) :=
  concatenate_pair_apply_left (2 : Fin 3) A B _ (ix3 p l (Fin.castAdd 64 f)) rfl (ix3 p l f)
    (fun b => by
      match b with
      | ⟨0, _⟩ => rfl
      | ⟨1, _⟩ => rfl
      | ⟨2, _⟩ => rfl)

/-- On the last 64 features it is its right piece, 64 features earlier. -/
theorem cat_right (A B : FVec Ideal S131072x7x64 .f32) (p : Fin 131072) (l : Fin 7) (f : Fin 64) :
    concatenate S131072x7x128 2 [⟨S131072x7x64, A⟩, ⟨S131072x7x64, B⟩]
        concatenates_S131072x7x64_S131072x7x64_S131072x7x128_d2 (ix3 p l (Fin.natAdd 64 f))
      = B (ix3 p l f) :=
  concatenate_pair_apply_right (2 : Fin 3) A B _ (ix3 p l (Fin.natAdd 64 f)) rfl rfl (ix3 p l f)
    (fun b hb => by
      match b with
      | ⟨0, _⟩ => rfl
      | ⟨1, _⟩ => rfl
      | ⟨2, _⟩ => exact absurd rfl hb)
    (by show f.val + 64 = 64 + f.val; omega)

/-! ## The contraction with the weight -/

/-- The left operand's row coordinate is the result's. -/
theorem dot_lhs0 (j : S131072x7x64.Idx) (k : dot_S131072x7x128_S64x128_S131072x7x64_2_1_01_0_n_n.contr.Idx) :
    (dot_S131072x7x128_S64x128_S131072x7x64_2_1_01_0_n_n.lhsIdx j k (0 : Fin 3)).val = (j 0).val := by
  simp [DotDims.lhsIdx, dot_S131072x7x128_S64x128_S131072x7x64_2_1_01_0_n_n]; rfl

/-- The left operand's line coordinate is the result's. -/
theorem dot_lhs1 (j : S131072x7x64.Idx) (k : dot_S131072x7x128_S64x128_S131072x7x64_2_1_01_0_n_n.contr.Idx) :
    (dot_S131072x7x128_S64x128_S131072x7x64_2_1_01_0_n_n.lhsIdx j k (1 : Fin 3)).val = (j 1).val := by
  simp [DotDims.lhsIdx, dot_S131072x7x128_S64x128_S131072x7x64_2_1_01_0_n_n]; rfl

/-- The left operand's feature coordinate is the contracted one. -/
theorem dot_lhs2 (j : S131072x7x64.Idx) (k : dot_S131072x7x128_S64x128_S131072x7x64_2_1_01_0_n_n.contr.Idx) :
    (dot_S131072x7x128_S64x128_S131072x7x64_2_1_01_0_n_n.lhsIdx j k (2 : Fin 3)).val = (k ⟨0, Nat.one_pos⟩).val :=
  DotDims.lhsIdx_val_of_single _ rfl j k

/-- The weight's row coordinate is the result's output feature. -/
theorem dot_rhs0 (j : S131072x7x64.Idx) (k : dot_S131072x7x128_S64x128_S131072x7x64_2_1_01_0_n_n.contr.Idx) :
    (dot_S131072x7x128_S64x128_S131072x7x64_2_1_01_0_n_n.rhsIdx j k (0 : Fin 2)).val = (j 2).val := by
  simp [DotDims.rhsIdx, dot_S131072x7x128_S64x128_S131072x7x64_2_1_01_0_n_n]; rfl

/-- The weight's column coordinate is the contracted one. -/
theorem dot_rhs1 (j : S131072x7x64.Idx) (k : dot_S131072x7x128_S64x128_S131072x7x64_2_1_01_0_n_n.contr.Idx) :
    (dot_S131072x7x128_S64x128_S131072x7x64_2_1_01_0_n_n.rhsIdx j k (1 : Fin 2)).val = (k ⟨0, Nat.one_pos⟩).val :=
  DotDims.rhsIdx_val_of_single _ rfl j k

/-- The contraction at `(p, l, z)`: the sum over the 128 laid-out features `q` of the left array at `(p, l, q)` times
    the weight at `(z, q)`. -/
theorem dot_apply (C : FVec Ideal S131072x7x128 .f32) (W : FVec Ideal S64x128 .f32) (p : Fin 131072) (l : Fin 7)
    (z : Fin 64) :
    Host.dotGeneral dot_S131072x7x128_S64x128_S131072x7x64_2_1_01_0_n_n none C W (ix3 p l z)
      = ∑ q : Fin 128, C (ix3 p l q) * W (ix2 z q) := by
  show FloatOps.dotGeneral dot_S131072x7x128_S64x128_S131072x7x64_2_1_01_0_n_n none .single C W (ix3 p l z) = _
  rw [Ideal.dotGeneral_apply,
    ← Equiv.sum_comp (contrEquiv1 dot_S131072x7x128_S64x128_S131072x7x64_2_1_01_0_n_n 128 rfl rfl).symm]
  refine Finset.sum_congr rfl (fun q _ => ?_)
  have hq := contrEquiv1_symm_val dot_S131072x7x128_S64x128_S131072x7x64_2_1_01_0_n_n 128 rfl rfl q
  congr 2
  · funext a
    refine Fin.ext ?_
    match a with
    | ⟨0, _⟩ => exact dot_lhs0 _ _
    | ⟨1, _⟩ => exact dot_lhs1 _ _
    | ⟨2, _⟩ => exact (dot_lhs2 _ _).trans hq
  · funext a
    refine Fin.ext ?_
    match a with
    | ⟨0, _⟩ => exact dot_rhs0 _ _
    | ⟨1, _⟩ => exact (dot_rhs1 _ _).trans hq

/-- The contraction of the two gathered source colonies, side by side, with the weight is the shared linear map of
    the line: the sum over 128 features splits into the first colony against the weight's first 64 columns and the
    second colony against its last 64. -/
theorem lin_apply (x : FVec Ideal S131072x7x64 .f32) (W : FVec Ideal S64x128 .f32) (p : Fin 131072) (l : Fin 7)
    (z : Fin 64) :
    Host.dotGeneral dot_S131072x7x128_S64x128_S131072x7x64_2_1_01_0_n_n none
        (concatenate S131072x7x128 2
          [⟨S131072x7x64, Host.gather gather_S131072x7x64_S7x1_S131072x7x64_02_1_n_n_1_1_131072164 x (colIdx lit0)⟩,
           ⟨S131072x7x64, Host.gather gather_S131072x7x64_S7x1_S131072x7x64_02_1_n_n_1_1_131072164 x (colIdx lit1)⟩]
          concatenates_S131072x7x64_S131072x7x64_S131072x7x128_d2)
        W (ix3 p l z)
      = Cert.Fano.lin x W p l z := by
  rw [dot_apply]
  unfold Cert.Fano.lin
  refine (Fin.sum_univ_add (a := 64) (b := 64) _).trans ?_
  congr 1
  · refine Finset.sum_congr rfl (fun f _ => ?_)
    rw [cat_left, gather1_apply]
  · refine Finset.sum_congr rfl (fun f _ => ?_)
    rw [cat_right, gather2_apply]

/-! ## The whole term -/

/-- The program's term with any gate weights `g` in place of the softmax, read at `(p, k, z)`. -/
theorem term_apply (x : FVec Ideal S131072x7x64 .f32) (W : FVec Ideal S64x128 .f32) (b : FVec Ideal S64 .f32)
    (g : FVec Ideal S7 .f32) (p : Fin 131072) (k : Fin 7) (z : Fin 64) :
    addf x
        (Host.scatterAdd scatter_S131072x7x64_S7x1_S131072x7x64_02_1_1_1
          (broadcastInDim S131072x7x64 ![] bcast_S_S131072x7x64 (constant S_ .f32 0x00000000#32))
          (colIdx lit2)
          (mulf
            (broadcastInDim S131072x7x64 ![0, 1, 2] bcast_S1x7x1_S131072x7x64_0_1_2
              (broadcastInDim S1x7x1 ![1] bcast_S7_S1x7x1_1 g))
            (addf
              (Host.dotGeneral dot_S131072x7x128_S64x128_S131072x7x64_2_1_01_0_n_n none
                (concatenate S131072x7x128 2
                  [⟨S131072x7x64, Host.gather gather_S131072x7x64_S7x1_S131072x7x64_02_1_n_n_1_1_131072164 x (colIdx lit0)⟩,
                   ⟨S131072x7x64, Host.gather gather_S131072x7x64_S7x1_S131072x7x64_02_1_n_n_1_1_131072164 x (colIdx lit1)⟩]
                  concatenates_S131072x7x64_S131072x7x64_S131072x7x128_d2)
                W)
              (broadcastInDim S131072x7x64 ![0, 1, 2] bcast_S1x1x64_S131072x7x64_0_1_2
                (broadcastInDim S1x1x64 ![2] bcast_S64_S1x1x64_2 b)))))
        (ix3 p k z)
      = Cert.Fano.outAt x W b g p k z := by
  rw [addf_apply]
  unfold Cert.Fano.outAt
  refine congrArg (x (ix3 p k z) + ·) ?_
  unfold Host.scatterAdd
  rw [Ideal.hostScatterAdd_def,
    ScatterRead.scatterAdd_rows_apply' scatter_S131072x7x64_S7x1_S131072x7x64_02_1_1_1 rfl rfl rfl rfl _ _ _
      Cert.Fano.dst colIdx_lit2 p k z,
    zero_apply, zero_add]
  refine Finset.sum_congr rfl (fun l _ => ?_)
  by_cases h : Cert.Fano.dst l = k
  · rw [if_pos h, if_pos h, mulf_apply, gate_apply, addf_apply, bias_apply, lin_apply]
  · rw [if_neg h, if_neg h]

/-- THE REFERENCE'S RESULT AT `(p, k, z)`: the layer's value there, at the softmax gate weights. -/
theorem refTerm_apply (x : FVec Ideal S131072x7x64 .f32) (W : FVec Ideal S64x128 .f32) (b : FVec Ideal S64 .f32)
    (a : FVec Ideal S7 .f32) (p : Fin 131072) (k : Fin 7) (z : Fin 64) :
    refTerm (F := Ideal) x W b a (ix3 p k z)
      = Cert.Fano.outAt x W b (Cert.Fano.gate (F := Ideal) reducesTo_S7_S_d0 h_S_ bcast_S_S1 bcast_S1_S7_0 a) p k z := by
  unfold refTerm
  exact term_apply x W b _ p k z

end Cert.ReferenceIdeal.RefValue

end
-- ==== Proof.KerHost.lean ====
/-
  What the kernel program's host operations leave, at the ideal instance, in the three arrays its one region reads.

  Before the region the program computes the gate weights `g` (the softmax of the seven gate parameters), transposes the
  weight `W : [64, 128]` and cuts the transpose into its two 64×64 halves, and then, starting from a zero 448×448 matrix
  and a zero 1×448 row, for each of the seven lines `l` in order adds

    * `g_l` times the first half into the matrix's block at rows `64·src1 l …`, columns `64·dst l …`,
    * `g_l` times the second half into the block at rows `64·src2 l …`, columns `64·dst l …`,
    * `g_l` times the bias into the row's segment at `64·dst l …`,

  each addition a scatter of one window at one start index. The matrix is then recast to a narrower float format, which
  at the ideal instance changes nothing, and the state `[131072, 7, 64]` is recast to `[131072, 448]`.

  Read at an index, the three results are: the state at `(p, r / 64, r % 64)`; the folded matrix `weff` of the
  specification over the weight and the gate weights; and its folded vector `beff` over the bias and the gate weights.
  The file first names the pieces (index vectors, scaled blocks, one line's step) and reads each at an index, then
  states each array as the nested steps, and then unfolds the steps into the specification's.
-/
import proofs.«400105_j43224550867196_3_alg».proof.Proof.KerArrs
import proofs.«400105_j43224550867196_3_alg».proof.Proof.Spec
import proofs.«400105_j43224550867196_3_alg».proof.Proof.LibScatter
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KerValue

open Cert.KernelIdeal Cert.KernelIdeal.Gen Cert.KernelIdeal.Facts₀ Idealize.ShloMosaic Idealize.ShloMosaic.ValueIdx Idealize.ShloMosaic.TcCoe Idealize.SL.Sem

variable (m : (ℓ : Loc nD τ sig) → Buf (Elt Ideal) ℓ)

/-! ## The arguments, at their literal types -/

/-- The state as launched. -/
abbrev Xin (c : Dev nD) : S131072x7x64.Idx → EReal := m ((c.tc : Thread nD τ).loc main_arg0)
/-- The weight as launched. -/
abbrev Win (c : Dev nD) : S64x128.Idx → EReal := m ((c.tc : Thread nD τ).loc main_arg1)
/-- The bias as launched. -/
abbrev Bin (c : Dev nD) : S64.Idx → EReal := m ((c.tc : Thread nD τ).loc main_arg2)
/-- The gate parameters as launched. -/
abbrev Gin (c : Dev nD) : S7.Idx → EReal := m ((c.tc : Thread nD τ).loc main_arg3)
/-- The gate weights: the softmax of the gate parameters. -/
abbrev gateOf (c : Dev nD) : S7.Idx → EReal :=
  Cert.Fano.gate (F := Ideal) Gen.reducesTo_S7_S_d0 Gen.h_S_ Gen.bcast_S_S1 Gen.bcast_S1_S7_0 (Gin m c)

/-! ## The pieces the host operations are made of -/

/-- Two one-entry integer arrays put end to end. -/
def cat2 (a b : IVec S1 32) : IVec S2 32 := concatenate S2 0 [⟨S1, a⟩, ⟨S1, b⟩] Gen.concatenates_S1_S1_S2_d0

/-- The list form of that concatenation is `cat2` of its two pieces. -/
theorem cat2_fold (a b : IVec S1 32) :
    concatenate S2 0 [⟨S1, a⟩, ⟨S1, b⟩] Gen.concatenates_S1_S1_S2_d0 = cat2 a b := rfl

/-- The two-entry index vector `(r0, c0)`: two one-entry constants put end to end. -/
def idx2 (r0 c0 : BitVec 32) : IVec S2 32 :=
  cat2 (broadcastInDim S1 ![] Gen.bcast_S_S1 (constantI S_ 32 r0)) (broadcastInDim S1 ![] Gen.bcast_S_S1 (constantI S_ 32 c0))

/-- Its first entry is `r0`: position `0` falls in the first piece. -/
theorem idx2_zero (r0 c0 : BitVec 32) : idx2 r0 c0 (ix1 (0 : Fin 2)) = r0 := by
  unfold idx2 cat2
  refine (concatenate_pair_apply_left (t := S2) (s₁ := S1) (s₂ := S1) (0 : Fin 1) _ _ _ (ix1 (0 : Fin 2)) rfl
    (ix1 (0 : Fin 1)) ?_).trans rfl
  intro b
  match b with
  | ⟨0, _⟩ => rfl

/-- Its second entry is `c0`: position `1` falls in the second piece, at its position `0`. -/
theorem idx2_one (r0 c0 : BitVec 32) : idx2 r0 c0 (ix1 (1 : Fin 2)) = c0 := by
  unfold idx2 cat2
  refine (concatenate_pair_apply_right (t := S2) (s₁ := S1) (s₂ := S1) (0 : Fin 1) _ _ _ (ix1 (1 : Fin 2)) rfl rfl
    (ix1 (0 : Fin 1)) ?_ ?_).trans rfl
  · intro b hb
    match b with
    | ⟨0, _⟩ => exact absurd rfl hb
  · rfl

/-- A rank-2 array as a function of its row and its column. -/
def mat {R C : ℕ} (A : (⟨2, ![R, C]⟩ : Shape).Idx → EReal) : Fin R → Fin C → EReal := fun i j => A (ix2 i j)
/-- A one-row rank-2 array as a function of its column. -/
def row {C : ℕ} (v : (⟨2, ![1, C]⟩ : Shape).Idx → EReal) : Fin C → EReal := fun j => v (ix2 (0 : Fin 1) j)
/-- A rank-1 array as a function of its position. -/
def vec {C : ℕ} (v : (⟨1, ![C]⟩ : Shape).Idx → EReal) : Fin C → EReal := fun j => v (ix1 j)

/-- A 64×64 block scattered into the 448×448 matrix at `(r0, c0)` with addition: the block added in at that corner. -/
theorem mat_scatterW (A : S448x448.Idx → EReal) (U : S64x64.Idx → EReal) (r0 c0 : BitVec 32) (r0n c0n : ℕ)
    (h0 : r0.toInt = (r0n : ℤ)) (h1 : c0.toInt = (c0n : ℤ)) (hr : r0n + 64 ≤ 448) (hc : c0n + 64 ≤ 448) :
    mat (Host.scatter scatter_S448x448_S2_S64x64_01_n_01_0 (FloatOps.addf (F := Ideal) (φ := .f32)) A (idx2 r0 c0) U)
      = Cert.Fano.addBlock (mat A) r0n c0n (mat U) := by
  funext i j
  exact Idealize.ShloMosaic.ScatterRead.scatter_block_apply' scatter_S448x448_S2_S64x64_01_n_01_0 rfl rfl rfl rfl
    (FloatOps.addf (F := Ideal) (φ := .f32)) A (idx2 r0 c0) U r0n c0n ((congrArg BitVec.toInt (idx2_zero r0 c0)).trans h0)
    ((congrArg BitVec.toInt (idx2_one r0 c0)).trans h1) hr hc i j

/-- A 64-entry segment scattered into the 1×448 row at `(0, c0)` with addition: the segment added in from that
    position. -/
theorem row_scatterB (v : S1x448.Idx → EReal) (u : S64.Idx → EReal) (c0 : BitVec 32) (c0n : ℕ)
    (h1 : c0.toInt = (c0n : ℤ)) (hc : c0n + 64 ≤ 448) :
    row (Host.scatter scatter_S1x448_S2_S64_0_0_01_0 (FloatOps.addf (F := Ideal) (φ := .f32)) v (idx2 0#32 c0) u)
      = Cert.Fano.addSeg (row v) c0n (vec u) := by
  funext j
  exact Idealize.ShloMosaic.ScatterRead.scatter_segment_apply' scatter_S1x448_S2_S64_0_0_01_0 rfl rfl rfl rfl
    (FloatOps.addf (F := Ideal) (φ := .f32)) v (idx2 0#32 c0) u c0n ((congrArg BitVec.toInt (idx2_zero 0#32 c0)).trans rfl)
    ((congrArg BitVec.toInt (idx2_one 0#32 c0)).trans h1) hc j

/-- Entry `l` of the gate vector cut out and recast as a scalar array. -/
def gsc (g : S7.Idx → EReal) (l : ℕ) (hl : S7.Slices ![l] S1) : S_.Idx → EReal :=
  fun i => shapeCast S_ (extractStridedSlice S1 ![l] g hl) Gen.shapeCasts_S1_S_ i

/-- Its one entry is the gate vector's entry `l`. -/
theorem gsc_apply (g : S7.Idx → EReal) (l : Fin 7) (hl : S7.Slices ![l.val] S1) (i : S_.Idx) :
    gsc g l.val hl i = g (ix1 l) := by
  unfold gsc
  refine (shapeCast_apply _ Gen.shapeCasts_S1_S_ i (ix1 (0 : Fin 1)) ?_).trans ?_
  · have h1 := (S1.rowMajor (ix1 (0 : Fin 1))).isLt
    have h2 := (S_.rowMajor i).isLt
    have e1 : S1.numel = 1 := by decide
    have e2 : S_.numel = 1 := by decide
    omega
  · refine extractStridedSlice_apply _ g hl (ix1 (0 : Fin 1)) (ix1 l) ?_
    intro a
    match a with
    | ⟨0, _⟩ => rfl

/-- The weight transposed, and its two halves: rows `0 … 63` and rows `64 … 127` of the transpose. -/
def Wt (W : S64x128.Idx → EReal) : S128x64.Idx → EReal := transpose S128x64 [1, 0] W Gen.transposes_S64x128_S128x64_1_0
def Wt1 (W : S64x128.Idx → EReal) : S64x64.Idx → EReal :=
  extractStridedSlice S64x64 ![0, 0] (Wt W) Gen.slices_S128x64_S64x64_0_0
def Wt2 (W : S64x128.Idx → EReal) : S64x64.Idx → EReal :=
  extractStridedSlice S64x64 ![64, 0] (Wt W) Gen.slices_S128x64_S64x64_64_0

/-- The first half at `(f, z)` is the weight at `(z, f)`. -/
theorem Wt1_apply (W : S64x128.Idx → EReal) (f z : Fin 64) : Wt1 W (ix2 f z) = W (ix2 z (Fin.castAdd 64 f)) := by
  unfold Wt1 Wt
  refine (slice2_axis0_apply 0 _ Gen.slices_S128x64_S64x64_0_0 f z (Fin.castAdd 64 f) ?_).trans ?_
  · show f.val = 0 + f.val
    omega
  · exact transpose_ix2_apply W Gen.transposes_S64x128_S128x64_1_0 (Fin.castAdd 64 f) z

/-- The second half at `(f, z)` is the weight at `(z, 64 + f)`. -/
theorem Wt2_apply (W : S64x128.Idx → EReal) (f z : Fin 64) : Wt2 W (ix2 f z) = W (ix2 z (Fin.natAdd 64 f)) := by
  unfold Wt2 Wt
  refine (slice2_axis0_apply 64 _ Gen.slices_S128x64_S64x64_64_0 f z (Fin.natAdd 64 f) ?_).trans ?_
  · show 64 + f.val = 64 + f.val
    rfl
  · exact transpose_ix2_apply W Gen.transposes_S64x128_S128x64_1_0 (Fin.natAdd 64 f) z

/-- A block scaled by gate entry `l`. -/
def updW (g : S7.Idx → EReal) (U : S64x64.Idx → EReal) (l : ℕ) (hl : S7.Slices ![l] S1) : S64x64.Idx → EReal :=
  mulf (F := Ideal) (φ := .f32) (broadcastInDim S64x64 ![] Gen.bcast_S_S64x64 (gsc g l hl)) U
/-- A segment scaled by gate entry `l`. -/
def updB (g : S7.Idx → EReal) (u : S64.Idx → EReal) (l : ℕ) (hl : S7.Slices ![l] S1) : S64.Idx → EReal :=
  mulf (F := Ideal) (φ := .f32) (broadcastInDim S64 ![] Gen.bcast_S_S64 (gsc g l hl)) u

/-- At an index: the gate's entry `l` times the block's entry. -/
theorem updW_apply (g : S7.Idx → EReal) (U : S64x64.Idx → EReal) (l : Fin 7) (hl : S7.Slices ![l.val] S1) (j : S64x64.Idx) :
    updW g U l.val hl j = g (ix1 l) * U j := by
  unfold updW
  rw [mulf_apply, broadcastInDim_apply _ _ (gsc g l.val hl) j ix0 (fun a => a.elim0), gsc_apply]

/-- At an index: the gate's entry `l` times the segment's entry. -/
theorem updB_apply (g : S7.Idx → EReal) (u : S64.Idx → EReal) (l : Fin 7) (hl : S7.Slices ![l.val] S1) (j : S64.Idx) :
    updB g u l.val hl j = g (ix1 l) * u j := by
  unfold updB
  rw [mulf_apply, broadcastInDim_apply _ _ (gsc g l.val hl) j ix0 (fun a => a.elim0), gsc_apply]

/-- One line's two block additions as the program does them: the first half of the transposed weight scaled by the
    line's gate at `(r1, c0)`, then the second half at `(r2, c0)`. -/
def stepW (g : S7.Idx → EReal) (W : S64x128.Idx → EReal) (A : S448x448.Idx → EReal) (l : ℕ) (hl : S7.Slices ![l] S1)
    (r1 r2 c0 : BitVec 32) : S448x448.Idx → EReal :=
  Host.scatter scatter_S448x448_S2_S64x64_01_n_01_0 (FloatOps.addf (F := Ideal) (φ := .f32))
    (Host.scatter scatter_S448x448_S2_S64x64_01_n_01_0 (FloatOps.addf (F := Ideal) (φ := .f32)) A (idx2 r1 c0)
      (updW g (Wt1 W) l hl))
    (idx2 r2 c0) (updW g (Wt2 W) l hl)

/-- One line's segment addition as the program does it: the bias scaled by the line's gate at `(0, c0)`. -/
def stepB (g : S7.Idx → EReal) (b : S64.Idx → EReal) (v : S1x448.Idx → EReal) (l : ℕ) (hl : S7.Slices ![l] S1)
    (c0 : BitVec 32) : S1x448.Idx → EReal :=
  Host.scatter scatter_S1x448_S2_S64_0_0_01_0 (FloatOps.addf (F := Ideal) (φ := .f32)) v (idx2 0#32 c0) (updB g b l hl)

/-- The program's step for line `l` on the matrix is the specification's, once the three offsets are the line's. -/
theorem mat_stepW (g : S7.Idx → EReal) (W : S64x128.Idx → EReal) (A : S448x448.Idx → EReal) (l : Fin 7)
    (hl : S7.Slices ![l.val] S1) (r1 r2 c0 : BitVec 32)
    (h1 : r1.toInt = ((64 * (Cert.Fano.src1 l).val : ℕ) : ℤ)) (h2 : r2.toInt = ((64 * (Cert.Fano.src2 l).val : ℕ) : ℤ))
    (h0 : c0.toInt = ((64 * (Cert.Fano.dst l).val : ℕ) : ℤ)) :
    mat (stepW g W A l.val hl r1 r2 c0)
      = Cert.Fano.lineStep (fun z f => W (ix2 z f)) (fun k => g (ix1 k)) (mat A) l := by
  have b1 := (Cert.Fano.src1 l).isLt
  have b2 := (Cert.Fano.src2 l).isLt
  have b0 := (Cert.Fano.dst l).isLt
  unfold stepW
  rw [mat_scatterW _ _ r2 c0 _ _ h2 h0 (by omega) (by omega), mat_scatterW _ _ r1 c0 _ _ h1 h0 (by omega) (by omega)]
  unfold Cert.Fano.lineStep
  congr 1
  · congr 1
    funext f z
    exact (updW_apply g (Wt1 W) l hl (ix2 f z)).trans (congrArg _ (Wt1_apply W f z))
  · funext f z
    exact (updW_apply g (Wt2 W) l hl (ix2 f z)).trans (congrArg _ (Wt2_apply W f z))

/-- The program's step for line `l` on the row is the specification's, once the offset is the line's. -/
theorem row_stepB (g : S7.Idx → EReal) (b : S64.Idx → EReal) (v : S1x448.Idx → EReal) (l : Fin 7)
    (hl : S7.Slices ![l.val] S1) (c0 : BitVec 32) (h0 : c0.toInt = ((64 * (Cert.Fano.dst l).val : ℕ) : ℤ)) :
    row (stepB g b v l.val hl c0) = Cert.Fano.segStep (fun z => b (ix1 z)) (fun k => g (ix1 k)) (row v) l := by
  have b0 := (Cert.Fano.dst l).isLt
  unfold stepB
  rw [row_scatterB _ _ c0 _ h0 (by omega)]
  unfold Cert.Fano.segStep
  congr 1
  funext z
  exact updB_apply g b l hl (ix1 z)

/-- The same two with the line given by its number. -/
theorem mat_stepW_nat (g : S7.Idx → EReal) (W : S64x128.Idx → EReal) (A : S448x448.Idx → EReal) (l : ℕ) (hlt : l < 7)
    (hl : S7.Slices ![l] S1) (r1 r2 c0 : BitVec 32)
    (h1 : r1.toInt = ((64 * (Cert.Fano.src1 ⟨l, hlt⟩).val : ℕ) : ℤ))
    (h2 : r2.toInt = ((64 * (Cert.Fano.src2 ⟨l, hlt⟩).val : ℕ) : ℤ))
    (h0 : c0.toInt = ((64 * (Cert.Fano.dst ⟨l, hlt⟩).val : ℕ) : ℤ)) :
    mat (stepW g W A l hl r1 r2 c0)
      = Cert.Fano.lineStep (fun z f => W (ix2 z f)) (fun k => g (ix1 k)) (mat A) ⟨l, hlt⟩ :=
  mat_stepW g W A ⟨l, hlt⟩ hl r1 r2 c0 h1 h2 h0

theorem row_stepB_nat (g : S7.Idx → EReal) (b : S64.Idx → EReal) (v : S1x448.Idx → EReal) (l : ℕ) (hlt : l < 7)
    (hl : S7.Slices ![l] S1) (c0 : BitVec 32) (h0 : c0.toInt = ((64 * (Cert.Fano.dst ⟨l, hlt⟩).val : ℕ) : ℤ)) :
    row (stepB g b v l hl c0)
      = Cert.Fano.segStep (fun z => b (ix1 z)) (fun k => g (ix1 k)) (row v) ⟨l, hlt⟩ :=
  row_stepB g b v ⟨l, hlt⟩ hl c0 h0

/-- The all-zero row and the all-zero matrix the additions start from. -/
def zeroRow : S1x448.Idx → EReal := broadcastInDim S1x448 ![] Gen.bcast_S_S1x448 (constant (F := Ideal) S_ .f32 0#32)
def zeroMat : S448x448.Idx → EReal := broadcastInDim S448x448 ![] Gen.bcast_S_S448x448 (constant (F := Ideal) S_ .f32 0#32)

/-- Every entry of the zero row is the number `0`. -/
theorem row_zeroRow : row zeroRow = fun _ => 0 := by
  funext j
  unfold row zeroRow
  rw [broadcastInDim_apply _ _ _ _ ix0 (fun a => a.elim0), constant_apply, Ideal.ofBits_zero_f32]

/-- Every entry of the zero matrix is the number `0`. -/
theorem mat_zeroMat : mat zeroMat = fun _ _ => 0 := by
  funext i j
  unfold mat zeroMat
  rw [broadcastInDim_apply _ _ _ _ ix0 (fun a => a.elim0), constant_apply, Ideal.ofBits_zero_f32]

/-! ## The flattened state -/

/-- The array the region finds is the state recast from `[131072, 7, 64]` to `[131072, 448]`. -/
theorem Xarr_term (c : Dev nD) :
    Xarr m c = shapeCast S131072x448 (Xin m c) Gen.shapeCasts_S131072x7x64_S131072x448 := by
  show StableHlo.after hostOps0 (fun b => m (c, b)) (Proc.devRef .tc main_v156) = _
  after_results_simp
  rfl

/-- Position `448·p + r` of the flat order is position `(7·p + r / 64)·64 + r % 64`: row `p`, colony `r / 64`,
    feature `r % 64`. -/
theorem Xarr_apply (c : Dev nD) (p : Fin 131072) (r : Fin 448) :
    Xarr m c (ix2 p r) = Xin m c (ix3 p (Cert.Fano.colony r) (Cert.Fano.lane r)) := by
  rw [Xarr_term]
  refine shapeCast_apply _ _ _ _ ?_
  rw [Shape.rowMajor_val_three, Shape.rowMajor_val_two]
  show (p.val * 7 + r.val / 64) * 64 + r.val % 64 = p.val * 448 + r.val
  omega

/-! ## The bias row -/

set_option maxHeartbeats 40000000 in
/-- The row the region finds is the seven segment additions into the zero row, in the lines' order. -/
theorem Barr_term (c : Dev nD) :
    Barr m c = stepB (gateOf m c) (Bin m c) (stepB (gateOf m c) (Bin m c) (stepB (gateOf m c) (Bin m c) (stepB (gateOf m c) (Bin m c) (stepB (gateOf m c) (Bin m c) (stepB (gateOf m c) (Bin m c) (stepB (gateOf m c) (Bin m c) (zeroRow) 0 Gen.slices_S7_S1_0 128#32) 1 Gen.slices_S7_S1_1 256#32) 2 Gen.slices_S7_S1_2 384#32) 3 Gen.slices_S7_S1_3 320#32) 4 Gen.slices_S7_S1_4 384#32) 5 Gen.slices_S7_S1_5 384#32) 6 Gen.slices_S7_S1_6 320#32 := by
  show StableHlo.after hostOps0 (fun b => m (c, b)) (Proc.devRef .tc main_v154) = _
  simp (disch := decide) only [StableHlo.after_cons, StableHlo.after_nil, StableHlo.nullary_result',
    StableHlo.unary_result', StableHlo.binary_result', StableHlo.ternary_result', StableHlo.reshape_result',
    StableHlo.nullary_result_ne', StableHlo.unary_result_ne', StableHlo.binary_result_ne', StableHlo.ternary_result_ne',
    StableHlo.reshape_result_ne', cat2_fold]
  rfl

/-- THE BIAS ROW AT `(0, q)`: the specification's folded vector over the bias and the gate weights — each of the seven
    nested steps is the specification's segment step for its line, and the zero row is the zero vector. -/
theorem Barr_apply (c : Dev nD) (q : Fin 448) :
    Barr m c (ix2 (0 : Fin 1) q)
      = Cert.Fano.beff (fun z => Bin m c (ix1 z)) (fun l => gateOf m c (ix1 l)) q := by
  show row (Barr m c) q = _
  rw [Barr_term]
  generalize gateOf m c = g
  generalize Bin m c = b
  rw [row_stepB_nat g b _ 6 (by decide) _ _ (by decide), row_stepB_nat g b _ 5 (by decide) _ _ (by decide),
    row_stepB_nat g b _ 4 (by decide) _ _ (by decide), row_stepB_nat g b _ 3 (by decide) _ _ (by decide),
    row_stepB_nat g b _ 2 (by decide) _ _ (by decide), row_stepB_nat g b _ 1 (by decide) _ _ (by decide),
    row_stepB_nat g b _ 0 (by decide) _ _ (by decide), row_zeroRow]
  rfl

/-! ## The folded matrix -/

set_option maxHeartbeats 40000000 in
/-- The matrix the region finds is the seven lines' block additions into the zero matrix, in the lines' order, every
    entry then recast (which changes no entry here). -/
theorem Warr_term (c : Dev nD) :
    Warr m c = truncf (F := Ideal) (φ := .f32) .bf16
      (stepW (gateOf m c) (Win m c) (stepW (gateOf m c) (Win m c) (stepW (gateOf m c) (Win m c) (stepW (gateOf m c) (Win m c) (stepW (gateOf m c) (Win m c) (stepW (gateOf m c) (Win m c) (stepW (gateOf m c) (Win m c) (zeroMat) 0 Gen.slices_S7_S1_0 0#32 64#32 128#32) 1 Gen.slices_S7_S1_1 0#32 192#32 256#32) 2 Gen.slices_S7_S1_2 0#32 320#32 384#32) 3 Gen.slices_S7_S1_3 64#32 192#32 320#32) 4 Gen.slices_S7_S1_4 256#32 64#32 384#32) 5 Gen.slices_S7_S1_5 192#32 128#32 384#32) 6 Gen.slices_S7_S1_6 256#32 128#32 320#32)
      Gen.bitsLt_bf16_f32 := by
  show StableHlo.after hostOps0 (fun b => m (c, b)) (Proc.devRef .tc main_v155) = _
  simp (disch := decide) only [StableHlo.after_cons, StableHlo.after_nil, StableHlo.nullary_result',
    StableHlo.unary_result', StableHlo.binary_result', StableHlo.ternary_result', StableHlo.reshape_result',
    StableHlo.nullary_result_ne', StableHlo.unary_result_ne', StableHlo.binary_result_ne', StableHlo.ternary_result_ne',
    StableHlo.reshape_result_ne', cat2_fold]
  rfl

/-- At the ideal instance a change of float format changes no entry. -/
theorem mat_truncf (X : S448x448.Idx → EReal) (h : FTy.bits .bf16 < FTy.bits .f32) :
    mat (truncf (F := Ideal) (φ := .f32) .bf16 X h) = mat X := rfl

/-- THE MATRIX AT `(r, q)`: the specification's folded matrix over the weight and the gate weights — each of the seven
    nested steps is the specification's line step for its line, and the zero matrix is the zero function. -/
theorem Warr_apply (c : Dev nD) (r q : Fin 448) :
    Warr m c (ix2 r q)
      = Cert.Fano.weff (fun z f => Win m c (ix2 z f)) (fun l => gateOf m c (ix1 l)) r q := by
  show mat (Warr m c) r q = _
  rw [Warr_term, mat_truncf]
  generalize gateOf m c = g
  generalize Win m c = W
  rw [mat_stepW_nat g W _ 6 (by decide) _ _ _ _ (by decide) (by decide) (by decide),
    mat_stepW_nat g W _ 5 (by decide) _ _ _ _ (by decide) (by decide) (by decide),
    mat_stepW_nat g W _ 4 (by decide) _ _ _ _ (by decide) (by decide) (by decide),
    mat_stepW_nat g W _ 3 (by decide) _ _ _ _ (by decide) (by decide) (by decide),
    mat_stepW_nat g W _ 2 (by decide) _ _ _ _ (by decide) (by decide) (by decide),
    mat_stepW_nat g W _ 1 (by decide) _ _ _ _ (by decide) (by decide) (by decide),
    mat_stepW_nat g W _ 0 (by decide) _ _ _ _ (by decide) (by decide) (by decide), mat_zeroMat]
  rfl

end Cert.KernelIdeal.KerValue

end
-- ==== Proof.Bridge.lean ====
/-
  The folded form of the Fano layer equals its line-by-line form when every entry is a real number.

  Over the reals a product distributes over a sum, so the single 448-term sum against the folded matrix splits into one
  64-term sum per block that was added in; the blocks of the lines whose target is colony k are the only ones that meet
  column 64k+z. The extended reals enter only through the coercion of real numbers, which respects +, · and 0.
-/
import Mathlib.Data.EReal.Basic
import Mathlib.Algebra.BigOperators.Fin
import Mathlib.Algebra.BigOperators.Ring.Finset
import Mathlib.Tactic.Ring
import proofs.«400105_j43224550867196_3_alg».proof.Proof.Spec

noncomputable section

namespace Cert.Fano

open Idealize.ShloMosaic Idealize.ShloMosaic.ValueIdx

/-! ## A map that respects +, · and 0 commutes with the folding -/

section Hom
variable {α β : Type} [Add α] [Mul α] [Zero α] [Add β] [Mul β] [Zero β]
  (φ : α → β) (hadd : ∀ a b, φ (a + b) = φ a + φ b) (hmul : ∀ a b, φ (a * b) = φ a * φ b) (hzero : φ 0 = 0)

include hadd in
theorem addBlock_map (A : Fin 448 → Fin 448 → α) (r0 c0 : ℕ) (U : Fin 64 → Fin 64 → α) :
    addBlock (fun i j => φ (A i j)) r0 c0 (fun f z => φ (U f z)) = fun i j => φ (addBlock A r0 c0 U i j) := by
  funext i j
  unfold addBlock
  split_ifs
  · exact (hadd _ _).symm
  · rfl

include hadd in
theorem addSeg_map (v : Fin 448 → α) (c0 : ℕ) (u : Fin 64 → α) :
    addSeg (fun j => φ (v j)) c0 (fun z => φ (u z)) = fun j => φ (addSeg v c0 u j) := by
  funext j
  unfold addSeg
  split_ifs
  · exact (hadd _ _).symm
  · rfl

include hadd hmul in
theorem lineStep_map (W : Fin 64 → Fin 128 → α) (g : Fin 7 → α) (A : Fin 448 → Fin 448 → α) (l : Fin 7) :
    lineStep (fun z q => φ (W z q)) (fun l => φ (g l)) (fun i j => φ (A i j)) l
      = fun i j => φ (lineStep W g A l i j) := by
  unfold lineStep
  simp only [← hmul]
  rw [addBlock_map φ hadd, addBlock_map φ hadd]

include hadd hmul in
theorem segStep_map (b : Fin 64 → α) (g : Fin 7 → α) (v : Fin 448 → α) (l : Fin 7) :
    segStep (fun z => φ (b z)) (fun l => φ (g l)) (fun j => φ (v j)) l = fun j => φ (segStep b g v l j) := by
  unfold segStep
  simp only [← hmul]
  rw [addSeg_map φ hadd]

include hadd hmul hzero in
theorem weff_map (W : Fin 64 → Fin 128 → α) (g : Fin 7 → α) :
    weff (fun z q => φ (W z q)) (fun l => φ (g l)) = fun i j => φ (weff W g i j) := by
  unfold weff
  rw [show (fun (_ _ : Fin 448) => (0 : β)) = fun i j => φ ((fun (_ _ : Fin 448) => (0 : α)) i j) from by
    funext _ _; exact hzero.symm]
  simp only [lineStep_map φ hadd hmul]

include hadd hmul hzero in
theorem beff_map (b : Fin 64 → α) (g : Fin 7 → α) :
    beff (fun z => φ (b z)) (fun l => φ (g l)) = fun j => φ (beff b g j) := by
  unfold beff
  rw [show (fun (_ : Fin 448) => (0 : β)) = fun j => φ ((fun (_ : Fin 448) => (0 : α)) j) from by
    funext _; exact hzero.symm]
  simp only [segStep_map φ hadd hmul]

end Hom

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a real chosen by a condition is the coercion chosen by the same condition. -/
theorem coe_ite (c : Prop) [Decidable c] (a b : ℝ) :
    ((if c then a else b : ℝ) : EReal) = if c then (a : EReal) else (b : EReal) := by
  split_ifs <;> rfl

/-! ## Sums against a matrix with one block added in (real entries) -/

/-- A sum over the 448 positions of a function that vanishes outside the window r0 … r0+63 is the sum over the
    window. -/
theorem sum_window (r0 : ℕ) (hr : r0 + 64 ≤ 448) (F : Fin 448 → ℝ) (G : Fin 64 → ℝ)
    (hFG : ∀ f : Fin 64, G f = F ⟨r0 + f.val, by omega⟩)
    (hF0 : ∀ r : Fin 448, ¬ (r0 ≤ r.val ∧ r.val < r0 + 64) → F r = 0) :
    ∑ r, F r = ∑ f, G f := by
  symm
  refine Fintype.sum_of_injective (fun f : Fin 64 => (⟨r0 + f.val, by omega⟩ : Fin 448)) ?_ G F ?_ hFG
  · intro a b h
    have h' : r0 + a.val = r0 + b.val := congrArg Fin.val h
    exact Fin.ext (by omega)
  · intro r hr'
    refine hF0 r (fun h => hr' ?_)
    exact ⟨⟨r.val - r0, by omega⟩, Fin.ext (by simp only []; omega)⟩

/-- The column meets the block's columns: the block contributes its own 64-term sum. -/
theorem sum_addBlock_hit (X : Fin 448 → ℝ) (A : Fin 448 → Fin 448 → ℝ) (r0 c0 : ℕ) (hr : r0 + 64 ≤ 448)
    (U : Fin 64 → Fin 64 → ℝ) (c : Fin 448) (cc : Fin 64) (hc : c.val = c0 + cc.val) :
    ∑ r, X r * addBlock A r0 c0 U r c
      = (∑ r, X r * A r c) + ∑ f : Fin 64, X ⟨r0 + f.val, by omega⟩ * U f cc := by
  have hcc : ∀ h : c.val - c0 < 64, (⟨c.val - c0, h⟩ : Fin 64) = cc := fun h => Fin.ext (by simp only []; omega)
  have hsplit : ∀ r : Fin 448, X r * addBlock A r0 c0 U r c
      = X r * A r c + (if h' : r0 ≤ r.val ∧ r.val < r0 + 64 then X r * U ⟨r.val - r0, by omega⟩ cc else 0) := by
    intro r
    unfold addBlock
    by_cases h' : r0 ≤ r.val ∧ r.val < r0 + 64
    · rw [dif_pos ⟨h'.1, h'.2, by omega, by omega⟩, dif_pos h', mul_add, hcc]
    · rw [dif_neg (fun hh => h' ⟨hh.1, hh.2.1⟩), dif_neg h', add_zero]
  simp only [hsplit]
  rw [Finset.sum_add_distrib]
  congr 1
  refine sum_window r0 hr _ _ ?_ ?_
  · intro f
    rw [dif_pos ⟨by simp only []; omega, by simp only []; omega⟩]
    simp only [Nat.add_sub_cancel_left, Fin.eta]
  · intro r hr'
    exact dif_neg hr'

/-- The column misses the block's columns: the block contributes nothing. -/
theorem sum_addBlock_miss (X : Fin 448 → ℝ) (A : Fin 448 → Fin 448 → ℝ) (r0 c0 : ℕ)
    (U : Fin 64 → Fin 64 → ℝ) (c : Fin 448) (hc : ¬ (c0 ≤ c.val ∧ c.val < c0 + 64)) :
    ∑ r, X r * addBlock A r0 c0 U r c = ∑ r, X r * A r c := by
  refine Finset.sum_congr rfl (fun r _ => ?_)
  unfold addBlock
  rw [dif_neg (fun hh => hc ⟨hh.2.2.1, hh.2.2.2⟩)]

/-- The position lies in the segment: the segment's entry is added. -/
theorem addSeg_hit (v : Fin 448 → ℝ) (c0 : ℕ) (u : Fin 64 → ℝ) (c : Fin 448) (cc : Fin 64)
    (hc : c.val = c0 + cc.val) : addSeg v c0 u c = v c + u cc := by
  have hcc : ∀ h : c.val - c0 < 64, (⟨c.val - c0, h⟩ : Fin 64) = cc := fun h => Fin.ext (by simp only []; omega)
  unfold addSeg
  rw [dif_pos ⟨by omega, by omega⟩, hcc]

/-- The position lies outside the segment: nothing is added. -/
theorem addSeg_miss (v : Fin 448 → ℝ) (c0 : ℕ) (u : Fin 64 → ℝ) (c : Fin 448)
    (hc : ¬ (c0 ≤ c.val ∧ c.val < c0 + 64)) : addSeg v c0 u c = v c := by
  unfold addSeg
  rw [dif_neg hc]

/-! ## One line's contribution at column 64k+z -/

theorem col_val (k : Fin 7) (z : Fin 64) : (col k z).val = 64 * k.val + z.val := rfl

/-- Column 64k+z lies in the column range of colony d exactly when d = k. -/
theorem col_miss {d k : Fin 7} (z : Fin 64) (h : ¬ d = k) :
    ¬ (64 * d.val ≤ (col k z).val ∧ (col k z).val < 64 * d.val + 64) := by
  have h' : d.val ≠ k.val := fun e => h (Fin.ext e)
  rw [col_val]
  omega

/-- One line's two blocks add, at column 64k+z, the gated two-part message of that line when its target is k, and
    nothing otherwise. -/
theorem sum_lineStep (X : Fin 448 → ℝ) (W : Fin 64 → Fin 128 → ℝ) (g : Fin 7 → ℝ) (A : Fin 448 → Fin 448 → ℝ)
    (l k : Fin 7) (z : Fin 64) :
    ∑ r, X r * lineStep W g A l r (col k z)
      = (∑ r, X r * A r (col k z))
        + (if dst l = k then
            g l * ((∑ f : Fin 64, X ⟨64 * (src1 l).val + f.val, by omega⟩ * W z (Fin.castAdd 64 f))
                  + ∑ f : Fin 64, X ⟨64 * (src2 l).val + f.val, by omega⟩ * W z (Fin.natAdd 64 f))
          else 0) := by
  unfold lineStep
  by_cases hk : dst l = k
  · rw [if_pos hk,
      sum_addBlock_hit X _ _ _ (by omega) _ _ z (by rw [col_val, hk]),
      sum_addBlock_hit X _ _ _ (by omega) _ _ z (by rw [col_val, hk]),
      add_assoc, mul_add, Finset.mul_sum, Finset.mul_sum]
    congr 2 <;> refine Finset.sum_congr rfl (fun f _ => ?_) <;> ring
  · rw [if_neg hk, sum_addBlock_miss X _ _ _ _ _ (col_miss z hk), sum_addBlock_miss X _ _ _ _ _ (col_miss z hk),
      add_zero]

/-- One line's bias segment adds, at position 64k+z, the gated bias when its target is k, and nothing otherwise. -/
theorem segStep_col (b : Fin 64 → ℝ) (g : Fin 7 → ℝ) (v : Fin 448 → ℝ) (l k : Fin 7) (z : Fin 64) :
    segStep b g v l (col k z) = v (col k z) + (if dst l = k then g l * b z else 0) := by
  unfold segStep
  by_cases hk : dst l = k
  · rw [if_pos hk, addSeg_hit _ _ _ _ z (by rw [col_val, hk])]
  · rw [if_neg hk, addSeg_miss _ _ _ _ (col_miss z hk), add_zero]

/-! ## The seven lines together -/

/-- The row against column 64k+z of the folded matrix is the sum over the seven lines of their contributions. -/
theorem sum_weff (X : Fin 448 → ℝ) (W : Fin 64 → Fin 128 → ℝ) (g : Fin 7 → ℝ) (k : Fin 7) (z : Fin 64) :
    ∑ r, X r * weff W g r (col k z)
      = ∑ l : Fin 7, if dst l = k then
          g l * ((∑ f : Fin 64, X ⟨64 * (src1 l).val + f.val, by omega⟩ * W z (Fin.castAdd 64 f))
                + ∑ f : Fin 64, X ⟨64 * (src2 l).val + f.val, by omega⟩ * W z (Fin.natAdd 64 f))
        else 0 := by
  unfold weff
  simp only [sum_lineStep]
  rw [Fin.sum_univ_seven]
  simp only [mul_zero, Finset.sum_const_zero, zero_add]

/-- Entry 64k+z of the folded vector is the sum over the seven lines of their gated biases. -/
theorem beff_col (b : Fin 64 → ℝ) (g : Fin 7 → ℝ) (k : Fin 7) (z : Fin 64) :
    beff b g (col k z) = ∑ l : Fin 7, if dst l = k then g l * b z else 0 := by
  unfold beff
  simp only [segStep_col]
  rw [Fin.sum_univ_seven]
  simp only [zero_add]

/-- Position 64s+f belongs to colony s … -/
theorem colony_mk (s : Fin 7) (f : Fin 64) (h : 64 * s.val + f.val < 448) :
    colony ⟨64 * s.val + f.val, h⟩ = s := Fin.ext (by simp only [colony]; omega)

/-- … and is its feature f. -/
theorem lane_mk (s : Fin 7) (f : Fin 64) (h : 64 * s.val + f.val < 448) :
    lane ⟨64 * s.val + f.val, h⟩ = f := Fin.ext (by simp only [lane]; omega)

/-- The identity over the reals: the row of the flattened state against column 64k+z of the folded matrix, plus entry
    64k+z of the folded vector, is the sum of the gated messages of the lines whose target is colony k. -/
theorem real_identity (Y : Fin 7 → Fin 64 → ℝ) (W : Fin 64 → Fin 128 → ℝ) (b : Fin 64 → ℝ) (g : Fin 7 → ℝ)
    (k : Fin 7) (z : Fin 64) :
    (∑ r : Fin 448, Y (colony r) (lane r) * weff W g r (col k z)) + beff b g (col k z)
      = ∑ l : Fin 7, if dst l = k then
          g l * (((∑ f : Fin 64, Y (src1 l) f * W z (Fin.castAdd 64 f))
                  + ∑ f : Fin 64, Y (src2 l) f * W z (Fin.natAdd 64 f)) + b z)
        else 0 := by
  rw [sum_weff (fun r => Y (colony r) (lane r)), beff_col, ← Finset.sum_add_distrib]
  refine Finset.sum_congr rfl (fun l _ => ?_)
  simp only [colony_mk, lane_mk]
  split_ifs
  · ring
  · rw [add_zero]

/-! ## Back to the extended reals -/

/-- With every entry real, the folded form and the line-by-line form give the same number: write each entry as the
    coercion of a real, pull the coercion out of both sides, and apply the real identity. -/
theorem kerAt_eq_outAt (x : SX.Idx → EReal) (W : SW.Idx → EReal) (b : SB.Idx → EReal) (g : SG.Idx → EReal)
    (hx : ∀ i, ∃ r : ℝ, x i = (r : EReal)) (hW : ∀ i, ∃ r : ℝ, W i = (r : EReal))
    (hb : ∀ i, ∃ r : ℝ, b i = (r : EReal)) (hg : ∀ i, ∃ r : ℝ, g i = (r : EReal))
    (p : Fin 131072) (k : Fin 7) (z : Fin 64) :
    kerAt x (weff (fun z q => W (ix2 z q)) (fun l => g (ix1 l))) (beff (fun z => b (ix1 z)) (fun l => g (ix1 l))) p k z
      = outAt x W b g p k z := by
  choose x' hx' using hx
  choose W' hW' using hW
  choose b' hb' using hb
  choose g' hg' using hg
  obtain rfl : x = fun i => (x' i : EReal) := funext hx'
  obtain rfl : W = fun i => (W' i : EReal) := funext hW'
  obtain rfl : b = fun i => (b' i : EReal) := funext hb'
  obtain rfl : g = fun i => (g' i : EReal) := funext hg'
  have hw := weff_map Real.toEReal EReal.coe_add EReal.coe_mul EReal.coe_zero
    (fun z q => W' (ix2 z q)) (fun l => g' (ix1 l))
  have hv := beff_map Real.toEReal EReal.coe_add EReal.coe_mul EReal.coe_zero
    (fun z => b' (ix1 z)) (fun l => g' (ix1 l))
  have key := congrArg Real.toEReal
    (real_identity (fun s f => x' (ix3 p s f)) (fun z q => W' (ix2 z q)) (fun z => b' (ix1 z)) (fun l => g' (ix1 l)) k z)
  simp only [EReal.coe_add, EReal.coe_mul, coe_sum, coe_ite, EReal.coe_zero] at key
  unfold kerAt outAt lin
  simp only [hw, hv]
  rw [key]

end Cert.Fano

end
-- ==== Proof.Finite.lean ====
/-
  Finiteness at the extended reals. Two facts the value proof rests on: when the finiteness test of the four input
  arrays answers true, every element of each array is a real number (neither infinity); and when the seven gate parameters
  are real numbers, so are the seven gate weights (the softmax of the parameters: each is an exponential of a real number
  divided by a positive real sum).
-/
import proofs.«400105_j43224550867196_3_alg».proof.Pre_finite_inputs
import proofs.«400105_j43224550867196_3_alg».proof.Proof.Gen.Pre_finite_inputs
import proofs.«400105_j43224550867196_3_alg».proof.Proof.Spec
import Idealize.ShloMosaic.PureOps.Ideal
import Idealize.ShloMosaic.PureOps.Ideal.Laws
import Idealize.ShloMosaic.Lib.ReduceAll
import Idealize.ShloMosaic.Lib.ValueIdx

noncomputable section

namespace Cert.Fano

open Idealize.ShloMosaic Idealize.ShloMosaic.ValueIdx

/-! ## Finite inputs are real numbers -/

/-- An extended real whose absolute value (the larger of itself and its negation) lies strictly below `+∞` is a real
    number: `-∞` and `+∞` both have absolute value `+∞`. -/
theorem real_of_abs_lt_top (v : EReal) (h : max v (-v) < ⊤) : ∃ r : ℝ, v = (r : EReal) := by
  induction v using EReal.rec with
  | bot => simp at h
  | top => simp at h
  | coe r => exact ⟨r, rfl⟩

/-- The f32 word `0x7F800000` denotes `+∞`. -/
theorem ofBits_pos_inf : Ideal.ofBits .f32 0x7F800000#32 = ⊤ := by simp [Ideal.ofBits, Ideal.ieee]

/-- The rank-zero shape has one index. -/
instance subsingleton_scalar_idx : Subsingleton Cert.Pre_finite_inputs.S_.Idx := ⟨fun a b => funext fun d => d.elim0⟩

/-- One element of the finiteness test: where the comparison `|x| < +∞` answers true at an index, the element there is a
    real number. -/
theorem real_of_test {s : Shape} (hb : Cert.Pre_finite_inputs.S_.BroadcastsInDim s (![] : Fin 0 → Fin s.rank))
    (x : FVec Ideal s .f32) (i : s.Idx)
    (h : cmpf .olt (Host.absf x) (broadcastInDim s ![] hb (constant Cert.Pre_finite_inputs.S_ .f32 0x7F800000#32)) i = 1#1) :
    ∃ r : ℝ, x i = (r : EReal) := by
  refine real_of_abs_lt_top (x i) ?_
  have h' : Ideal.cmp .olt (max (x i) (-(x i))) (Ideal.ofBits .f32 0x7F800000#32) = 1#1 := h
  rw [ofBits_pos_inf] at h'
  by_contra hn
  simp [Ideal.cmp, hn] at h'

/-- The finiteness predicate answering true says every element of the four arrays is a real number: the predicate
    is the conjunction of four all-element tests `|v| < +∞`, a conjunction that is true has four true parts, an
    all-element test that is true is true at each index, and an extended real of finite absolute value is real. -/
theorem real_of_pre [Cert.Pre_finite_inputs.Facts] (x : FVec Ideal Cert.Pre_finite_inputs.S131072x7x64 .f32)
    (W : FVec Ideal Cert.Pre_finite_inputs.S64x128 .f32) (b : FVec Ideal Cert.Pre_finite_inputs.S64 .f32)
    (a : FVec Ideal Cert.Pre_finite_inputs.S7 .f32)
    (h : Cert.Pre_finite_inputs.fn (F := Ideal) x W b a = fun _ => 1#1) :
    (∀ i, ∃ r : ℝ, x i = (r : EReal)) ∧ (∀ i, ∃ r : ℝ, W i = (r : EReal)) ∧ (∀ i, ∃ r : ℝ, b i = (r : EReal))
      ∧ (∀ i, ∃ r : ℝ, a i = (r : EReal)) := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨fun i => real_of_test _ x i (Host.reduce_andi_all _ _ _ _ _ h1 i),
    fun i => real_of_test _ W i (Host.reduce_andi_all _ _ _ _ _ h2 i),
    fun i => real_of_test _ b i (Host.reduce_andi_all _ _ _ _ _ h3 i),
    fun i => real_of_test _ a i (Host.reduce_andi_all _ _ _ _ _ h4 i)⟩

/-! ## The gate weights are real numbers -/

/-- A sum of real numbers, taken among the extended reals, is the real sum. -/
theorem sum_coe {ι : Type} (s : Finset ι) (f : ι → ℝ) : (∑ i ∈ s, (f i : EReal)) = ((∑ i ∈ s, f i : ℝ) : EReal) := by
  induction s using Finset.cons_induction with
  | empty => simp
  | cons k s hk ih => rw [Finset.sum_cons, Finset.sum_cons, ih, EReal.coe_add]

/-- An extended real strictly between `-∞` and `+∞` is a real number. -/
theorem real_of_between {v : EReal} (hlo : ⊥ < v) (hhi : v < ⊤) : ∃ r : ℝ, v = (r : EReal) :=
  ⟨v.toReal, (EReal.coe_toReal hhi.ne hlo.ne').symm⟩

/-- The f32 word `0xFF800000` denotes `-∞`. -/
theorem ofBits_neg_inf : Ideal.ofBits .f32 0xFF800000#32 = ⊥ := by simp [Ideal.ofBits, Ideal.ieee]

/-- The rank-zero shape of the gate's reductions has one index. -/
instance subsingleton_S0_idx : Subsingleton S0.Idx := ⟨fun a b => funext fun d => d.elim0⟩

/-- A scalar broadcast to one element and then along the seven gates reads the scalar at every gate. -/
theorem bcast_scalar_apply {α : Type} {d0 : Fin S0.rank → Fin S1.rank} {d1 : Fin S1.rank → Fin SG.rank}
    (h3 : S0.BroadcastsInDim S1 d0) (h4 : S1.BroadcastsInDim SG d1) (v : S0.Idx → α) (i : SG.Idx) :
    broadcastInDim SG d1 h4 (broadcastInDim S1 d0 h3 v) i = v ix0 := by
  unfold broadcastInDim
  exact congrArg v (Subsingleton.elim _ _)

/-- The maximum the gate subtracts: the larger of `-∞` and the running maximum of the seven parameters from `-∞`. -/
def gmax (h1 : SG.ReducesTo [0] S0) (h2 : 0 < S0.numel) (a : FVec Ideal SG .f32) : EReal :=
  max (Ideal.ofBits .f32 0xFF800000#32)
    (Host.reduce (FloatOps.maximumf (F := Ideal) (φ := .f32)) a (constant (F := Ideal) S0 .f32 0xFF800000#32) h1 h2 ix0)

/-- The gate at one index, written out: the exponential of the parameter less the maximum, divided by the sum from
    zero of the seven such exponentials. -/
theorem gate_apply (h1 : SG.ReducesTo [0] S0) (h2 : 0 < S0.numel) (h3 : S0.BroadcastsInDim S1 (![] : Fin 0 → Fin S1.rank))
    (h4 : S1.BroadcastsInDim SG (![0] : Fin 1 → Fin SG.rank)) (a : FVec Ideal SG .f32) (i : SG.Idx) :
    gate (F := Ideal) h1 h2 h3 h4 a i
      = Ideal.div (Ideal.exp (a i - gmax h1 h2 a))
          (Ideal.hostReduceAdd h1 (fun k => Ideal.exp (a k - gmax h1 h2 a)) (Ideal.ofBits .f32 0x00000000#32) ix0) := by
  unfold gate
  simp only [Host.divf, Host.exp, subf, bcast_scalar_apply]
  refine congrArg₂ Ideal.div rfl ?_
  refine congrArg (fun f : SG.Idx → EReal => Ideal.hostReduceAdd h1 f (Ideal.ofBits .f32 0x00000000#32) ix0)
    (funext fun k => ?_)
  simp only [Host.exp, subf, bcast_scalar_apply]
  rfl

/-- The running maximum, from a start below `+∞`, of a nonempty family of real numbers is a real number: it is at
    least one of them, so above `-∞`, and every term and the start lie below `+∞`. -/
theorem fold_max_real {ι : Type} (s : Finset ι) (hs : s.Nonempty) (b : EReal) (hb : b < ⊤) (f : ι → EReal)
    (hf : ∀ i ∈ s, ∃ r : ℝ, f i = (r : EReal)) : ∃ m : ℝ, s.fold max b f = (m : EReal) := by
  obtain ⟨k, hk⟩ := hs
  refine real_of_between ?_ ?_
  · obtain ⟨r, hr⟩ := hf k hk
    exact (Finset.lt_fold_max _).2 (Or.inr ⟨k, hk, hr ▸ EReal.bot_lt_coe r⟩)
  · refine (Finset.fold_max_lt _).2 ⟨hb, fun i hi => ?_⟩
    obtain ⟨r, hr⟩ := hf i hi
    rw [hr]
    exact EReal.coe_lt_top r

/-- With every parameter real, the maximum the gate subtracts is a real number. -/
theorem gmax_real (h1 : SG.ReducesTo [0] S0) (h2 : 0 < S0.numel) (a : FVec Ideal SG .f32)
    (ha : ∀ i, ∃ r : ℝ, a i = (r : EReal)) : ∃ m : ℝ, gmax h1 h2 a = (m : EReal) := by
  have hR : ∃ m : ℝ, Host.reduce (FloatOps.maximumf (F := Ideal) (φ := .f32)) a
      (constant (F := Ideal) S0 .f32 0xFF800000#32) h1 h2 ix0 = (m : EReal) := by
    rw [Host.reduce_eq_fold]
    refine fold_max_real _ ⟨(ix1 (0 : Fin 7) : SG.Idx), Finset.mem_filter.2 ⟨Finset.mem_univ _, eq_ix0 _⟩⟩ _ ?_ a
      (fun k _ => ha k)
    show Ideal.ofBits .f32 0xFF800000#32 < ⊤
    rw [ofBits_neg_inf]
    exact bot_lt_top
  obtain ⟨m, hm⟩ := hR
  refine ⟨m, ?_⟩
  unfold gmax
  rw [hm, ofBits_neg_inf]
  exact max_eq_right bot_le

/-- With every parameter real, every gate weight is a real number: the maximum `m` is real, each exponential
    `exp (aₖ - m)` is the real exponential of a real number, their sum from zero is a sum of positive reals, hence a
    nonzero real, and a real number divided by a nonzero real is real. -/
theorem gate_real (h1 : SG.ReducesTo [0] S0) (h2 : 0 < S0.numel) (h3 : S0.BroadcastsInDim S1 (![] : Fin 0 → Fin S1.rank))
    (h4 : S1.BroadcastsInDim SG (![0] : Fin 1 → Fin SG.rank)) (a : FVec Ideal SG .f32)
    (ha : ∀ i, ∃ r : ℝ, a i = (r : EReal)) :
    ∀ i, ∃ r : ℝ, gate (F := Ideal) h1 h2 h3 h4 a i = (r : EReal) := by
  intro i
  obtain ⟨m, hm⟩ := gmax_real h1 h2 a ha
  choose ra hra using ha
  have he : ∀ k, Ideal.exp (a k - gmax h1 h2 a) = ((Real.exp (ra k - m) : ℝ) : EReal) := fun k => by
    rw [hra k, hm, ← EReal.coe_sub, Ideal.exp_coe]
  rw [gate_apply, Ideal.hostReduceAdd_total h1 (fun b => b.elim0), Ideal.ofBits_zero_f32, zero_add]
  simp only [he]
  rw [sum_coe]
  have hpos : 0 < ∑ k : SG.Idx, Real.exp (ra k - m) :=
    Finset.sum_pos (fun k _ => Real.exp_pos _) ⟨(ix1 (0 : Fin 7) : SG.Idx), Finset.mem_univ _⟩
  rw [Ideal.div_coe hpos.ne', ← EReal.coe_mul]
  exact ⟨_, rfl⟩

end Cert.Fano

end
-- ==== Proof.Result.lean ====
/-
  The two programs' results are one array.

  At an index `(p, k, z)` the reference's result is the layer line by line (`outAt`), with the gate weights the softmax
  of the gate parameters. The kernel's result there is the state entry plus row `p` of the flattened state against
  column `64k+z` of the folded matrix plus entry `64k+z` of the folded bias row — the folded form `kerAt`, since
  position `64k+z` of a flattened row is colony `k`, feature `z`. Every input entry is a real number by the
  precondition, and so is every gate weight; for real entries the folded form and the line-by-line form agree.
-/
import proofs.«400105_j43224550867196_3_alg».proof.Defs
import proofs.«400105_j43224550867196_3_alg».proof.Proof.Gen.Pre_finite_inputs
import proofs.«400105_j43224550867196_3_alg».proof.Proof.RefValue
import proofs.«400105_j43224550867196_3_alg».proof.Proof.KerHost
import proofs.«400105_j43224550867196_3_alg».proof.Proof.KerRun
import proofs.«400105_j43224550867196_3_alg».proof.Proof.Bridge
import proofs.«400105_j43224550867196_3_alg».proof.Proof.Finite

noncomputable section

namespace Cert.Proof.Value

open Idealize.ShloMosaic Idealize.ShloMosaic.ValueIdx Idealize.ShloMosaic.TcCoe Idealize.SL.Sem
open Cert.KernelIdeal.KerValue

/-- Flattened position `64k + z` lies in colony `k`. -/
theorem colony_col (k : Fin 7) (z : Fin 64) : Cert.Fano.colony (Cert.Fano.col k z) = k := by
  apply Fin.ext
  simp only [Cert.Fano.colony, Cert.Fano.col]
  omega

/-- Flattened position `64k + z` is feature `z` of its colony. -/
theorem lane_col (k : Fin 7) (z : Fin 64) : Cert.Fano.lane (Cert.Fano.col k z) = z := by
  apply Fin.ext
  simp only [Cert.Fano.lane, Cert.Fano.col]
  omega

/-- Under the precondition the reference's term of the kernel's argument arrays is the kernel's result array. -/
theorem result_eq (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal) (Xin m c) (Win m c) (Bin m c) (Gin m c) = fun _ => 1#1) :
    Cert.ReferenceIdeal.RefValue.refTerm (F := Ideal) (Xin m c) (Win m c) (Bin m c) (Gin m c) = kerOut m c := by
  obtain ⟨hx, hW, hb, ha⟩ := Cert.Fano.real_of_pre _ _ _ _ hpre
  funext i
  obtain ⟨p, k, z, rfl⟩ : ∃ (p : Fin 131072) (k : Fin 7) (z : Fin 64), i = ix3 p k z := ⟨i 0, i 1, i 2, eq_ix3 i⟩
  have hsum : (∑ r : Fin 448, Xarr m c (ix2 p r) * Warr m c (ix2 r (Cert.Fano.col k z)))
      = ∑ r : Fin 448, Xin m c (ix3 p (Cert.Fano.colony r) (Cert.Fano.lane r))
          * Cert.Fano.weff (fun z f => Win m c (ix2 z f)) (fun l => gateOf m c (ix1 l)) r (Cert.Fano.col k z) :=
    Finset.sum_congr rfl (fun r _ => by rw [Xarr_apply, Warr_apply])
  rw [Cert.ReferenceIdeal.RefValue.refTerm_apply, kerOut_apply, hsum, Xarr_apply, Barr_apply, colony_col, lane_col]
  exact (Cert.Fano.kerAt_eq_outAt (Xin m c) (Win m c) (Bin m c) (gateOf m c) hx hW hb
    (Cert.Fano.gate_real _ _ _ _ _ ha) p k z).symm

end Cert.Proof.Value

end
-- ==== Proof.lean ====
/- The proof of `Cert.Claim`: a Fano-plane message-passing layer computed by one folded matrix product equals the
   layer computed line by line.

   The kernel program folds the seven lines, their softmax gate weights and the shared weight into one 448×448 matrix and
   one 448-entry bias row on the host, and its one region computes `x + (x·M + row)` block by block on the state flattened
   to `[131072, 448]`; the reference gathers each line's two source colonies, applies the shared linear map, scales by the
   gate weight and accumulates into the target colony. Both frames of the kernel programs are the generated ones; the
   reference's frame is its run with the result dropped; nothing was rewritten by the idealization, so `preserves` is
   trivial; `algebraic` puts the kernel's run (result array named) beside the reference's run (result term named) and
   identifies the two arrays index by index, using that every input is finite. -/
import proofs.«400105_j43224550867196_3_alg».proof.Defs
import proofs.«400105_j43224550867196_3_alg».proof.Proof.Gen.Kernel
import proofs.«400105_j43224550867196_3_alg».proof.Proof.Gen.Kernel.Frame
import proofs.«400105_j43224550867196_3_alg».proof.Proof.Gen.KernelIdeal
import proofs.«400105_j43224550867196_3_alg».proof.Proof.Gen.KernelIdeal.Frame
import proofs.«400105_j43224550867196_3_alg».proof.Proof.Gen.ReferenceIdeal
import proofs.«400105_j43224550867196_3_alg».proof.Proof.Gen.Pre_finite_inputs
import proofs.«400105_j43224550867196_3_alg».proof.Proof.RefRun
import proofs.«400105_j43224550867196_3_alg».proof.Proof.KerRun
import proofs.«400105_j43224550867196_3_alg».proof.Proof.Result
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference terminates with its arguments unchanged: its run, the result forgotten. -/
theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both idealized programs end, and with the same result array: the kernel's named result, which under the
    precondition is the reference's term of the same arguments. -/
theorem algebraic : Cert.algebraic_KernelIdeal_ReferenceIdeal := by
  intro m ρ m' ρ' hpre hagree
  refine ⟨fun c => Cert.KernelIdeal.KerValue.kerOut m c, Cert.KernelIdeal.KerValue.kerRun m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2]
  exact Cert.Proof.Value.result_eq m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
